-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S24576x768 : Shape := ⟨2, ![24576, 768]⟩
abbrev S_ : Shape := ⟨0, ![]⟩

class Facts : Prop where
  bcast_S_S24576x768 : S_.BroadcastsInDim S24576x768 (![] : Fin 0 → Fin S24576x768.rank)
  reducesTo_S24576x768_S_d0_1 : S24576x768.ReducesTo [0, 1] S_
  h_S_ : 0 < S_.numel

variable [Facts]

def fn {F : FTy → Type} [FloatOps F] (main_arg0 : FVec F S24576x768 .f32) : IVec S_ 1 :=
  let main_v0 : FVec F S24576x768 .f32 := Host.absf main_arg0
  let main_cst : FVec F S_ .f32 := constant S_ .f32 0x7F800000#32
  let main_v1 : FVec F S24576x768 .f32 := broadcastInDim S24576x768 ![] bcast_S_S24576x768 main_cst
  let main_v2 : IVec S24576x768 1 := cmpf .olt main_v0 main_v1
  let main_c : IVec S_ 1 := constantI S_ 1 1#1
  let main_v3 : IVec S_ 1 := (fun x v => Host.reduce IntOp.andi x v reducesTo_S24576x768_S_d0_1 h_S_) main_v2 main_c
  main_v3
-- ==== Kernel.lean ====
abbrev S1536x768 : Shape := ⟨2, ![1536, 768]⟩
abbrev S1x768 : Shape := ⟨2, ![1, 768]⟩
abbrev S15x768 : Shape := ⟨2, ![15, 768]⟩
abbrev S15 : Shape := ⟨1, ![15]⟩
abbrev S_ : Shape := ⟨0, ![]⟩
abbrev S768 : Shape := ⟨1, ![768]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S15x768, .f32⟩
  | .local _ .vmem, ⟨3, _⟩ => ⟨S1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v206 : BitVec 32 := Scalar.addi v2 c1_i32_139
  let c16_i32_140 : BitVec 32 := 16#32
  let c0_i32_141 : BitVec 32 := 0#32
  let v207 : BitVec 1 := Scalar.cmpi .eq c16_i32_140 c0_i32_141
  let c1_i32_142 : BitVec 32 := 1#32
  let v208 : BitVec 32 := Scalar.select v207 c1_i32_142 c16_i32_140
  let v209 : BitVec 32 := Scalar.remsi v206 v208
  let c0_i32_144 : BitVec 32 := 0#32
  let v211 : BitVec 1 := Scalar.cmpi .slt v209 c0_i32_144
  let c0_i32_145 : BitVec 32 := 0#32
  let v212 : BitVec 1 := Scalar.cmpi .slt v208 c0_i32_145
  let v213 : BitVec 1 := Scalar.xori v211 v212
  let c0_i32_143 : BitVec 32 := 0#32
  let v210 : BitVec 1 := Scalar.cmpi .ne v209 c0_i32_143
  let v214 : BitVec 1 := Scalar.andi v213 v210
  let v215 : BitVec 32 := Scalar.addi v209 v208
  let v216 : BitVec 32 := Scalar.select v214 v215 v209
  let c1_i32_148 : BitVec 32 := 1#32
  let v217 : BitVec 32 := Scalar.muli v216 c1_i32_148
  let v218 : BitVec 32 := Scalar.addi c0_i32_149 v217
  v218.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_152 : BitVec 32 := 2#32
  let v224 : BitVec 32 := Scalar.addi v2 c2_i32_152
  let c16_i32_153 : BitVec 32 := 16#32
  let c0_i32_154 : BitVec 32 := 0#32
  let v225 : BitVec 1 := Scalar.cmpi .eq c16_i32_153 c0_i32_154
  let c1_i32_155 : BitVec 32 := 1#32
  let v226 : BitVec 32 := Scalar.select v225 c1_i32_155 c16_i32_153
  let v227 : BitVec 32 := Scalar.remsi v224 v226
  let c0_i32_157 : BitVec 32 := 0#32
  let v229 : BitVec 1 := Scalar.cmpi .slt v227 c0_i32_157
  let c0_i32_158 : BitVec 32 := 0#32
  let v230 : BitVec 1 := Scalar.cmpi .slt v226 c0_i32_158
  let v231 : BitVec 1 := Scalar.xori v229 v230
  let c0_i32_156 : BitVec 32 := 0#32
  let v228 : BitVec 1 := Scalar.cmpi .ne v227 c0_i32_156
  let v232 : BitVec 1 := Scalar.andi v231 v228
  let v233 : BitVec 32 := Scalar.addi v227 v226
  let v234 : BitVec 32 := Scalar.select v232 v233 v227
  let c1_i32_161 : BitVec 32 := 1#32
  let v235 : BitVec 32 := Scalar.muli v234 c1_i32_161
  let v236 : BitVec 32 := Scalar.addi c0_i32_162 v235
  v236.toNat
def k0_dev18 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_165 : BitVec 32 := 3#32
  let v242 : BitVec 32 := Scalar.addi v2 c3_i32_165
  let c16_i32_166 : BitVec 32 := 16#32
  let c0_i32_167 : BitVec 32 := 0#32
  let v243 : BitVec 1 := Scalar.cmpi .eq c16_i32_166 c0_i32_167
  let c1_i32_168 : BitVec 32 := 1#32
  let v244 : BitVec 32 := Scalar.select v243 c1_i32_168 c16_i32_166
  let v245 : BitVec 32 := Scalar.remsi v242 v244
  let c0_i32_170 : BitVec 32 := 0#32
  let v247 : BitVec 1 := Scalar.cmpi .slt v245 c0_i32_170
  let c0_i32_171 : BitVec 32 := 0#32
  let v248 : BitVec 1 := Scalar.cmpi .slt v244 c0_i32_171
  let v249 : BitVec 1 := Scalar.xori v247 v248
  let c0_i32_169 : BitVec 32 := 0#32
  let v246 : BitVec 1 := Scalar.cmpi .ne v245 c0_i32_169
  let v250 : BitVec 1 := Scalar.andi v249 v246
  let v251 : BitVec 32 := Scalar.addi v245 v244
  let v252 : BitVec 32 := Scalar.select v250 v251 v245
  let c1_i32_174 : BitVec 32 := 1#32
  let v253 : BitVec 32 := Scalar.muli v252 c1_i32_174
  let v254 : BitVec 32 := Scalar.addi c0_i32_175 v253
  v254.toNat
def k0_dev19 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_178 : BitVec 32 := 4#32
  let v260 : BitVec 32 := Scalar.addi v2 c4_i32_178
  let c16_i32_179 : BitVec 32 := 16#32
  let c0_i32_180 : BitVec 32 := 0#32
  let v261 : BitVec 1 := Scalar.cmpi .eq c16_i32_179 c0_i32_180
  let c1_i32_181 : BitVec 32 := 1#32
  let v262 : BitVec 32 := Scalar.select v261 c1_i32_181 c16_i32_179
  let v263 : BitVec 32 := Scalar.remsi v260 v262
  let c0_i32_183 : BitVec 32 := 0#32
  let v265 : BitVec 1 := Scalar.cmpi .slt v263 c0_i32_183
  let c0_i32_184 : BitVec 32 := 0#32
  let v266 : BitVec 1 := Scalar.cmpi .slt v262 c0_i32_184
  let v267 : BitVec 1 := Scalar.xori v265 v266
  let c0_i32_182 : BitVec 32 := 0#32
  let v264 : BitVec 1 := Scalar.cmpi .ne v263 c0_i32_182
  let v268 : BitVec 1 := Scalar.andi v267 v264
  let v269 : BitVec 32 := Scalar.addi v263 v262
  let v270 : BitVec 32 := Scalar.select v268 v269 v263
  let c1_i32_187 : BitVec 32 := 1#32
  let v271 : BitVec 32 := Scalar.muli v270 c1_i32_187
  let v272 : BitVec 32 := Scalar.addi c0_i32_188 v271
  v272.toNat
def k0_dev20 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_191 : BitVec 32 := 5#32
  let v278 : BitVec 32 := Scalar.addi v2 c5_i32_191
  let c16_i32_192 : BitVec 32 := 16#32
  let c0_i32_193 : BitVec 32 := 0#32
  let v279 : BitVec 1 := Scalar.cmpi .eq c16_i32_192 c0_i32_193
  let c1_i32_194 : BitVec 32 := 1#32
  let v280 : BitVec 32 := Scalar.select v279 c1_i32_194 c16_i32_192
  let v281 : BitVec 32 := Scalar.remsi v278 v280
  let c0_i32_196 : BitVec 32 := 0#32
  let v283 : BitVec 1 := Scalar.cmpi .slt v281 c0_i32_196
  let c0_i32_197 : BitVec 32 := 0#32
  let v284 : BitVec 1 := Scalar.cmpi .slt v280 c0_i32_197
  let v285 : BitVec 1 := Scalar.xori v283 v284
  let c0_i32_195 : BitVec 32 := 0#32
  let v282 : BitVec 1 := Scalar.cmpi .ne v281 c0_i32_195
  let v286 : BitVec 1 := Scalar.andi v285 v282
  let v287 : BitVec 32 := Scalar.addi v281 v280
  let v288 : BitVec 32 := Scalar.select v286 v287 v281
  let c1_i32_200 : BitVec 32 := 1#32
  let v289 : BitVec 32 := Scalar.muli v288 c1_i32_200
  let v290 : BitVec 32 := Scalar.addi c0_i32_201 v289
  v290.toNat
def k0_dev21 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_204 : BitVec 32 := 6#32
  let v296 : BitVec 32 := Scalar.addi v2 c6_i32_204
  let c16_i32_205 : BitVec 32 := 16#32
  let c0_i32_206 : BitVec 32 := 0#32
  let v297 : BitVec 1 := Scalar.cmpi .eq c16_i32_205 c0_i32_206
  let c1_i32_207 : BitVec 32 := 1#32
  let v298 : BitVec 32 := Scalar.select v297 c1_i32_207 c16_i32_205
  let v299 : BitVec 32 := Scalar.remsi v296 v298
  let c0_i32_209 : BitVec 32 := 0#32
  let v301 : BitVec 1 := Scalar.cmpi .slt v299 c0_i32_209
  let c0_i32_210 : BitVec 32 := 0#32
  let v302 : BitVec 1 := Scalar.cmpi .slt v298 c0_i32_210
  let v303 : BitVec 1 := Scalar.xori v301 v302
  let c0_i32_208 : BitVec 32 := 0#32
  let v300 : BitVec 1 := Scalar.cmpi .ne v299 c0_i32_208
  let v304 : BitVec 1 := Scalar.andi v303 v300
  let v305 : BitVec 32 := Scalar.addi v299 v298
  let v306 : BitVec 32 := Scalar.select v304 v305 v299
  let c1_i32_213 : BitVec 32 := 1#32
  let v307 : BitVec 32 := Scalar.muli v306 c1_i32_213
  let v308 : BitVec 32 := Scalar.addi c0_i32_214 v307
  v308.toNat
def k0_dev22 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_217 : BitVec 32 := 7#32
  let v314 : BitVec 32 := Scalar.addi v2 c7_i32_217
  let c16_i32_218 : BitVec 32 := 16#32
  let c0_i32_219 : BitVec 32 := 0#32
  let v315 : BitVec 1 := Scalar.cmpi .eq c16_i32_218 c0_i32_219
  let c1_i32_220 : BitVec 32 := 1#32
  let v316 : BitVec 32 := Scalar.select v315 c1_i32_220 c16_i32_218
  let v317 : BitVec 32 := Scalar.remsi v314 v316
  let c0_i32_222 : BitVec 32 := 0#32
  let v319 : BitVec 1 := Scalar.cmpi .slt v317 c0_i32_222
  let c0_i32_223 : BitVec 32 := 0#32
  let v320 : BitVec 1 := Scalar.cmpi .slt v316 c0_i32_223
  let v321 : BitVec 1 := Scalar.xori v319 v320
  let c0_i32_221 : BitVec 32 := 0#32
  let v318 : BitVec 1 := Scalar.cmpi .ne v317 c0_i32_221
  let v322 : BitVec 1 := Scalar.andi v321 v318
  let v323 : BitVec 32 := Scalar.addi v317 v316
  let v324 : BitVec 32 := Scalar.select v322 v323 v317
  let c1_i32_226 : BitVec 32 := 1#32
  let v325 : BitVec 32 := Scalar.muli v324 c1_i32_226
  let v326 : BitVec 32 := Scalar.addi c0_i32_227 v325
  v326.toNat
def k0_dev23 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_230 : BitVec 32 := 8#32
  let v332 : BitVec 32 := Scalar.addi v2 c8_i32_230
  let c16_i32_231 : BitVec 32 := 16#32
  let c0_i32_232 : BitVec 32 := 0#32
  let v333 : BitVec 1 := Scalar.cmpi .eq c16_i32_231 c0_i32_232
  let c1_i32_233 : BitVec 32 := 1#32
  let v334 : BitVec 32 := Scalar.select v333 c1_i32_233 c16_i32_231
  let v335 : BitVec 32 := Scalar.remsi v332 v334
  let c0_i32_235 : BitVec 32 := 0#32
  let v337 : BitVec 1 := Scalar.cmpi .slt v335 c0_i32_235
  let c0_i32_236 : BitVec 32 := 0#32
  let v338 : BitVec 1 := Scalar.cmpi .slt v334 c0_i32_236
  let v339 : BitVec 1 := Scalar.xori v337 v338
  let c0_i32_234 : BitVec 32 := 0#32
  let v336 : BitVec 1 := Scalar.cmpi .ne v335 c0_i32_234
  let v340 : BitVec 1 := Scalar.andi v339 v336
  let v341 : BitVec 32 := Scalar.addi v335 v334
  let v342 : BitVec 32 := Scalar.select v340 v341 v335
  let c1_i32_239 : BitVec 32 := 1#32
  let v343 : BitVec 32 := Scalar.muli v342 c1_i32_239
  let v344 : BitVec 32 := Scalar.addi c0_i32_240 v343
  v344.toNat
def k0_dev24 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_243 : BitVec 32 := 9#32
  let v350 : BitVec 32 := Scalar.addi v2 c9_i32_243
  let c16_i32_244 : BitVec 32 := 16#32
  let c0_i32_245 : BitVec 32 := 0#32
  let v351 : BitVec 1 := Scalar.cmpi .eq c16_i32_244 c0_i32_245
  let c1_i32_246 : BitVec 32 := 1#32
  let v352 : BitVec 32 := Scalar.select v351 c1_i32_246 c16_i32_244
  let v353 : BitVec 32 := Scalar.remsi v350 v352
  let c0_i32_248 : BitVec 32 := 0#32
  let v355 : BitVec 1 := Scalar.cmpi .slt v353 c0_i32_248
  let c0_i32_249 : BitVec 32 := 0#32
  let v356 : BitVec 1 := Scalar.cmpi .slt v352 c0_i32_249
  let v357 : BitVec 1 := Scalar.xori v355 v356
  let c0_i32_247 : BitVec 32 := 0#32
  let v354 : BitVec 1 := Scalar.cmpi .ne v353 c0_i32_247
  let v358 : BitVec 1 := Scalar.andi v357 v354
  let v359 : BitVec 32 := Scalar.addi v353 v352
  let v360 : BitVec 32 := Scalar.select v358 v359 v353
  let c1_i32_252 : BitVec 32 := 1#32
  let v361 : BitVec 32 := Scalar.muli v360 c1_i32_252
  let v362 : BitVec 32 := Scalar.addi c0_i32_253 v361
  v362.toNat
def k0_dev25 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_256 : BitVec 32 := 10#32
  let v368 : BitVec 32 := Scalar.addi v2 c10_i32_256
  let c16_i32_257 : BitVec 32 := 16#32
  let c0_i32_258 : BitVec 32 := 0#32
  let v369 : BitVec 1 := Scalar.cmpi .eq c16_i32_257 c0_i32_258
  let c1_i32_259 : BitVec 32 := 1#32
  let v370 : BitVec 32 := Scalar.select v369 c1_i32_259 c16_i32_257
  let v371 : BitVec 32 := Scalar.remsi v368 v370
  let c0_i32_261 : BitVec 32 := 0#32
  let v373 : BitVec 1 := Scalar.cmpi .slt v371 c0_i32_261
  let c0_i32_262 : BitVec 32 := 0#32
  let v374 : BitVec 1 := Scalar.cmpi .slt v370 c0_i32_262
  let v375 : BitVec 1 := Scalar.xori v373 v374
  let c0_i32_260 : BitVec 32 := 0#32
  let v372 : BitVec 1 := Scalar.cmpi .ne v371 c0_i32_260
  let v376 : BitVec 1 := Scalar.andi v375 v372
  let v377 : BitVec 32 := Scalar.addi v371 v370
  let v378 : BitVec 32 := Scalar.select v376 v377 v371
  let c1_i32_265 : BitVec 32 := 1#32
  let v379 : BitVec 32 := Scalar.muli v378 c1_i32_265
  let v380 : BitVec 32 := Scalar.addi c0_i32_266 v379
  v380.toNat
def k0_dev26 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_269 : BitVec 32 := 11#32
  let v386 : BitVec 32 := Scalar.addi v2 c11_i32_269
  let c16_i32_270 : BitVec 32 := 16#32
  let c0_i32_271 : BitVec 32 := 0#32
  let v387 : BitVec 1 := Scalar.cmpi .eq c16_i32_270 c0_i32_271
  let c1_i32_272 : BitVec 32 := 1#32
  let v388 : BitVec 32 := Scalar.select v387 c1_i32_272 c16_i32_270
  let v389 : BitVec 32 := Scalar.remsi v386 v388
  let c0_i32_274 : BitVec 32 := 0#32
  let v391 : BitVec 1 := Scalar.cmpi .slt v389 c0_i32_274
  let c0_i32_275 : BitVec 32 := 0#32
  let v392 : BitVec 1 := Scalar.cmpi .slt v388 c0_i32_275
  let v393 : BitVec 1 := Scalar.xori v391 v392
  let c0_i32_273 : BitVec 32 := 0#32
  let v390 : BitVec 1 := Scalar.cmpi .ne v389 c0_i32_273
  let v394 : BitVec 1 := Scalar.andi v393 v390
  let v395 : BitVec 32 := Scalar.addi v389 v388
  let v396 : BitVec 32 := Scalar.select v394 v395 v389
  let c1_i32_278 : BitVec 32 := 1#32
  let v397 : BitVec 32 := Scalar.muli v396 c1_i32_278
  let v398 : BitVec 32 := Scalar.addi c0_i32_279 v397
  v398.toNat
def k0_dev27 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_282 : BitVec 32 := 12#32
  let v404 : BitVec 32 := Scalar.addi v2 c12_i32_282
  let c16_i32_283 : BitVec 32 := 16#32
  let c0_i32_284 : BitVec 32 := 0#32
  let v405 : BitVec 1 := Scalar.cmpi .eq c16_i32_283 c0_i32_284
  let c1_i32_285 : BitVec 32 := 1#32
  let v406 : BitVec 32 := Scalar.select v405 c1_i32_285 c16_i32_283
  let v407 : BitVec 32 := Scalar.remsi v404 v406
  let c0_i32_287 : BitVec 32 := 0#32
  let v409 : BitVec 1 := Scalar.cmpi .slt v407 c0_i32_287
  let c0_i32_288 : BitVec 32 := 0#32
  let v410 : BitVec 1 := Scalar.cmpi .slt v406 c0_i32_288
  let v411 : BitVec 1 := Scalar.xori v409 v410
  let c0_i32_286 : BitVec 32 := 0#32
  let v408 : BitVec 1 := Scalar.cmpi .ne v407 c0_i32_286
  let v412 : BitVec 1 := Scalar.andi v411 v408
  let v413 : BitVec 32 := Scalar.addi v407 v406
  let v414 : BitVec 32 := Scalar.select v412 v413 v407
  let c1_i32_291 : BitVec 32 := 1#32
  let v415 : BitVec 32 := Scalar.muli v414 c1_i32_291
  let v416 : BitVec 32 := Scalar.addi c0_i32_292 v415
  v416.toNat
def k0_dev28 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_295 : BitVec 32 := 13#32
  let v422 : BitVec 32 := Scalar.addi v2 c13_i32_295
  let c16_i32_296 : BitVec 32 := 16#32
  let c0_i32_297 : BitVec 32 := 0#32
  let v423 : BitVec 1 := Scalar.cmpi .eq c16_i32_296 c0_i32_297
  let c1_i32_298 : BitVec 32 := 1#32
  let v424 : BitVec 32 := Scalar.select v423 c1_i32_298 c16_i32_296
  let v425 : BitVec 32 := Scalar.remsi v422 v424
  let c0_i32_300 : BitVec 32 := 0#32
  let v427 : BitVec 1 := Scalar.cmpi .slt v425 c0_i32_300
  let c0_i32_301 : BitVec 32 := 0#32
  let v428 : BitVec 1 := Scalar.cmpi .slt v424 c0_i32_301
  let v429 : BitVec 1 := Scalar.xori v427 v428
  let c0_i32_299 : BitVec 32 := 0#32
  let v426 : BitVec 1 := Scalar.cmpi .ne v425 c0_i32_299
  let v430 : BitVec 1 := Scalar.andi v429 v426
  let v431 : BitVec 32 := Scalar.addi v425 v424
  let v432 : BitVec 32 := Scalar.select v430 v431 v425
  let c1_i32_304 : BitVec 32 := 1#32
  let v433 : BitVec 32 := Scalar.muli v432 c1_i32_304
  let v434 : BitVec 32 := Scalar.addi c0_i32_305 v433
  v434.toNat
def k0_dev29 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_308 : BitVec 32 := 14#32
  let v440 : BitVec 32 := Scalar.addi v2 c14_i32_308
  let c16_i32_309 : BitVec 32 := 16#32
  let c0_i32_310 : BitVec 32 := 0#32
  let v441 : BitVec 1 := Scalar.cmpi .eq c16_i32_309 c0_i32_310
  let c1_i32_311 : BitVec 32 := 1#32
  let v442 : BitVec 32 := Scalar.select v441 c1_i32_311 c16_i32_309
  let v443 : BitVec 32 := Scalar.remsi v440 v442
  let c0_i32_313 : BitVec 32 := 0#32
  let v445 : BitVec 1 := Scalar.cmpi .slt v443 c0_i32_313
  let c0_i32_314 : BitVec 32 := 0#32
  let v446 : BitVec 1 := Scalar.cmpi .slt v442 c0_i32_314
  let v447 : BitVec 1 := Scalar.xori v445 v446
  let c0_i32_312 : BitVec 32 := 0#32
  let v444 : BitVec 1 := Scalar.cmpi .ne v443 c0_i32_312
  let v448 : BitVec 1 := Scalar.andi v447 v444
  let v449 : BitVec 32 := Scalar.addi v443 v442
  let v450 : BitVec 32 := Scalar.select v448 v449 v443
  let c1_i32_317 : BitVec 32 := 1#32
  let v451 : BitVec 32 := Scalar.muli v450 c1_i32_317
  let v452 : BitVec 32 := Scalar.addi c0_i32_318 v451
  v452.toNat
def k0_dev30 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_321 : BitVec 32 := 15#32
  let v458 : BitVec 32 := Scalar.addi v2 c15_i32_321
  let c16_i32_322 : BitVec 32 := 16#32
  let c0_i32_323 : BitVec 32 := 0#32
  let v459 : BitVec 1 := Scalar.cmpi .eq c16_i32_322 c0_i32_323
  let c1_i32_324 : BitVec 32 := 1#32
  let v460 : BitVec 32 := Scalar.select v459 c1_i32_324 c16_i32_322
  let v461 : BitVec 32 := Scalar.remsi v458 v460
  let c0_i32_326 : BitVec 32 := 0#32
  let v463 : BitVec 1 := Scalar.cmpi .slt v461 c0_i32_326
  let c0_i32_327 : BitVec 32 := 0#32
  let v464 : BitVec 1 := Scalar.cmpi .slt v460 c0_i32_327
  let v465 : BitVec 1 := Scalar.xori v463 v464
  let c0_i32_325 : BitVec 32 := 0#32
  let v462 : BitVec 1 := Scalar.cmpi .ne v461 c0_i32_325
  let v466 : BitVec 1 := Scalar.andi v465 v462
  let v467 : BitVec 32 := Scalar.addi v461 v460
  let v468 : BitVec 32 := Scalar.select v466 v467 v461
  let c1_i32_330 : BitVec 32 := 1#32
  let v469 : BitVec 32 := Scalar.muli v468 c1_i32_330
  let v470 : BitVec 32 := Scalar.addi c0_i32_331 v469
  v470.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  hamt_15 : (15#32 : BitVec 32).msb = false
  inb_S15_S1_0 : ∀ a, (![0] : Fin 1 → Nat) a + S1.size a ≤ S15.size a
  squeezes_S1_S_ : S1.Squeezes S_
  inb_S15x768_S1x768_0_0 : ∀ a, (![0, 0] : Fin 2 → Nat) a + S1x768.size a ≤ S15x768.size a
  inb_S15_S1_1 : ∀ a, (![1] : Fin 1 → Nat) a + S1.size a ≤ S15.size a
  inb_S15x768_S1x768_1_0 : ∀ a, (![1, 0] : Fin 2 → Nat) a + S1x768.size a ≤ S15x768.size a
  inb_S15_S1_2 : ∀ a, (![2] : Fin 1 → Nat) a + S1.size a ≤ S15.size a
  inb_S15x768_S1x768_2_0 : ∀ a, (![2, 0] : Fin 2 → Nat) a + S1x768.size a ≤ S15x768.size a
  inb_S15_S1_3 : ∀ a, (![3] : Fin 1 → Nat) a + S1.size a ≤ S15.size a
  inb_S15x768_S1x768_3_0 : ∀ a, (![3, 0] : Fin 2 → Nat) a + S1x768.size a ≤ S15x768.size a
  inb_S15_S1_4 : ∀ a, (![4] : Fin 1 → Nat) a + S1.size a ≤ S15.size a
  inb_S15x768_S1x768_4_0 : ∀ a, (![4, 0] : Fin 2 → Nat) a + S1x768.size a ≤ S15x768.size a
  inb_S15_S1_5 : ∀ a, (![5] : Fin 1 → Nat) a + S1.size a ≤ S15.size a
  inb_S15x768_S1x768_5_0 : ∀ a, (![5, 0] : Fin 2 → Nat) a + S1x768.size a ≤ S15x768.size a
  inb_S15_S1_6 : ∀ a, (![6] : Fin 1 → Nat) a + S1.size a ≤ S15.size a
  inb_S15x768_S1x768_6_0 : ∀ a, (![6, 0] : Fin 2 → Nat) a + S1x768.size a ≤ S15x768.size a
  inb_S15_S1_7 : ∀ a, (![7] : Fin 1 → Nat) a + S1.size a ≤ S15.size a
  inb_S15x768_S1x768_7_0 : ∀ a, (![7, 0] : Fin 2 → Nat) a + S1x768.size a ≤ S15x768.size a
  inb_S15_S1_8 : ∀ a, (![8] : Fin 1 → Nat) a + S1.size a ≤ S15.size a
  inb_S15x768_S1x768_8_0 : ∀ a, (![8, 0] : Fin 2 → Nat) a + S1x768.size a ≤ S15x768.size a
  inb_S15_S1_9 : ∀ a, (![9] : Fin 1 → Nat) a + S1.size a ≤ S15.size a
  inb_S15x768_S1x768_9_0 : ∀ a, (![9, 0] : Fin 2 → Nat) a + S1x768.size a ≤ S15x768.size a
  inb_S15_S1_10 : ∀ a, (![10] : Fin 1 → Nat) a + S1.size a ≤ S15.size a
  inb_S15x768_S1x768_10_0 : ∀ a, (![10, 0] : Fin 2 → Nat) a + S1x768.size a ≤ S15x768.size a
  inb_S15_S1_11 : ∀ a, (![11] : Fin 1 → Nat) a + S1.size a ≤ S15.size a
  inb_S15x768_S1x768_11_0 : ∀ a, (![11, 0] : Fin 2 → Nat) a + S1x768.size a ≤ S15x768.size a
  inb_S15_S1_12 : ∀ a, (![12] : Fin 1 → Nat) a + S1.size a ≤ S15.size a
  inb_S15x768_S1x768_12_0 : ∀ a, (![12, 0] : Fin 2 → Nat) a + S1x768.size a ≤ S15x768.size a
  inb_S15_S1_13 : ∀ a, (![13] : Fin 1 → Nat) a + S1.size a ≤ S15.size a
  inb_S15x768_S1x768_13_0 : ∀ a, (![13, 0] : Fin 2 → Nat) a + S1x768.size a ≤ S15x768.size a
  inb_S15_S1_14 : ∀ a, (![14] : Fin 1 → Nat) a + S1.size a ≤ S15.size a
  inb_S15x768_S1x768_14_0 : ∀ a, (![14, 0] : Fin 2 → Nat) a + S1x768.size a ≤ S15x768.size a
  inb_S15x768_S15x768_0_0 : ∀ a, (![0, 0] : Fin 2 → Nat) a + S15x768.size a ≤ S15x768.size a
  h_S15x768 : 0 < S15x768.numel
  reduces_S15x768_S768 : S15x768.Reduces [0] S768
  hcc0_scratch3 : 1 + S15.numel ≤ 32
  hcc0_scratch4 : 16 + S15.numel ≤ 32
  hcc0_scratch5 : 31 + S_.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole

variable [Facts₀]

abbrev cc0_scratch3 : DmaSems sig S15 := SemArray.consecutive 1 S15 hcc0_scratch3
abbrev cc0_scratch4 : DmaSems sig S15 := SemArray.consecutive 16 S15 hcc0_scratch4
abbrev cc0_scratch5 : DmaSems sig S_ := SemArray.consecutive 31 S_ hcc0_scratch5

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S24576x768 : Shape := ⟨2, ![24576, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S24576x768, .f32⟩
  | .hbm, ⟨1, _⟩ => ⟨S_, .f32⟩
  | .hbm, ⟨2, _⟩ => ⟨S768, .f32⟩
  | .hbm, ⟨3, _⟩ => ⟨S1x768, .f32⟩
  | _, _ => ⟨S24576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S24576x768_S768_d0 : S24576x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.KernelRing.lean ====
/-
  The mesh as a ring of sixteen positions. Device `c` addresses, at step `j` of fifteen, the device `j + 1`
  places after it; `pr c j` is that device and `bk c j` the device `j + 1` places before `c`, so that
  `pr (bk c j) j = c`. The printed device chains are these positions.
-/
import proofs.«901076_g7700000000001077_dist_sum_ax0_shard0_i_m1536_n768_v7x_i16_f32_1_alg».proof.Kernel
import proofs.«901076_g7700000000001077_dist_sum_ax0_shard0_i_m1536_n768_v7x_i16_f32_1_alg».proof.Proof.Gen.Kernel

namespace Cert.Kernel.Ring

open Cert.Kernel Cert.Kernel.Gen Idealize.ShloMosaic

/-- The device `j + 1` places after `c`. -/
def pr (c : Dev nD) (j : Fin 15) : Dev nD := ⟨(c.val + j.val + 1) % 16, Nat.mod_lt _ (by decide)⟩
/-- The device `j + 1` places before `c`. -/
def bk (c : Dev nD) (j : Fin 15) : Dev nD := ⟨(c.val + 15 - j.val) % 16, Nat.mod_lt _ (by decide)⟩
/-- The step that undoes step `j`: `j + 1` and `rev j + 1` add up to sixteen. -/
def rev (j : Fin 15) : Fin 15 := ⟨14 - j.val, by omega⟩

theorem pr_bk (c : Dev nD) (j : Fin 15) : pr (bk c j) j = c := by revert c j; decide
theorem bk_pr (c : Dev nD) (j : Fin 15) : bk (pr c j) j = c := by revert c j; decide
theorem pr_pr_rev (c : Dev nD) (j : Fin 15) : pr (pr c j) (rev j) = c := by revert c j; decide
theorem bk_eq_pr_rev (c : Dev nD) (j : Fin 15) : bk c j = pr c (rev j) := by revert c j; decide
theorem rev_rev (j : Fin 15) : rev (rev j) = j := by revert j; decide
theorem pr_ne (c : Dev nD) (j : Fin 15) : pr c j ≠ c := by revert c j; decide
theorem pr_inj_step (c : Dev nD) (j j' : Fin 15) (h : pr c j = pr c j') : j = j' := by revert c j j'; decide
theorem pr_inj_dev (c c' : Dev nD) (j : Fin 15) (h : pr c j = pr c' j) : c = c' := by revert c c' j; decide

end Cert.Kernel.Ring
-- ==== Proof.KernelSched.lean ====
/-
  An all-to-all sum on a ring of sixteen devices: the cells of the protocol, what each landing hands its owner, and what
  every buffer holds along the way.

  Device `c` first tells each of the fifteen others, on that device's barrier semaphore, that it is inside the kernel;
  sums its own block of rows into `mine`; waits until all fifteen others have told it the same; copies `mine` into slot
  `j` of the receive buffer of the device `j + 1` places after it (`j = 0 … 14`); waits for the fifteen rows sent to it;
  adds them to `mine`; copies the total to its result; waits for its own fifteen copies to have been read and for the result copy.

  So slot `j` of device `c`'s receive buffer ends holding the row sum of the device `j + 1` places BEFORE `c`, and the
  total is the sum over all sixteen devices whatever `c` is.

  The cells, per device: the barrier cell, with fifteen duties of one unit — duty `j` is paid by the device `j + 1` places
  after the owner, which hands over slot `j` of its own receive buffer (the slot the owner will write) —; fifteen send cells and
  fifteen receive cells of one duty each, a send cell handing back the share of `mine` its copy read, a receive cell handing over the
  slot written; and the cell of the result copy, handing back the total and the result.
-/
import proofs.«901076_g7700000000001077_dist_sum_ax0_shard0_i_m1536_n768_v7x_i16_f32_1_alg».proof.Proof.KernelRing
import proofs.«901076_g7700000000001077_dist_sum_ax0_shard0_i_m1536_n768_v7x_i16_f32_1_alg».proof.Proof.Gen.Kernel.Skeleton
import proofs.«901076_g7700000000001077_dist_sum_ax0_shard0_i_m1536_n768_v7x_i16_f32_1_alg».proof.Proof.Gen.Kernel.Launch
import proofs.«901076_g7700000000001077_dist_sum_ax0_shard0_i_m1536_n768_v7x_i16_f32_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the ring's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs -/

abbrev xM : Memref sig .tc .vmem S1536x768 .f32 := Memref.whole cc0_stg0_0
abbrev oM : Memref sig .tc .hbm S1x768 .f32 := Memref.whole main_v1
abbrev mM : Memref sig .tc .vmem S1x768 .f32 := Memref.whole cc0_scratch0
abbrev rM : Memref sig .tc .vmem S15x768 .f32 := Memref.whole cc0_scratch1
abbrev fM : Memref sig .tc .vmem S1x768 .f32 := Memref.whole cc0_scratch2

theorem slot_inb (j : Fin 15) : ∀ a, (![j.val, 0] : Fin 2 → Nat) a + S1x768.size a ≤ S15x768.size a := by revert j; decide
theorem sem_inb (j : Fin 15) : ∀ a, (![j.val] : Fin 1 → Nat) a + S1.size a ≤ S15.size a := by revert j; decide

/-- Row `j` of the receive buffer. -/
abbrev slotR (j : Fin 15) : Rect S15x768 := Rect.unit (s := S15x768) ![j.val, 0] S1x768.size (slot_inb j)
abbrev slotM (j : Fin 15) : Memref sig .tc .vmem S1x768 .f32 := (rM).slice (slotR j) (fun _ => rfl)
abbrev semR (j : Fin 15) : Rect S15 := Rect.unit (s := S15) ![j.val] S1.size (sem_inb j)

/-! ## The semaphores and cells -/

abbrev barS : Sem sig := (SemArray.scalar (sig.barrier 0 rfl) : Sems sig S_).sem
abbrev sendS (j : Fin 15) : DmaSem sig := ((cc0_scratch3.slice (semR j)).squeeze S_ squeezes_S1_S_).sem
abbrev recvS (j : Fin 15) : DmaSem sig := ((cc0_scratch4.slice (semR j)).squeeze S_ squeezes_S1_S_).sem
abbrev outS : DmaSem sig := cc0_scratch5.sem

theorem sendS_val (j : Fin 15) : (sendS j).val = 1 + j.val := by revert j; decide
theorem recvS_val (j : Fin 15) : (recvS j).val = 16 + j.val := by revert j; decide
theorem outS_val : (outS).val = 31 := by decide

abbrev barCell (c : Dev nD) : GSem nD τ sig := ((c : Thread nD τ), .reg barS)
abbrev sndCell (c : Dev nD) (j : Fin 15) : GSem nD τ sig := ((c : Thread nD τ), .dma (sendS j))
abbrev rcvCell (c : Dev nD) (j : Fin 15) : GSem nD τ sig := ((c : Thread nD τ), .dma (recvS j))
abbrev outCell (c : Dev nD) : GSem nD τ sig := ((c : Thread nD τ), .dma outS)

/-- The step a send or receive semaphore belongs to. -/
def jOf (q : DmaSem sig) : Fin 15 := ⟨(q.val + 14) % 15, Nat.mod_lt _ (by decide)⟩
theorem jOf_send (j : Fin 15) : jOf (sendS j) = j := by revert j; decide
theorem jOf_recv (j : Fin 15) : jOf (recvS j) = j := by revert j; decide

/-- What one completed copy of a row credits. -/
abbrev Nr : ℕ := (slotM 0).view.dmaCredit
/-- What the completed result copy credits. -/
abbrev No : ℕ := (oM : Memref sig .tc .hbm S1x768 .f32).view.dmaCredit
theorem Nr_pos : 0 < Nr := View.dmaCredit_pos _ (by decide)
theorem No_pos : 0 < No := View.dmaCredit_pos _ (by decide)

/-! ## Contents -/

/-- Device `c`'s block of rows, as staged. -/
def xblk (c : Dev nD) : (cc0_stg0_0 : Ref sig .tc).ty.Contents (Elt F) :=
  (win0_0.blk (0 : Fin 1)).view.read (Elt F) ((s₀ m ρ).mem ((c : Thread nD τ).loc main_arg0))

/-- The column sums of device `c`'s block. -/
def mine (c : Dev nD) : (cc0_scratch0 : Ref sig .tc).ty.Contents (Elt F) := k0_pay1 (xblk m ρ c)

/-- The receive buffer once every row has landed: row `j` is the column sums of the device `j + 1` places before `c`. -/
def rows (c : Dev nD) : (cc0_scratch1 : Ref sig .tc).ty.Contents (Elt F) :=
  fun i => mine m ρ (bk c ⟨(i 0).val, (i 0).isLt⟩) (ValueIdx.ix2 (0 : Fin 1) (⟨(i 1).val, (i 1).isLt⟩ : Fin 768))

/-- The total on device `c`: its own column sums plus the fifteen rows received. -/
def total (c : Dev nD) : (cc0_scratch2 : Ref sig .tc).ty.Contents (Elt F) := k0_pay2 (mine m ρ c) (rows m ρ c)

/-! ## Shares of `mine`: the fifteen copies in flight read it at once -/

/-- What is left of the whole share after `n` halvings, each copy taking the right half of what was left. -/
def remSh : ℕ → PosShare TreeShare
  | 0 => fullShare
  | n + 1 => (remSh n).left
def pieceSh (n : ℕ) : PosShare TreeShare := (remSh n).right

/-! ## Points-to assertions -/

def slotPts (c : Dev nD) (j : Fin 15) (f : Buf (Elt F) ((slotM j).view.loc (c : Thread nD τ))) : sProp 𝕄 :=
  (slotM j).view.loc (c : Thread nD τ) ↦[(slotM j).view.set]{fullShare} f
def minePts (c : Dev nD) (q : PosShare TreeShare) : sProp 𝕄 :=
  (mM : Memref sig .tc .vmem S1x768 .f32).view.loc (c : Thread nD τ) ↦[(mM : Memref sig .tc .vmem S1x768 .f32).view.set]{q} mine m ρ c
def totalPts (c : Dev nD) : sProp 𝕄 :=
  (fM : Memref sig .tc .vmem S1x768 .f32).view.loc (c : Thread nD τ) ↦[(fM : Memref sig .tc .vmem S1x768 .f32).view.set]{fullShare} total m ρ c
def outPts (c : Dev nD) (f : Buf (Elt F) ((oM : Memref sig .tc .hbm S1x768 .f32).view.loc (c : Thread nD τ))) : sProp 𝕄 :=
  (oM : Memref sig .tc .hbm S1x768 .f32).view.loc (c : Thread nD τ) ↦[(oM : Memref sig .tc .hbm S1x768 .f32).view.set]{fullShare} f

/-! ## The schedule -/

/-- Duty `j` of `c`'s barrier cell: the device `j + 1` places after `c` hands over slot `j` of its receive buffer. -/
def barPay (c : Dev nD) (j : Fin 15) : sProp 𝕄 := iprop(∃ f, slotPts (pr c j) j f)
def rcvPay (c : Dev nD) (j : Fin 15) : sProp 𝕄 := slotPts c j (rows m ρ c)
def sndPay (c : Dev nD) (j : Fin 15) : sProp 𝕄 := minePts m ρ c (pieceSh j.val)
def outPay (c : Dev nD) : sProp 𝕄 := iprop(outPts c (total m ρ c) ∗ totalPts m ρ c)

/-- One round. A barrier cell has fifteen duties of one unit; every other cell of a TensorCore thread one duty. -/
def ringRd : Rounds.Schedule (GSem nD τ sig) (Fin 15) 𝕄 where
  duties g r := if r = 0 ∧ g.1.2 = .tc then (match g.2 with | .reg _ => Finset.univ | .dma q => if q.val = 0 then ∅ else {0}) else ∅
  unitless _ := False
  amount g _ _ := match g.2 with | .reg _ => 1 | .dma q => if q.val = 31 then No else Nr
  payload g _ d := match g.2 with
    | .reg _ => barPay g.1.1 d
    | .dma q => if q.val = 31 then outPay m ρ g.1.1 else if 16 ≤ q.val then rcvPay m ρ g.1.1 (jOf q) else if 1 ≤ q.val then sndPay m ρ g.1.1 (jOf q) else iprop(emp)
  amount_pos g _ _ _ := by
    rcases g with ⟨t, sm⟩; cases sm with
    | reg s => exact Nat.one_pos
    | dma q => dsimp only; split; exact No_pos; exact Nr_pos

instance ringRd_payload_storable (g : GSem nD τ sig) (r : ℕ) (d : Fin 15) :
    BI.Storable (upEmb : UEmb _ 𝕄) ((ringRd (F := F) m ρ).payload g r d) := by
  rcases g with ⟨t, sm⟩
  cases sm with
  | reg s => show BI.Storable upEmb (barPay t.1 d); unfold barPay slotPts; infer_instance
  | dma q =>
    show BI.Storable upEmb (if q.val = 31 then outPay m ρ t.1 else if 16 ≤ q.val then rcvPay m ρ t.1 (jOf q) else if 1 ≤ q.val then sndPay m ρ t.1 (jOf q) else iprop(emp))
    unfold outPay rcvPay sndPay outPts totalPts slotPts minePts
    (repeat' split) <;> infer_instance

section Tables
variable (c : Dev nD) (j : Fin 15)

theorem duties_bar : (ringRd (F := F) m ρ).duties (barCell c) 0 = Finset.univ := by dsimp only [ringRd]; exact if_pos ⟨rfl, rfl⟩
theorem duties_snd : (ringRd (F := F) m ρ).duties (sndCell c j) 0 = {0} := by
  dsimp only [ringRd]; rw [if_pos ⟨rfl, rfl⟩]; exact if_neg (by rw [sendS_val]; omega)
theorem duties_rcv : (ringRd (F := F) m ρ).duties (rcvCell c j) 0 = {0} := by
  dsimp only [ringRd]; rw [if_pos ⟨rfl, rfl⟩]; exact if_neg (by rw [recvS_val]; omega)
theorem duties_out : (ringRd (F := F) m ρ).duties (outCell c) 0 = {0} := by
  dsimp only [ringRd]; rw [if_pos ⟨rfl, rfl⟩]; exact if_neg (by rw [outS_val]; omega)
theorem duties_later (g : GSem nD τ sig) : ∀ r, 1 ≤ r → (ringRd (F := F) m ρ).duties g r = ∅ :=
  fun r hr => by dsimp only [ringRd]; rw [if_neg fun h => by omega]

theorem amount_bar (d : Fin 15) : (ringRd (F := F) m ρ).amount (barCell c) 0 d = 1 := rfl
theorem amount_snd (d : Fin 15) : (ringRd (F := F) m ρ).amount (sndCell c j) 0 d = Nr := by
  dsimp only [ringRd]; exact if_neg (by rw [sendS_val]; omega)
theorem amount_rcv (d : Fin 15) : (ringRd (F := F) m ρ).amount (rcvCell c j) 0 d = Nr := by
  dsimp only [ringRd]; exact if_neg (by rw [recvS_val]; omega)
theorem amount_out (d : Fin 15) : (ringRd (F := F) m ρ).amount (outCell c) 0 d = No := by
  dsimp only [ringRd]; exact if_pos outS_val

theorem expect_bar : (ringRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_snd : (ringRd (F := F) m ρ).expect (sndCell c j) 0 = Nr := by
  unfold Schedule.expect Schedule.amountOf; rw [duties_snd, Finset.sum_singleton, amount_snd]
theorem expect_rcv : (ringRd (F := F) m ρ).expect (rcvCell c j) 0 = Nr := by
  unfold Schedule.expect Schedule.amountOf; rw [duties_rcv, Finset.sum_singleton, amount_rcv]
theorem expect_out : (ringRd (F := F) m ρ).expect (outCell c) 0 = No := by
  unfold Schedule.expect Schedule.amountOf; rw [duties_out, Finset.sum_singleton, amount_out]

theorem payload_bar (d : Fin 15) : (ringRd (F := F) m ρ).payload (barCell c) 0 d = barPay c d := rfl
theorem payload_snd (d : Fin 15) : (ringRd (F := F) m ρ).payload (sndCell c j) 0 d = sndPay m ρ c j := by
  dsimp only [ringRd]
  rw [if_neg (by rw [sendS_val]; omega), if_neg (by rw [sendS_val]; omega), if_pos (by rw [sendS_val]; omega), jOf_send]
theorem payload_rcv (d : Fin 15) : (ringRd (F := F) m ρ).payload (rcvCell c j) 0 d = rcvPay m ρ c j := by
  dsimp only [ringRd]
  rw [if_neg (by rw [recvS_val]; omega), if_pos (by rw [recvS_val]; omega), jOf_recv]
theorem payload_out (d : Fin 15) : (ringRd (F := F) m ρ).payload (outCell c) 0 d = outPay m ρ c := by
  dsimp only [ringRd]; exact if_pos outS_val

/-- The whole of the barrier cell's round: one slot from each of the fifteen others. -/
theorem rest_bar : bigSep ((ringRd (F := F) m ρ).duties (barCell c) 0 \ ∅) (fun d => (ringRd (F := F) m ρ).payload (barCell c) 0 d)
    = bigSep Finset.univ (fun d : Fin 15 => barPay (F := F) c d) := by
  rw [Finset.sdiff_empty, duties_bar]; rfl
theorem rest_snd : bigSep ((ringRd (F := F) m ρ).duties (sndCell c j) 0 \ ∅) (fun d => (ringRd (F := F) m ρ).payload (sndCell c j) 0 d) = sndPay m ρ c j := by
  rw [Finset.sdiff_empty, duties_snd, bigSep_singleton, payload_snd]
theorem rest_rcv : bigSep ((ringRd (F := F) m ρ).duties (rcvCell c j) 0 \ ∅) (fun d => (ringRd (F := F) m ρ).payload (rcvCell c j) 0 d) = rcvPay m ρ c j := by
  rw [Finset.sdiff_empty, duties_rcv, bigSep_singleton, payload_rcv]
theorem rest_out : bigSep ((ringRd (F := F) m ρ).duties (outCell c) 0 \ ∅) (fun d => (ringRd (F := F) m ρ).payload (outCell c) 0 d) = outPay m ρ c := by
  rw [Finset.sdiff_empty, duties_out, bigSep_singleton, payload_out]

end Tables

/-! ## What each device owes at launch; the levels -/

/-- The steps from `n` on. -/
def geS (n : ℕ) : Finset (Fin 15) := Finset.univ.filter fun j => n ≤ j.val

/-- One unit to the barrier cell of each device still to be signalled; -/
def owedSig (S : Finset (Fin 15)) (c : Dev nD) : CellTallies nD τ sig Unit := ∑ j ∈ S, tallyAt (barCell (pr c j)) () 1
/-- a row's credit to the receive cell of each device still to be sent to. -/
def owedSnd (S : Finset (Fin 15)) (c : Dev nD) : CellTallies nD τ sig Unit := ∑ j ∈ S, tallyAt (rcvCell (pr c j) j) () Nr
def O₀ (c : Dev nD) : CellTallies nD τ sig Unit := owedSnd Finset.univ c + owedSig Finset.univ c

def L (g : GSem nD τ sig) : Finset Unit := if g.1.2 = .tc then {()} else ∅
/-- Barrier cells at 1, receive cells at 2, everything else at 0. -/
def lv (g : GSem nD τ sig) (_ : Unit) : ℕ :=
  match g.2 with | .reg _ => 1 | .dma q => if 16 ≤ q.val ∧ q.val ≤ 30 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells by kind -/

/-- A device's own (scoped) semaphores: fifteen send, fifteen receive, the result copy's; -/
abbrev OK : Type := Fin 15 ⊕ (Fin 15 ⊕ Unit)
/-- with the barrier semaphore (the runtime's, not scoped) first: every cell of the protocol. -/
abbrev CK : Type := Unit ⊕ OK

abbrev osem : OK → SemLoc sig
  | .inl j => .dma (sendS j)
  | .inr (.inl j) => .dma (recvS j)
  | .inr (.inr ()) => .dma outS
abbrev csem : CK → SemLoc sig
  | .inl () => .reg barS
  | .inr k => osem k
abbrev kcell (ck : Dev nD × CK) : GSem nD τ sig := ((ck.1 : Thread nD τ), csem ck.2)

theorem bigSep_OK (Φ : OK → sProp 𝕄) :
    bigSep Finset.univ Φ = iprop((bigSep Finset.univ fun j : Fin 15 => Φ (.inl j)) ∗ (bigSep Finset.univ fun j : Fin 15 => Φ (.inr (.inl j))) ∗ Φ (.inr (.inr ()))) := by
  rw [bigSep_univ_sum, bigSep_univ_sum, bigSep_univ_of_subsingleton ()]; rfl
theorem bigSep_CK (Φ : CK → sProp 𝕄) :
    bigSep Finset.univ Φ = iprop(Φ (.inl ()) ∗ (bigSep Finset.univ fun j : Fin 15 => Φ (.inr (.inl j)))
      ∗ (bigSep Finset.univ fun j : Fin 15 => Φ (.inr (.inr (.inl j)))) ∗ Φ (.inr (.inr (.inr ())))) := by
  rw [bigSep_univ_sum, bigSep_univ_of_subsingleton (), bigSep_OK]; rfl

/-! ## The ghost state a device's body starts from -/

/-- Every cell's invariant, under the names the launch allocated them at, and that every cell has reached round 0: persistent,
    so every device holds them all. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold records; iintro ⟨H, -⟩; iapply h; iexact H
theorem reached_at (K : Dev nD × CK → ℕ) (ck : Dev nD × CK) : records m ρ K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-- The tokens of the duties device `c` pays: at signal `j` duty `rev j` of the barrier cell of the device `j + 1` places on (it is
    that device's `rev j + 1`-th successor); at copy `j` that device's receive duty and its own send duty; its result copy's. -/
def payToks (c : Dev nD) : sProp 𝕄 :=
  iprop((bigSep Finset.univ fun j : Fin 15 => dutyTok ER (barCell (pr c j)) 0 (rev j))
    ∗ (bigSep Finset.univ fun j : Fin 15 => dutyTok ER (rcvCell (pr c j) j) 0 0)
    ∗ (bigSep Finset.univ fun j : Fin 15 => dutyTok ER (sndCell c j) 0 0)
    ∗ dutyTok ER (outCell c) 0 0)
/-- Its positions at round 0 of its own cells. -/
def positions (c : Dev nD) : sProp 𝕄 := bigSep Finset.univ fun k : CK => atPos ER (kcell (c, k)) 0 ∅ 0

def ghost (K : Dev nD × CK → ℕ) (c : Dev nD) : sProp 𝕄 := iprop(records m ρ K ∗ positions (F := F) c ∗ payToks (F := F) c)

/-- What device `c` holds when the region is entered, beside the scratch buffers: the ghost state at some names, the credit of its
    barrier's fifteen units and of its fifteen receive cells, the level facts, and its result array. -/
def start (c : Dev nD) : sProp 𝕄 :=
  iprop((∃ K, ghost m ρ K c) ∗ cred (tallyAt (barCell c) () 15) ∗ (bigSep Finset.univ fun j : Fin 15 => cred (tallyAt (rcvCell c j) () Nr))
    ∗ levAts L lv ∗ ∃ f, outPts c f)

/-- The three scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch (F := F) c)
/-- After the point: the result array holding the total, every own cell at zero and closed, the scratch buffers back whole. -/
def Φ₁ (c : Dev nD) : sProp 𝕄 :=
  iprop(outPts c (total m ρ c) ∗ (bigSep Finset.univ fun k : OK => semVal ((c : Thread nD τ), osem k) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with at the one grid point, and what it must leave. -/
def bodyPre (c : Dev nD) : sProp 𝕄 :=
  iprop(Φ₀ m ρ c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m ρ c ∗ (dats m ρ 0 c).owesAt () t₀.succ ∗ stg c cc0_stg0_0 (xblk m ρ c))

end Cert.KernelProof

end
-- ==== Proof.KernelDevTable.lean ====
import proofs.«901076_g7700000000001077_dist_sum_ax0_shard0_i_m1536_n768_v7x_i16_f32_1_alg».proof.Proof.KernelRing

namespace Cert.Kernel.Ring

open Cert.Kernel Cert.Kernel.Gen Idealize.ShloMosaic

theorem sig0 (c : Dev nD) : (⟨k0_dev1 c, k0_dev1_lt c⟩ : Dev nD) = pr c 0 := by revert c; decide +kernel
theorem sig1 (c : Dev nD) : (⟨k0_dev2 c, k0_dev2_lt c⟩ : Dev nD) = pr c 1 := by revert c; decide +kernel
theorem sig2 (c : Dev nD) : (⟨k0_dev3 c, k0_dev3_lt c⟩ : Dev nD) = pr c 2 := by revert c; decide +kernel
theorem sig3 (c : Dev nD) : (⟨k0_dev4 c, k0_dev4_lt c⟩ : Dev nD) = pr c 3 := by revert c; decide +kernel
theorem sig4 (c : Dev nD) : (⟨k0_dev5 c, k0_dev5_lt c⟩ : Dev nD) = pr c 4 := by revert c; decide +kernel
theorem sig5 (c : Dev nD) : (⟨k0_dev6 c, k0_dev6_lt c⟩ : Dev nD) = pr c 5 := by revert c; decide +kernel
theorem sig6 (c : Dev nD) : (⟨k0_dev7 c, k0_dev7_lt c⟩ : Dev nD) = pr c 6 := by revert c; decide +kernel
theorem sig7 (c : Dev nD) : (⟨k0_dev8 c, k0_dev8_lt c⟩ : Dev nD) = pr c 7 := by revert c; decide +kernel
theorem sig8 (c : Dev nD) : (⟨k0_dev9 c, k0_dev9_lt c⟩ : Dev nD) = pr c 8 := by revert c; decide +kernel
theorem sig9 (c : Dev nD) : (⟨k0_dev10 c, k0_dev10_lt c⟩ : Dev nD) = pr c 9 := by revert c; decide +kernel
theorem sig10 (c : Dev nD) : (⟨k0_dev11 c, k0_dev11_lt c⟩ : Dev nD) = pr c 10 := by revert c; decide +kernel
theorem sig11 (c : Dev nD) : (⟨k0_dev12 c, k0_dev12_lt c⟩ : Dev nD) = pr c 11 := by revert c; decide +kernel
theorem sig12 (c : Dev nD) : (⟨k0_dev13 c, k0_dev13_lt c⟩ : Dev nD) = pr c 12 := by revert c; decide +kernel
theorem sig13 (c : Dev nD) : (⟨k0_dev14 c, k0_dev14_lt c⟩ : Dev nD) = pr c 13 := by revert c; decide +kernel
theorem sig14 (c : Dev nD) : (⟨k0_dev15 c, k0_dev15_lt c⟩ : Dev nD) = pr c 14 := by revert c; decide +kernel
theorem snd0 (c : Dev nD) : (⟨k0_dev16 c, k0_dev16_lt c⟩ : Dev nD) = pr c 0 := by revert c; decide +kernel
theorem snd1 (c : Dev nD) : (⟨k0_dev17 c, k0_dev17_lt c⟩ : Dev nD) = pr c 1 := by revert c; decide +kernel
theorem snd2 (c : Dev nD) : (⟨k0_dev18 c, k0_dev18_lt c⟩ : Dev nD) = pr c 2 := by revert c; decide +kernel
theorem snd3 (c : Dev nD) : (⟨k0_dev19 c, k0_dev19_lt c⟩ : Dev nD) = pr c 3 := by revert c; decide +kernel
theorem snd4 (c : Dev nD) : (⟨k0_dev20 c, k0_dev20_lt c⟩ : Dev nD) = pr c 4 := by revert c; decide +kernel
theorem snd5 (c : Dev nD) : (⟨k0_dev21 c, k0_dev21_lt c⟩ : Dev nD) = pr c 5 := by revert c; decide +kernel
theorem snd6 (c : Dev nD) : (⟨k0_dev22 c, k0_dev22_lt c⟩ : Dev nD) = pr c 6 := by revert c; decide +kernel
theorem snd7 (c : Dev nD) : (⟨k0_dev23 c, k0_dev23_lt c⟩ : Dev nD) = pr c 7 := by revert c; decide +kernel
theorem snd8 (c : Dev nD) : (⟨k0_dev24 c, k0_dev24_lt c⟩ : Dev nD) = pr c 8 := by revert c; decide +kernel
theorem snd9 (c : Dev nD) : (⟨k0_dev25 c, k0_dev25_lt c⟩ : Dev nD) = pr c 9 := by revert c; decide +kernel
theorem snd10 (c : Dev nD) : (⟨k0_dev26 c, k0_dev26_lt c⟩ : Dev nD) = pr c 10 := by revert c; decide +kernel
theorem snd11 (c : Dev nD) : (⟨k0_dev27 c, k0_dev27_lt c⟩ : Dev nD) = pr c 11 := by revert c; decide +kernel
theorem snd12 (c : Dev nD) : (⟨k0_dev28 c, k0_dev28_lt c⟩ : Dev nD) = pr c 12 := by revert c; decide +kernel
theorem snd13 (c : Dev nD) : (⟨k0_dev29 c, k0_dev29_lt c⟩ : Dev nD) = pr c 13 := by revert c; decide +kernel
theorem snd14 (c : Dev nD) : (⟨k0_dev30 c, k0_dev30_lt c⟩ : Dev nD) = pr c 14 := by revert c; decide +kernel

end Cert.Kernel.Ring
-- ==== Proof.KernelAux.lean ====
/-
  The receive buffer row by row, and the shares of the column sums.

  The receive buffer of fifteen rows is the disjoint union of its rows, so holding it whole is holding every row; what a copy
  of a device's column sums leaves in a row is determined on that row's elements alone; the buffer of column sums, read by
  fifteen copies at once, is shared by halving: what is left after the n-th halving and the n-th piece make up what was left
  before it.
-/
import proofs.«901076_g7700000000001077_dist_sum_ax0_shard0_i_m1536_n768_v7x_i16_f32_1_alg».proof.Proof.KernelSched
import Idealize.ShloMosaic.Rules.PointsTo
import Idealize.ShloMosaic.Lib.Ring
import Idealize.ShloMosaic.Lib.Pipeline.Value
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the receive buffer -/

omit [FloatOps F] in
/-- An element of the receive buffer lies in row `j` exactly when its first coordinate is `j`. -/
theorem mem_slot (j : Fin 15) (i : S15x768.Idx) : i ∈ (slotM j).view.set ↔ (i 0).val = j.val := by
  rw [show (slotM j).view.set = (slotR j).set from View.set_slice_whole cc0_scratch1 (slotR j), Rect.mem_set_unit]
  have h1 : (i 1).val < 768 := (i 1).isLt
  constructor
  · intro h
    have h0 := h 0
    simp only [Matrix.cons_val_zero] at h0
    have e : S1x768.size 0 = 1 := rfl
    omega
  · intro h a
    match a with
    | ⟨0, _⟩ =>
      show j.val ≤ (i 0).val ∧ (i 0).val < j.val + 1
      omega
    | ⟨1, _⟩ =>
      show 0 ≤ (i 1).val ∧ (i 1).val < 0 + 768
      omega

omit [FloatOps F] in
theorem slot_disjoint (j j' : Fin 15) (h : j ≠ j') : Disjoint (slotM j).view.set (slotM j').view.set :=
  Finset.disjoint_left.mpr fun i hi hi' =>
    h (Fin.ext (((mem_slot j i).mp hi).symm.trans ((mem_slot j' i).mp hi')))

omit [FloatOps F] in
theorem slot_cover : (Finset.univ : Finset S15x768.Idx) = Finset.univ.biUnion fun j : Fin 15 => (slotM j).view.set := by
  ext i
  simp only [Finset.mem_univ, Finset.mem_biUnion, true_and, true_iff]
  exact ⟨⟨(i 0).val, (i 0).isLt⟩, (mem_slot _ i).mpr rfl⟩

/-- The fifteen rows tile the receive buffer: it is held whole iff it is held row by row (at one contents f). -/
theorem rows_split (c : Dev nD) (f : Buf (Elt F) ((c : Thread nD τ).loc cc0_scratch1)) :
    ((((c : Thread nD τ).loc cc0_scratch1) ↦{fullShare} f : sProp 𝕄)) = bigSep Finset.univ fun j : Fin 15 => slotPts c j f := by
  show ((((c : Thread nD τ).loc cc0_scratch1) ↦[Finset.univ]{fullShare} f : sProp 𝕄)) = _
  rw [show (Finset.univ : Finset (Idx ((c : Thread nD τ).loc cc0_scratch1))) = Finset.univ.biUnion fun j : Fin 15 => (slotM j).view.set from slot_cover,
    pointsTo_biUnion Finset.univ _ fun j _ j' _ h => slot_disjoint j j' h]
  rfl

/-! ## What a copy leaves in a row -/

omit [FloatOps F] in
/-- What a copy of `src` (the whole of a [1,768] buffer at contents g) leaves in row j of a receive buffer, seen through row
    j's elements only, is any contents h whose row j is g. -/
theorem slot_landed (c' : Dev nD) (j : Fin 15) (fd : Buf (Elt F) ((slotM j).view.loc (c' : Thread nD τ)))
    (g : (cc0_scratch0 : Ref sig .tc).ty.Contents (Elt F)) (h : (cc0_scratch1 : Ref sig .tc).ty.Contents (Elt F))
    (hrow : ∀ i : S15x768.Idx, (i 0).val = j.val → h i = g (ValueIdx.ix2 (0 : Fin 1) (⟨(i 1).val, (i 1).isLt⟩ : Fin 768))) :
    (slotPts c' j ((slotM j).view.write (Elt F) fd ((mM : Memref sig .tc .vmem S1x768 .f32).view.read (Elt F) g) Finset.univ) : sProp 𝕄) = slotPts c' j h := by
  unfold slotPts
  refine pointsTo_congr fun i hi => ?_
  obtain ⟨y, rfl⟩ := View.exists_emb_of_mem_set (slotM j).view hi
  rw [View.write_emb_of_mem _ _ (Finset.mem_univ y)]
  have hy0 : ((slotM j).view.emb y 0).val = j.val := (mem_slot j _).mp hi
  rw [hrow _ hy0]
  show g y = g _
  congr 1
  funext a
  match a with
  | ⟨0, _⟩ => exact Fin.ext (by have hlt : (y 0).val < 1 := (y 0).isLt; show (y 0).val = 0; omega)
  | ⟨1, _⟩ => exact Fin.ext (by show (y 1).val = 0 + 1 * (y 1).val; omega)

/-- Row j of the device j + 1 places after c receives device c's column sums. -/
theorem slot_landed_rows (c : Dev nD) (j : Fin 15) (fd : Buf (Elt F) ((slotM j).view.loc ((pr c j : Dev nD) : Thread nD τ))) :
    (slotPts (pr c j) j ((slotM j).view.write (Elt F) fd ((mM : Memref sig .tc .vmem S1x768 .f32).view.read (Elt F) (mine m ρ c)) Finset.univ) : sProp 𝕄)
      = rcvPay m ρ (pr c j) j := by
  unfold rcvPay
  refine slot_landed (pr c j) j fd (mine m ρ c) (rows m ρ (pr c j)) fun i hi => ?_
  unfold rows
  have e : (⟨(i 0).val, (i 0).isLt⟩ : Fin 15) = j := Fin.ext hi
  rw [e, bk_pr]

/-! ## The shares of the column sums -/

omit [FloatOps F] in
/-- The share chain of the [1,768] buffer: what is left after n halvings splits into what is left after n + 1 and the n-th piece. -/
theorem mine_split (c : Dev nD) (n : ℕ) (g : Buf (Elt F) ((c : Thread nD τ).loc cc0_scratch0)) :
    ((((c : Thread nD τ).loc cc0_scratch0) ↦{remSh n} g : sProp 𝕄)) ⊣⊢ iprop((((c : Thread nD τ).loc cc0_scratch0) ↦{remSh (n + 1)} g) ∗ (((c : Thread nD τ).loc cc0_scratch0) ↦{pieceSh n} g)) :=
  pointsTo_share (PosShare.mem_left_op_right (remSh n))

omit [FloatOps F] in
/-- The whole buffer is what is left after n halvings and the first n pieces. -/
theorem mine_chain (c : Dev nD) (g : Buf (Elt F) ((c : Thread nD τ).loc cc0_scratch0)) (n : ℕ) :
    ((((c : Thread nD τ).loc cc0_scratch0) ↦{fullShare} g : sProp 𝕄))
      = iprop((((c : Thread nD τ).loc cc0_scratch0) ↦{remSh n} g) ∗ bigSep (Finset.range n) fun k => (((c : Thread nD τ).loc cc0_scratch0) ↦{pieceSh k} g)) := by
  induction n with
  | zero =>
    rw [Finset.range_zero, bigSep_empty]
    exact (BI.equiv_iff.mp BI.sep_emp).symm
  | succ n ih =>
    have hs := mine_split (F := F) c n g
    rw [ih, Idealize.ShloMosaic.Ring.bigSep_range_succ, BI.equiv_iff.mp ⟨hs.1, hs.2⟩]
    exact BI.equiv_iff.mp ⟨BI.sep_assoc, BI.sep_assoc'⟩

omit [FloatOps F] in
theorem mine_fifteen (c : Dev nD) (g : Buf (Elt F) ((c : Thread nD τ).loc cc0_scratch0)) :
    ((((c : Thread nD τ).loc cc0_scratch0) ↦{fullShare} g : sProp 𝕄))
      = iprop((((c : Thread nD τ).loc cc0_scratch0) ↦{remSh 15} g) ∗ bigSep Finset.univ fun j : Fin 15 => (((c : Thread nD τ).loc cc0_scratch0) ↦{pieceSh j.val} g)) := by
  rw [Idealize.ShloMosaic.Ring.bigSep_fin_eq_range 15 _ (fun k => (((c : Thread nD τ).loc cc0_scratch0) ↦{pieceSh k} g : sProp 𝕄)) fun t h => rfl]
  exact mine_chain c g 15

omit [FloatOps F] in
/-- The whole buffer from what is left after fifteen halvings and the fifteen pieces. -/
theorem mine_join (c : Dev nD) (g : Buf (Elt F) ((c : Thread nD τ).loc cc0_scratch0)) :
    iprop((((c : Thread nD τ).loc cc0_scratch0) ↦{remSh 15} g) ∗ bigSep Finset.univ fun j : Fin 15 => (((c : Thread nD τ).loc cc0_scratch0) ↦{pieceSh j.val} g))
      ⊢ ((((c : Thread nD τ).loc cc0_scratch0) ↦{fullShare} g : sProp 𝕄)) :=
  Entails.of_eq (mine_fifteen c g).symm

omit [FloatOps F] in
/-- and the other way: the whole buffer is what is left after fifteen halvings and the fifteen pieces. -/
theorem mine_shares (c : Dev nD) (g : Buf (Elt F) ((c : Thread nD τ).loc cc0_scratch0)) :
    ((((c : Thread nD τ).loc cc0_scratch0) ↦{fullShare} g : sProp 𝕄))
      ⊢ iprop((((c : Thread nD τ).loc cc0_scratch0) ↦{remSh 15} g) ∗ bigSep Finset.univ fun j : Fin 15 => (((c : Thread nD τ).loc cc0_scratch0) ↦{pieceSh j.val} g)) :=
  Entails.of_eq (mine_fifteen c g)

/-! ## The views through which the buffers are named are the whole buffers -/

theorem minePts_eq (c : Dev nD) (q : PosShare TreeShare) : minePts m ρ c q = ((((c : Thread nD τ).loc cc0_scratch0) ↦{q} mine m ρ c : sProp 𝕄)) := by
  unfold minePts
  rw [show (mM : Memref sig .tc .vmem S1x768 .f32).view.set = Finset.univ from View.set_whole cc0_scratch0]
theorem totalPts_eq (c : Dev nD) : totalPts m ρ c = ((((c : Thread nD τ).loc cc0_scratch2) ↦{fullShare} total m ρ c : sProp 𝕄)) := by
  unfold totalPts
  rw [show (fM : Memref sig .tc .vmem S1x768 .f32).view.set = Finset.univ from View.set_whole cc0_scratch2]
omit [FloatOps F] in
theorem outPts_eq (c : Dev nD) (f : Buf (Elt F) ((oM : Memref sig .tc .hbm S1x768 .f32).view.loc (c : Thread nD τ))) : outPts c f = ((((c : Thread nD τ).loc main_v1) ↦{fullShare} f : sProp 𝕄)) := by
  unfold outPts
  rw [show (oM : Memref sig .tc .hbm S1x768 .f32).view.set = Finset.univ from View.set_whole main_v1]

omit [FloatOps F] in
/-- What the result copy leaves in the result array: the total. -/
theorem out_landed (c : Dev nD) (fd : Buf (Elt F) ((oM : Memref sig .tc .hbm S1x768 .f32).view.loc (c : Thread nD τ))) (g : (cc0_scratch2 : Ref sig .tc).ty.Contents (Elt F)) :
    (oM : Memref sig .tc .hbm S1x768 .f32).view.write (Elt F) fd ((fM : Memref sig .tc .vmem S1x768 .f32).view.read (Elt F) g) Finset.univ = g :=
  View.write_whole_univ main_v1 fd g

end Cert.KernelProof

end
-- ==== Proof.KernelSteps.lean ====
import proofs.«901076_g7700000000001077_dist_sum_ax0_shard0_i_m1536_n768_v7x_i16_f32_1_alg».proof.Proof.KernelSched
import proofs.«901076_g7700000000001077_dist_sum_ax0_shard0_i_m1536_n768_v7x_i16_f32_1_alg».proof.Proof.KernelAux
import Idealize.ShloMosaic.Lib.Tactic

noncomputable section

namespace Cert.KernelProof

open Cert.Kernel Cert.Kernel.Gen Cert.Kernel.Ring

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The steps from `n` on, and before `n` -/

def ltS (n : ℕ) : Finset (Fin 15) := Finset.univ.filter fun j => j.val < n

theorem geS_succ (j : Fin 15) : geS j.val = insert j (geS (j.val + 1)) := by
  ext i; simp only [geS, Finset.mem_filter, Finset.mem_univ, true_and, Finset.mem_insert, Fin.ext_iff]; omega
theorem not_mem_geS_succ (j : Fin 15) : j ∉ geS (j.val + 1) := by
  simp only [geS, Finset.mem_filter, Finset.mem_univ, true_and]; omega
theorem geS_zero : geS 0 = Finset.univ := by ext i; simp [geS]
theorem geS_last : geS 15 = ∅ := by
  ext i; simp only [geS, Finset.mem_filter, Finset.mem_univ, true_and, Finset.notMem_empty, iff_false]; omega
theorem ltS_succ (j : Fin 15) : ltS (j.val + 1) = insert j (ltS j.val) := by
  ext i; simp only [ltS, Finset.mem_filter, Finset.mem_univ, true_and, Finset.mem_insert, Fin.ext_iff]; omega
theorem not_mem_ltS (j : Fin 15) : j ∉ ltS j.val := by
  simp only [ltS, Finset.mem_filter, Finset.mem_univ, true_and]; omega
theorem ltS_zero : ltS 0 = ∅ := by ext i; simp [ltS]
theorem ltS_last : ltS 15 = Finset.univ := by
  ext i; simp only [ltS, Finset.mem_filter, Finset.mem_univ, true_and, iff_true]; omega

theorem bigSep_geS_peel (j : Fin 15) (Φ : Fin 15 → sProp 𝕄) : bigSep (geS j.val) Φ = iprop(Φ j ∗ bigSep (geS (j.val + 1)) Φ) := by
  rw [geS_succ j, bigSep_insert (not_mem_geS_succ j)]; rfl
theorem bigSep_ltS_push (j : Fin 15) (Φ : Fin 15 → sProp 𝕄) : bigSep (ltS (j.val + 1)) Φ = iprop(Φ j ∗ bigSep (ltS j.val) Φ) := by
  rw [ltS_succ j, bigSep_insert (not_mem_ltS j)]; rfl

theorem owedSig_peel (c : Dev nD) (j : Fin 15) : owedSig (geS j.val) c = owedSig (geS (j.val + 1)) c + tallyAt (barCell (pr c j)) () 1 := by
  unfold owedSig; rw [geS_succ j, Finset.sum_insert (not_mem_geS_succ j), add_comm]
theorem owedSnd_peel (c : Dev nD) (j : Fin 15) : owedSnd (geS j.val) c = owedSnd (geS (j.val + 1)) c + tallyAt (rcvCell (pr c j) j) () Nr := by
  unfold owedSnd; rw [geS_succ j, Finset.sum_insert (not_mem_geS_succ j), add_comm]
theorem owedSig_done (c : Dev nD) : owedSig (geS 15) c = 0 := by unfold owedSig; rw [geS_last, Finset.sum_empty]
theorem owedSnd_done (c : Dev nD) : owedSnd (geS 15) c = 0 := by unfold owedSnd; rw [geS_last, Finset.sum_empty]

/-! ## The records, cell by cell -/

theorem inv_bar (c : Dev nD) : records m ρ K ⊢ cellInv ER (ringRd m ρ) (K (c, .inl ())) (barCell c) := inv_at m ρ K (c, .inl ())
theorem inv_snd (c : Dev nD) (j : Fin 15) : records m ρ K ⊢ cellInv ER (ringRd m ρ) (K (c, .inr (.inl j))) (sndCell c j) := inv_at m ρ K (c, .inr (.inl j))
theorem inv_rcv (c : Dev nD) (j : Fin 15) : records m ρ K ⊢ cellInv ER (ringRd m ρ) (K (c, .inr (.inr (.inl j)))) (rcvCell c j) := inv_at m ρ K (c, .inr (.inr (.inl j)))
theorem inv_out (c : Dev nD) : records m ρ K ⊢ cellInv ER (ringRd m ρ) (K (c, .inr (.inr (.inr ())))) (outCell c) := inv_at m ρ K (c, .inr (.inr (.inr ())))
theorem rch_bar (c : Dev nD) : records m ρ K ⊢ reached ER (barCell c) 0 := reached_at m ρ K (c, .inl ())
theorem rch_snd (c : Dev nD) (j : Fin 15) : records m ρ K ⊢ reached ER (sndCell c j) 0 := reached_at m ρ K (c, .inr (.inl j))
theorem rch_rcv (c : Dev nD) (j : Fin 15) : records m ρ K ⊢ reached ER (rcvCell c j) 0 := reached_at m ρ K (c, .inr (.inr (.inl j)))
theorem rch_out (c : Dev nD) : records m ρ K ⊢ reached ER (outCell c) 0 := reached_at m ρ K (c, .inr (.inr (.inr ())))

/-! ## A signal: device `c` tells the device `j + 1` places on that it is in, handing over the slot that device will write -/

theorem barPay_back (c : Dev nD) (j : Fin 15) (f : Buf (Elt F) ((c : Thread nD τ).loc cc0_scratch1)) :
    slotPts c (rev j) f ⊢ (barPay (pr c j) (rev j) : sProp 𝕄) := by
  unfold barPay
  rw [pr_pr_rev]
  iintro H; iexists f; iexact H

theorem sig_step (c : Dev nD) (j : Fin 15) (dv : Dev nD) (hdv : dv = pr c j) (f : Buf (Elt F) ((c : Thread nD τ).loc cc0_scratch1)) (W : Waits sig Unit)
    {α : Type} {k : PUnit → Prog (TpuEff nD τ sig (Elt F) Λ₀ .tc) α} {Q : α → sProp 𝕄} :
    iprop(records m ρ K ∗ owes (c : Thread nD τ) (owedSnd (geS 0) c + owedSig (geS j.val) c) W
        ∗ (bigSep (geS j.val) fun i => dutyTok ER (barCell (pr c i)) 0 (rev i))
        ∗ (bigSep (geS j.val) fun i => slotPts c (rev i) f))
      ⊢ iprop(((owes (c : Thread nD τ) (owedSnd (geS 0) c + owedSig (geS (j.val + 1)) c) W
            ∗ (bigSep (geS (j.val + 1)) fun i => dutyTok ER (barCell (pr c i)) 0 (rev i))
            ∗ (bigSep (geS (j.val + 1)) fun i => slotPts c (rev i) f)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (dv : Thread nD τ) barS (1#32).toNat) k) Q) := by
  subst hdv
  rw [bigSep_geS_peel j, bigSep_geS_peel j]
  iintro ⟨#HR, HO, ⟨Ht, HtR⟩, ⟨Hs, HsR⟩⟩ Hk
  iapply (Rounds.wp_signal 𝒱₀ ER (ringRd m ρ) (c : Thread nD τ) none (dst := (pr c j : Thread nD τ)) (κ := K (pr c j, .inl ()))
      (d := rev j) (by rw [duties_bar]; exact Finset.mem_univ _) ((amount_bar m ρ (pr c j) (rev j)).trans (by decide)) ()
      (O₀ := owedSnd (geS 0) c + owedSig (geS j.val) c) (owedSnd (geS 0) c + owedSig (geS (j.val + 1)) c)
      (by rw [owedSig_peel c j, add_assoc]; rfl)) $$ [HO Ht Hs]
  · isplitr; · iapply (inv_bar m ρ K (pr c j)); iexact HR
    isplitl [HO]; · iexact HO
    isplitl [Ht]; · iexact Ht
    isplitl [Hs]
    · rw [payload_bar]; iapply (barPay_back c j f); iexact Hs
    · iapply (rch_bar m ρ K (pr c j)); iexact HR
  iintro HO
  iapply Hk
  isplitl [HO]; · iexact HO
  isplitl [HtR] <;> iassumption

/-! ## The levels: a barrier wait while the fifteen rows are still owed -/

theorem lv_rcv (c : Dev nD) (j : Fin 15) : lv (rcvCell c j) () = 2 := by
  dsimp only [lv]; exact if_pos (by rw [recvS_val]; omega)

theorem mayWait_bar (c : Dev nD) :
    (levAts L lv : sProp 𝕄) ⊢ MayWait (c : Thread nD τ) (.reg barS) () (owedSnd (geS 0) c + owedSig (geS 15) c) := by
  rw [owedSig_done, add_zero]
  refine Pipeline.mayWait_of_levAts (by rw [L_tc]; exact Finset.mem_singleton_self _) fun g i hg => ?_
  unfold owedSnd at hg
  obtain ⟨j, -, hj⟩ := Pipeline.sum_pos_exists hg
  rw [tallyAt_apply] at hj
  by_cases h : g = rcvCell (pr c j) j ∧ i = ()
  · rw [h.1]
    exact ⟨by rw [L_tc]; exact Finset.mem_singleton_self _, by rw [lv_rcv]; exact (by decide : (1 : ℕ) < 2)⟩
  · rw [if_neg h] at hj; exact absurd hj (Nat.lt_irrefl 0)

/-! ## The barrier wait: all fifteen others are in; each has handed over the slot this device writes -/

theorem bar_wait (c : Dev nD) (W : Waits sig Unit) {α : Type} {k : PUnit → Prog (TpuEff nD τ sig (Elt F) Λ₀ .tc) α} {Q : α → sProp 𝕄} :
    iprop(records m ρ K ∗ levAts L lv ∗ cred (tallyAt (barCell c) () 15)
        ∗ owes (c : Thread nD τ) (owedSnd (geS 0) c + owedSig (geS 15) c) W ∗ atPos ER (barCell c) 0 ∅ 0)
      ⊢ iprop(((owes (c : Thread nD τ) (owedSnd (geS 0) c) (insert (SemLoc.reg barS, ()) W) ∗ atPos ER (barCell c) (0 + 1) ∅ 0
            ∗ (bigSep (geS 0) fun i => barPay (F := F) c i)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (15#32).toNat) k) Q) := by
  iintro ⟨#HR, #Hlev, HcB, HO, HatB⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owedSnd (geS 0) c + owedSig (geS 15) c) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  iapply Hk
  rw [owedSig_done, add_zero, geS_zero]
  isplitl [HO]; · iexact HO
  isplitl [HatB]; · iexact HatB
  iapply (Entails.of_eq (rest_bar m ρ c)); iexact Hpay

/-! ## A copy: `mine`, read at the next half of what is left of its share, into slot `j` of the device `j + 1` places on -/

theorem send_step (c : Dev nD) (j : Fin 15) (dv : Dev nD) (hdv : dv = pr c j) (W : Waits sig Unit)
    {hsc : (slotM j : Memref sig (Dev.tc dv : Thread nD τ).2.kind .vmem S1x768 .f32).view.ref.isScScratch = false}
    {hsrc : (mM : Memref sig .tc .vmem S1x768 .f32).view.WordExact} {hdst : (slotM j).view.WordExact}
    {hsem : DmaTarget.Typed .vmem (.dma (recvS j)) (.remote (Dev.tc dv : Thread nD τ) (slotM j) (.dma (sendS j)) hsc)}
    {α : Type} {k : PUnit → Prog (TpuEff nD τ sig (Elt F) Λ₀ .tc) α} {Q : α → sProp 𝕄} :
    iprop(records m ρ K ∗ owes (c : Thread nD τ) (owedSnd (geS j.val) c) W
        ∗ (bigSep (geS j.val) fun i => dutyTok ER (rcvCell (pr c i) i) 0 0)
        ∗ (bigSep (geS j.val) fun i => dutyTok ER (sndCell c i) 0 0)
        ∗ (bigSep (geS j.val) fun i => barPay (F := F) c i)
        ∗ minePts m ρ c (remSh j.val)
        ∗ (bigSep (ltS j.val) fun i => cred (tallyAt (sndCell c i) () Nr)))
      ⊢ iprop(((owes (c : Thread nD τ) (owedSnd (geS (j.val + 1)) c) W
            ∗ (bigSep (geS (j.val + 1)) fun i => dutyTok ER (rcvCell (pr c i) i) 0 0)
            ∗ (bigSep (geS (j.val + 1)) fun i => dutyTok ER (sndCell c i) 0 0)
            ∗ (bigSep (geS (j.val + 1)) fun i => barPay (F := F) c i)
            ∗ minePts m ρ c (remSh (j.val + 1))
            ∗ (bigSep (ltS (j.val + 1)) fun i => cred (tallyAt (sndCell c i) () Nr))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc dv : Thread nD τ) (slotM j) (.dma (sendS j)) hsc) (.dma (recvS j)) hsrc hdst hsem) k) Q) := by
  subst hdv
  rw [bigSep_geS_peel j, bigSep_geS_peel j, bigSep_geS_peel j, bigSep_ltS_push j]
  iintro ⟨#HR, HO, ⟨HtV, HtVR⟩, ⟨HtS, HtSR⟩, ⟨Hd, HdR⟩, Hm, HcR⟩ Hk
  unfold barPay
  icases Hd with ⟨%fn, Hd⟩
  ihave Hm2 := (Entails.of_eq (minePts_eq m ρ c (remSh j.val))) $$ Hm
  ihave Hm3 := (mine_split c j.val (mine m ρ c)).1 $$ Hm2
  icases Hm3 with ⟨HmL, HmP⟩
  ihave HmP' := (Entails.of_eq (show ((((c : Thread nD τ).loc cc0_scratch0) ↦{pieceSh j.val} mine m ρ c : sProp 𝕄))
      = ((mM : Memref sig .tc .vmem S1x768 .f32).view.loc (c : Thread nD τ) ↦[(mM : Memref sig .tc .vmem S1x768 .f32).view.set]{pieceSh j.val} mine m ρ c)
      from (minePts_eq m ρ c (pieceSh j.val)).symm)) $$ HmP
  ihave Hd' := (Entails.of_eq (show slotPts (pr c j) j fn
      = (((slotM j).view.loc ((pr c j : Dev nD) : Thread nD τ) ↦[(slotM j).view.set]{fullShare} fn : sProp 𝕄)) from rfl)) $$ Hd
  iapply (Rounds.wp_send_pointsTo 𝒱₀ ER (ringRd m ρ) (c : Thread nD τ) none (κ₁ := K (c, .inr (.inl j))) (κ₂ := K (pr c j, .inr (.inr (.inl j))))
      (r₁ := 0) (r₂ := 0) (d₁ := 0) (d₂ := 0) (fd := fn)
      (by rw [duties_snd]; exact Finset.mem_singleton_self _) (by rw [duties_rcv]; exact Finset.mem_singleton_self _)
      () () Nr rfl (amount_snd m ρ c j 0) (amount_rcv m ρ (pr c j) j 0) (O₀ := owedSnd (geS j.val) c) (owedSnd (geS (j.val + 1)) c) (owedSnd_peel c j) (W := W)
      (by rw [payload_snd]; unfold sndPay minePts; exact BI.Entails.refl _)
      (by rw [payload_rcv]; exact Entails.of_eq (slot_landed_rows m ρ c j fn))) $$ [HO HtV HtS Hd' HmP']
  · isplitr; · iapply (inv_snd m ρ K c j); iexact HR
    isplitr; · iapply (inv_rcv m ρ K (pr c j) j); iexact HR
    isplitl [HmP']; · iexact HmP'
    isplitl [Hd']; · iexact Hd'
    isplitl [HO]; · iexact HO
    isplitl [HtS]; · iexact HtS
    isplitr; · iapply (rch_snd m ρ K c j); iexact HR
    isplitl [HtV]; · iexact HtV
    iapply (rch_rcv m ρ K (pr c j) j); iexact HR
  iintro ⟨HcS, HO⟩
  iapply Hk
  isplitl [HO]; · iexact HO
  isplitl [HtVR]; · iexact HtVR
  isplitl [HtSR]; · iexact HtSR
  isplitl [HdR]; · iexact HdR
  isplitl [HmL]; · iapply (Entails.of_eq (minePts_eq m ρ c (remSh (j.val + 1))).symm); iexact HmL
  isplitl [HcS]; · iexact HcS
  iexact HcR

/-! ## The waits on the device's own cells: a receive wait hands over the slot written, a send wait the share read -/

theorem rcv_wait (c : Dev nD) (j : Fin 15)
    {sp' : Space} {s' : Shape} {e' : EltTy} {src : Memref sig (c : Thread nD τ).2.kind sp' s' e'} {hsrc : src.view.WordExact} {hdst : (slotM j).view.WordExact}
    {α : Type} {k : PUnit → Prog (TpuEff nD τ sig (Elt F) Λ₀ .tc) α} {Q : α → sProp 𝕄} :
    iprop(records m ρ K ∗ (∃ W, owes (c : Thread nD τ) 0 W)
        ∗ (bigSep (geS j.val) fun i => iprop(atPos ER (rcvCell c i) 0 ∅ 0 ∗ cred (tallyAt (rcvCell c i) () Nr)))
        ∗ (bigSep (ltS j.val) fun i => iprop(atPos ER (rcvCell c i) (0 + 1) ∅ 0 ∗ rcvPay m ρ c i)))
      ⊢ iprop((((∃ W, owes (c : Thread nD τ) 0 W)
            ∗ (bigSep (geS (j.val + 1)) fun i => iprop(atPos ER (rcvCell c i) 0 ∅ 0 ∗ cred (tallyAt (rcvCell c i) () Nr)))
            ∗ (bigSep (ltS (j.val + 1)) fun i => iprop(atPos ER (rcvCell c i) (0 + 1) ∅ 0 ∗ rcvPay m ρ c i))) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) src (slotM j) hsrc hdst) k) Q) := by
  rw [bigSep_geS_peel j, bigSep_ltS_push j]
  iintro ⟨#HR, ⟨%W, HO⟩, ⟨⟨Hat, Hc⟩, HgR⟩, HlR⟩ Hk
  iapply (Rounds.wp_wait_rest_token 𝒱₀ ER (ringRd m ρ) (c : Thread nD τ) none (κ := K (c, .inr (.inr (.inl j))))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iapply (inv_rcv m ρ K c j); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [HgR]; · iexact HgR
  isplitl [Hat Hpay]
  · isplitl [Hat]; · iexact Hat
    iapply (Entails.of_eq (rest_rcv m ρ c j)); iexact Hpay
  iexact HlR

theorem mM_credit : (mM : Memref sig .tc .vmem S1x768 .f32).view.dmaCredit = Nr := by decide

theorem snd_wait (c : Dev nD) (j : Fin 15)
    {sp' : Space} {s' : Shape} {e' : EltTy} {src : Memref sig (c : Thread nD τ).2.kind sp' s' e'} {hsrc : src.view.WordExact}
    {hdst : (mM : Memref sig .tc .vmem S1x768 .f32).view.WordExact}
    {α : Type} {k : PUnit → Prog (TpuEff nD τ sig (Elt F) Λ₀ .tc) α} {Q : α → sProp 𝕄} :
    iprop(records m ρ K ∗ (∃ W, owes (c : Thread nD τ) 0 W)
        ∗ (bigSep (geS j.val) fun i => iprop(atPos ER (sndCell c i) 0 ∅ 0 ∗ cred (tallyAt (sndCell c i) () Nr)))
        ∗ (bigSep (ltS j.val) fun i => iprop(atPos ER (sndCell c i) (0 + 1) ∅ 0 ∗ sndPay m ρ c i)))
      ⊢ iprop((((∃ W, owes (c : Thread nD τ) 0 W)
            ∗ (bigSep (geS (j.val + 1)) fun i => iprop(atPos ER (sndCell c i) 0 ∅ 0 ∗ cred (tallyAt (sndCell c i) () Nr)))
            ∗ (bigSep (ltS (j.val + 1)) fun i => iprop(atPos ER (sndCell c i) (0 + 1) ∅ 0 ∗ sndPay m ρ c i))) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) src mM hsrc hdst) k) Q) := by
  rw [bigSep_geS_peel j, bigSep_ltS_push j]
  iintro ⟨#HR, ⟨%W, HO⟩, ⟨⟨Hat, Hc⟩, HgR⟩, HlR⟩ Hk
  iapply (Rounds.wp_wait_rest_token 𝒱₀ ER (ringRd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_snd m ρ K c j); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [HgR]; · iexact HgR
  isplitl [Hat Hpay]
  · isplitl [Hat]; · iexact Hat
    iapply (Entails.of_eq (rest_snd m ρ c j)); iexact Hpay
  iexact HlR

/-! ## The result copy and its wait -/

theorem out_copy (c : Dev nD) (fo : Buf (Elt F) ((oM : Memref sig .tc .hbm S1x768 .f32).view.loc (c : Thread nD τ)))
    {hsrc : (fM : Memref sig .tc .vmem S1x768 .f32).view.WordExact} {hdst : (oM : Memref sig .tc .hbm S1x768 .f32).view.WordExact}
    {hsem : DmaTarget.Typed (nD := nD) (τ := τ) (p := (c : Thread nD τ).2) .vmem (.dma outS) (.here oM)}
    {α : Type} {k : PUnit → Prog (TpuEff nD τ sig (Elt F) Λ₀ .tc) α} {Q : α → sProp 𝕄} :
    iprop(records m ρ K ∗ totalPts m ρ c ∗ outPts c fo ∗ dutyTok ER (outCell c) 0 0)
      ⊢ iprop((cred (tallyAt (outCell c) () No) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fM (.here oM) (.dma outS) hsrc hdst hsem) k) Q) := by
  iintro ⟨#HR, Hf, Ho, Ht⟩ Hk
  unfold totalPts outPts
  iapply (Rounds.wp_copy_pointsTo 𝒱₀ ER (ringRd m ρ) (c : Thread nD τ) none (κ := K (c, .inr (.inr (.inr ())))) (r := 0) (d := 0) (fd := fo)
      (by rw [duties_out]; exact Finset.mem_singleton_self _) () No rfl (amount_out m ρ c 0)
      (by rw [payload_out]; unfold outPay outPts totalPts; rw [out_landed])) $$ [Hf Ho Ht]
  · isplitr; · iapply (inv_out m ρ K c); iexact HR
    isplitl [Hf]; · iexact Hf
    isplitl [Ho]; · iexact Ho
    isplitl [Ht]; · iexact Ht
    iapply (rch_out m ρ K c); iexact HR
  iintro Hc
  iapply Hk; iexact Hc

theorem out_wait (c : Dev nD) (W : Waits sig Unit)
    {hsrc : (fM : Memref sig .tc .vmem S1x768 .f32).view.WordExact} {hdst : (oM : Memref sig .tc .hbm S1x768 .f32).view.WordExact}
    {α : Type} {k : PUnit → Prog (TpuEff nD τ sig (Elt F) Λ₀ .tc) α} {Q : α → sProp 𝕄} :
    iprop(records m ρ K ∗ owes (c : Thread nD τ) 0 W ∗ atPos ER (outCell c) 0 ∅ 0 ∗ cred (tallyAt (outCell c) () No))
      ⊢ iprop(((owes (c : Thread nD τ) 0 (insert (SemLoc.dma outS, ()) W) ∗ atPos ER (outCell c) (0 + 1) ∅ 0 ∗ outPay m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 outS fM oM hsrc hdst) k) Q) := by
  iintro ⟨#HR, HO, Hat, Hc⟩ Hk
  iapply (Rounds.wp_wait_rest_token 𝒱₀ ER (ringRd m ρ) (c : Thread nD τ) none (κ := K (c, .inr (.inr (.inr ()))))
      (wpE_waitDma2_eq 𝒱₀ (c : Thread nD τ) none Set.univ) (Set.mem_univ _) () (O := 0) (W := W) (R := 0) (m := 0) (T := ∅)
      (by rw [Nat.zero_add, expect_out])) $$ [Hc HO Hat]
  · isplitr; · iapply (inv_out m ρ K c); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_out m ρ c)); iexact Hpay

/-! ## Closing a device's own cells: past their one round their counters are zero, and the device's again -/

theorem close_cell (c : Dev nD) (k : OK) :
    iprop(records m ρ K ∗ atPos ER (((c : Thread nD τ), osem k) : GSem nD τ sig) (0 + 1) ∅ 0) ⊢ |={Set.univ}=> (semVal (((c : Thread nD τ), osem k) : GSem nD τ sig) 0 : sProp 𝕄) := by
  iintro ⟨#HR, Hat⟩
  iapply (Rounds.cell_close ER (ringRd m ρ) (Set.mem_univ (K (c, .inr k))) (fun h => h) (R := 0 + 1) (duties_later m ρ _))
  isplitr; · iapply (inv_at m ρ K (c, .inr k)); iexact HR
  iexact Hat

end Cert.KernelProof

end
-- ==== Proof.KernelCont.lean ====
/-
  What the two vector stores leave in the scratch buffers.

  The first store writes, through the whole [1,768] buffer of column sums, the column sums of the device's staged block: the
  buffer then holds them, whatever it held. The second writes, through the whole result scratch buffer, the sum of the column
  sums and the fifteen received rows: the buffer then holds the total. A load through the whole of a buffer reads its
  contents, and one unmasked store through the whole of a buffer leaves its payload.
-/
import proofs.«901076_g7700000000001077_dist_sum_ax0_shard0_i_m1536_n768_v7x_i16_f32_1_alg».proof.Proof.KernelAux
import Idealize.ShloMosaic.Lib.Writes

noncomputable section

namespace Cert.KernelProof

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The offsets of an access to the whole of a rank-two buffer are all zero. -/
theorem zeros2 : (![0, 0] : Fin 2 → Nat) = fun _ => 0 := funext fun a => by fin_cases a <;> rfl

omit [FloatOps F] in
/-- A load through the whole of the staged block reads the block's contents. -/
theorem read_stg_whole (X : (cc0_stg0_0 : Ref sig .tc).ty.Contents (Elt F)) :
    View.readAt (Elt F) (Memref.whole cc0_stg0_0 : Memref sig .tc .vmem S1536x768 .f32).view
      (Rect.unit (s := S1536x768) ![0, 0] S1536x768.size inb_S1536x768_S1536x768_0_0).toLoadRect X = X :=
  Memref.readAt_unit_zero (Elt F) cc0_stg0_0 zeros2 _ X

omit [FloatOps F] in
/-- A load through the whole buffer of column sums reads that buffer's contents. -/
theorem read_mine_whole (X : (cc0_scratch0 : Ref sig .tc).ty.Contents (Elt F)) :
    View.readAt (Elt F) (Memref.whole cc0_scratch0 : Memref sig .tc .vmem S1x768 .f32).view
      (Rect.unit (s := S1x768) ![0, 0] S1x768.size inb_S1x768_S1x768_0_0).toLoadRect X = X :=
  Memref.readAt_unit_zero (Elt F) cc0_scratch0 zeros2 _ X

omit [FloatOps F] in
/-- A load through the whole receive buffer reads that buffer's contents. -/
theorem read_rows_whole (X : (cc0_scratch1 : Ref sig .tc).ty.Contents (Elt F)) :
    View.readAt (Elt F) (Memref.whole cc0_scratch1 : Memref sig .tc .vmem S15x768 .f32).view
      (Rect.unit (s := S15x768) ![0, 0] S15x768.size inb_S15x768_S15x768_0_0).toLoadRect X = X :=
  Memref.readAt_unit_zero (Elt F) cc0_scratch1 zeros2 _ X

omit [FloatOps F] in
/-- One unmasked store through the whole buffer of column sums leaves its payload there, whatever the buffer held. -/
theorem write_mine_whole (f w : (cc0_scratch0 : Ref sig .tc).ty.Contents (Elt F)) :
    (Memref.whole cc0_scratch0 : Memref sig .tc .vmem S1x768 .f32).view.writes (Elt F) f
      [⟨Rect.unit (s := S1x768) ![0, 0] S1x768.size inb_S1x768_S1x768_0_0, w⟩] = w := by
  rw [View.writes_singleton]
  exact Memref.write_access_unit_zero_univ (Elt F) cc0_scratch0 zeros2 _ f w

omit [FloatOps F] in
/-- One unmasked store through the whole result scratch buffer leaves its payload there, whatever the buffer held. -/
theorem write_total_whole (f w : (cc0_scratch2 : Ref sig .tc).ty.Contents (Elt F)) :
    (Memref.whole cc0_scratch2 : Memref sig .tc .vmem S1x768 .f32).view.writes (Elt F) f
      [⟨Rect.unit (s := S1x768) ![0, 0] S1x768.size inb_S1x768_S1x768_0_0, w⟩] = w := by
  rw [View.writes_singleton]
  exact Memref.write_access_unit_zero_univ (Elt F) cc0_scratch2 zeros2 _ f w

/-- The first store leaves the device's column sums in their buffer. -/
theorem mine_written (c : Dev nD) (f0 : Buf (Elt F) ((c : Thread nD τ).loc cc0_scratch0)) :
    (Memref.whole cc0_scratch0 : Memref sig .tc .vmem S1x768 .f32).view.writes (Elt F) f0
      [⟨Rect.unit (s := S1x768) ![0, 0] S1x768.size inb_S1x768_S1x768_0_0,
          k0_pay1 (View.readAt (Elt F) (Memref.whole cc0_stg0_0 : Memref sig .tc .vmem S1536x768 .f32).view
            (Rect.unit (s := S1536x768) ![0, 0] S1536x768.size inb_S1536x768_S1536x768_0_0).toLoadRect (xblk m ρ c))⟩]
      = mine m ρ c :=
  (write_mine_whole f0 _).trans (congrArg k0_pay1 (read_stg_whole (xblk m ρ c)))

/-- The second store leaves the total in the result scratch buffer. -/
theorem total_written (c : Dev nD) (f2 : Buf (Elt F) ((c : Thread nD τ).loc cc0_scratch2)) :
    (Memref.whole cc0_scratch2 : Memref sig .tc .vmem S1x768 .f32).view.writes (Elt F) f2
      [⟨Rect.unit (s := S1x768) ![0, 0] S1x768.size inb_S1x768_S1x768_0_0,
          k0_pay2 (View.readAt (Elt F) (Memref.whole cc0_scratch0 : Memref sig .tc .vmem S1x768 .f32).view
              (Rect.unit (s := S1x768) ![0, 0] S1x768.size inb_S1x768_S1x768_0_0).toLoadRect (mine m ρ c))
            (View.readAt (Elt F) (Memref.whole cc0_scratch1 : Memref sig .tc .vmem S15x768 .f32).view
              (Rect.unit (s := S15x768) ![0, 0] S15x768.size inb_S15x768_S15x768_0_0).toLoadRect (rows m ρ c))⟩]
      = total m ρ c :=
  (write_total_whole f2 _).trans (congrArg₂ k0_pay2 (read_mine_whole (mine m ρ c)) (read_rows_whole (rows m ρ c)))

end Cert.KernelProof

end
-- ==== Proof.KernelBody.lean ====
/-
  The body of the all-to-all sum at a symbolic device, from what the region hands it to what it must leave: the fifteen signals
  (each handing over the slot its target will write), the device's own column sums, the barrier wait (the fifteen slots this device
  writes arrive), the fifteen copies (each reading `mine` at the next half of what is left of its share), the fifteen receive waits
  (the receive buffer is whole again, row `j` the column sums of the device `j + 1` places before), the total, the result copy,
  the fifteen send waits (the shares of `mine` come back), the wait for the result copy; then every own cell is closed.
-/
import proofs.«901076_g7700000000001077_dist_sum_ax0_shard0_i_m1536_n768_v7x_i16_f32_1_alg».proof.Proof.KernelSched
import proofs.«901076_g7700000000001077_dist_sum_ax0_shard0_i_m1536_n768_v7x_i16_f32_1_alg».proof.Proof.KernelDevTable
import proofs.«901076_g7700000000001077_dist_sum_ax0_shard0_i_m1536_n768_v7x_i16_f32_1_alg».proof.Proof.KernelSteps
import proofs.«901076_g7700000000001077_dist_sum_ax0_shard0_i_m1536_n768_v7x_i16_f32_1_alg».proof.Proof.KernelCont
import Idealize.ShloMosaic.Lib.Tactic

noncomputable section

namespace Cert.KernelProof

open Cert.Kernel Cert.Kernel.Gen Cert.Kernel.Ring

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The steps in reverse, as a permutation. -/
def revE : Fin 15 ≃ Fin 15 := ⟨rev, rev, rev_rev, rev_rev⟩

theorem O₀_start (c : Dev nD) : (dats m ρ 0 c).owed t₀.castSucc = owedSnd (geS 0) c + owedSig (geS (0 : Fin 15).val) c := by
  show O₀ c = _
  unfold O₀; rw [show ((0 : Fin 15).val) = 0 from rfl, geS_zero]

/-! ## Entering and leaving the phases of the body -/

/-- Before the first copy: `mine` whole, nothing sent yet. -/
theorem copies_start (c : Dev nD) :
    ((((c : Thread nD τ).loc cc0_scratch0) ↦{fullShare} mine m ρ c : sProp 𝕄))
      ⊢ iprop(minePts m ρ c (remSh (0 : Fin 15).val) ∗ bigSep (ltS (0 : Fin 15).val) fun i => cred (tallyAt (sndCell c i) () Nr)) := by
  rw [show ((0 : Fin 15).val) = 0 from rfl, ltS_zero, bigSep_empty]
  iintro H
  isplitl [H]
  · iapply (Entails.of_eq (minePts_eq m ρ c (remSh 0)).symm); iexact H
  · iempintro

/-- After the last copy nothing is owed. -/
theorem copies_done (c : Dev nD) (W : Waits sig Unit) :
    owes (c : Thread nD τ) (owedSnd (geS ((14 : Fin 15).val + 1)) c) W ⊢ (owes (c : Thread nD τ) 0 W : sProp 𝕄) := by
  rw [show ((14 : Fin 15).val + 1) = 15 from rfl, owedSnd_done]

/-- Before the first receive wait: every receive cell at round 0 with its credit. -/
theorem rcvs_start (c : Dev nD) :
    iprop((bigSep (geS 0) fun i : Fin 15 => atPos ER (kcell (c, .inr (.inr (.inl i)))) 0 ∅ 0) ∗ (bigSep (geS 0) fun i : Fin 15 => cred (tallyAt (rcvCell c i) () Nr)))
      ⊢ iprop((bigSep (geS (0 : Fin 15).val) fun i => iprop(atPos ER (rcvCell c i) 0 ∅ 0 ∗ cred (tallyAt (rcvCell c i) () Nr)))
          ∗ (bigSep (ltS (0 : Fin 15).val) fun i => iprop(atPos ER (rcvCell c i) (0 + 1) ∅ 0 ∗ rcvPay m ρ c i))) := by
  rw [show ((0 : Fin 15).val) = 0 from rfl, ltS_zero, bigSep_empty, bigSep_sep']
  iintro ⟨H1, H2⟩
  isplitl [H1 H2]
  · isplitl [H1] <;> iassumption
  · iempintro

/-- After the last receive wait: every receive cell past its round, and the receive buffer whole again, every row landed. -/
theorem rcvs_done (c : Dev nD) :
    (bigSep (ltS ((14 : Fin 15).val + 1)) fun i => iprop(atPos ER (rcvCell c i) (0 + 1) ∅ 0 ∗ rcvPay m ρ c i))
      ⊢ iprop((bigSep Finset.univ fun i : Fin 15 => atPos ER (rcvCell c i) (0 + 1) ∅ 0) ∗ (((c : Thread nD τ).loc cc0_scratch1) ↦{fullShare} rows m ρ c)) := by
  rw [show ((14 : Fin 15).val + 1) = 15 from rfl, ltS_last, bigSep_sep', rows_split c (rows m ρ c)]
  exact BI.Entails.refl _

/-- Before the first send wait: every send cell at round 0 with the credit its copy left. -/
theorem snds_start (c : Dev nD) :
    iprop((bigSep (geS 0) fun i : Fin 15 => atPos ER (kcell (c, .inr (.inl i))) 0 ∅ 0) ∗ (bigSep (ltS ((14 : Fin 15).val + 1)) fun i : Fin 15 => cred (tallyAt (sndCell c i) () Nr)))
      ⊢ iprop((bigSep (geS (0 : Fin 15).val) fun i => iprop(atPos ER (sndCell c i) 0 ∅ 0 ∗ cred (tallyAt (sndCell c i) () Nr)))
          ∗ (bigSep (ltS (0 : Fin 15).val) fun i => iprop(atPos ER (sndCell c i) (0 + 1) ∅ 0 ∗ sndPay m ρ c i))) := by
  rw [show ((14 : Fin 15).val + 1) = 15 from rfl, ltS_last, ← geS_zero, show ((0 : Fin 15).val) = 0 from rfl, ltS_zero, bigSep_empty, bigSep_sep']
  iintro ⟨H1, H2⟩
  isplitl [H1 H2]
  · isplitl [H1] <;> iassumption
  · iempintro

/-- After the last send wait: every send cell past its round, and `mine` whole again. -/
theorem snds_done (c : Dev nD) :
    iprop(((((c : Thread nD τ).loc cc0_scratch0) ↦{remSh ((14 : Fin 15).val + 1)} mine m ρ c))
        ∗ (bigSep (ltS ((14 : Fin 15).val + 1)) fun i => iprop(atPos ER (sndCell c i) (0 + 1) ∅ 0 ∗ sndPay m ρ c i)))
      ⊢ iprop((bigSep Finset.univ fun i : Fin 15 => atPos ER (sndCell c i) (0 + 1) ∅ 0) ∗ (((c : Thread nD τ).loc cc0_scratch0) ↦{fullShare} mine m ρ c)) := by
  rw [show ((14 : Fin 15).val + 1) = 15 from rfl, ltS_last, bigSep_sep']
  iintro ⟨Hm, Ha, Hp⟩
  isplitl [Ha]; · iexact Ha
  iapply (mine_join c (mine m ρ c))
  isplitl [Hm]; · iexact Hm
  have hp : (bigSep Finset.univ fun i : Fin 15 => sndPay m ρ c i)
      ⊢ (bigSep Finset.univ fun i : Fin 15 => ((((c : Thread nD τ).loc cc0_scratch0) ↦{pieceSh i.val} mine m ρ c : sProp 𝕄))) :=
    bigSep_mono fun i _ => Entails.of_eq (minePts_eq m ρ c (pieceSh i.val))
  iapply hp
  iexact Hp

/-- Every own cell past its one round closes: its counter is zero and the device's again. -/
theorem close_all (K : Dev nD × CK → ℕ) (c : Dev nD) :
    iprop(records m ρ K ∗ (bigSep Finset.univ fun i : Fin 15 => atPos ER (sndCell c i) (0 + 1) ∅ 0) ∗ (bigSep Finset.univ fun i : Fin 15 => atPos ER (rcvCell c i) (0 + 1) ∅ 0)
        ∗ atPos ER (outCell c) (0 + 1) ∅ 0)
      ⊢ |={Set.univ}=> (bigSep Finset.univ fun k : OK => semVal (((c : Thread nD τ), osem k) : GSem nD τ sig) 0 : sProp 𝕄) := by
  have h : iprop(records m ρ K ∗ bigSep Finset.univ fun k : OK => atPos ER (((c : Thread nD τ), osem k) : GSem nD τ sig) (0 + 1) ∅ 0)
      ⊢ (bigSep Finset.univ fun k : OK => iprop(|={Set.univ}=> semVal (((c : Thread nD τ), osem k) : GSem nD τ sig) 0) : sProp 𝕄) :=
    bigSep_with_persistent fun k _ => close_cell m ρ K c k
  refine BI.Entails.trans ?_ (h.trans (bigSep_fupd _ _))
  rw [bigSep_OK (fun k : OK => (atPos ER (((c : Thread nD τ), osem k) : GSem nD τ sig) (0 + 1) ∅ 0 : sProp 𝕄))]
  exact BI.Entails.refl _

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_some (c : Dev nD) (W : Waits sig Unit) : (owes (c : Thread nD τ) 0 W : sProp 𝕄) ⊢ iprop(∃ W, owes (c : Thread nD τ) 0 W) := by
  iintro H; iexists W; iexact H

set_option hygiene false in
local macro "sig_at " j:term ", " e:term : tactic => `(tactic| (
  sl_exec
  iapply (sig_step m ρ K c $j _ ($e c) f1 W) $$ [HO HtB Hsl]
  · isplitr; · iexact HR
    isplitl [HO]; · iexact HO
    isplitl [HtB]; · iexact HtB
    iexact Hsl
  iintro ⟨HO, HtB, Hsl⟩))

set_option hygiene false in
local macro "copy_at " j:term ", " e:term : tactic => `(tactic| (
  sl_exec
  iapply (send_step m ρ K c $j _ ($e c) (insert (SemLoc.reg barS, ()) W)) $$ [HO HtV HtS Hpay Hm HcS]
  · isplitr; · iexact HR
    isplitl [HO]; · iexact HO
    isplitl [HtV]; · iexact HtV
    isplitl [HtS]; · iexact HtS
    isplitl [Hpay]; · iexact Hpay
    isplitl [Hm]; · iexact Hm
    iexact HcS
  iintro ⟨HO, HtV, HtS, Hpay, Hm, HcS⟩))

set_option hygiene false in
local macro "rcvw_at " j:term : tactic => `(tactic| (
  sl_exec
  iapply (rcv_wait m ρ K c $j) $$ [HOw Hrg Hrl]
  · isplitr; · iexact HR
    isplitl [HOw]; · iexact HOw
    isplitl [Hrg]; · iexact Hrg
    iexact Hrl
  iintro ⟨HOw, Hrg, Hrl⟩))

set_option hygiene false in
local macro "sndw_at " j:term : tactic => `(tactic| (
  sl_exec
  iapply (snd_wait m ρ K c $j) $$ [HOw Hsg Hsd]
  · isplitr; · iexact HR
    isplitl [HOw]; · iexact HOw
    isplitl [Hsg]; · iexact Hsg
    iexact Hsd
  iintro ⟨HOw, Hsg, Hsd⟩))

set_option maxHeartbeats 6400000 in
/-- The body at a symbolic device: the protocol's steps in program order, the loads, sums and stores between them executed symbolically. -/
theorem sound_body (c : Dev nD) :
    bodyPre m ρ c ⊢ wp frame (wpE (defs₀ (F := F)) 𝒱₀ c none) Set.univ
      (cc0_body (F := F) (Memref.whole cc0_stg0_0) (Memref.isWhole_whole _) (Memref.whole main_v1) (Memref.isWhole_whole _) (Memref.whole cc0_scratch0) (Memref.isWhole_whole _)
        (Memref.whole cc0_scratch1) (Memref.isWhole_whole _) (Memref.whole cc0_scratch2) (Memref.isWhole_whole _) cc0_scratch3 cc0_scratch4 cc0_scratch5) (fun _ => bodyPost m ρ c) := by
  unfold bodyPre Φ₀ start scratch ghost
  iintro ⟨⟨⟨⟨%K, #HR, Hpos, Htok⟩, HcB, HcV, #Hlev, ⟨%fo, Hout⟩⟩, ⟨%f0, Hmine⟩, ⟨%f1, Hrb⟩, ⟨%f2, Hfin⟩⟩, Ho, ⟨%d0, %g0, %hg0, Hx⟩⟩
  have hx : g0 = xblk m ρ c := by rw [hg0]; unfold Dat.before; rw [if_pos (fetch0_0 t₀)]; rfl
  subst hx
  unfold Dat.owesAt Pipeline.owesWithin
  icases Ho with ⟨%W, %hW, HO⟩
  rw [O₀_start m ρ c]
  unfold payToks positions
  icases Htok with ⟨HtB, HtV, HtS, HtO⟩
  ihave Hpos' := (Entails.of_eq (bigSep_CK (fun k : CK => (atPos ER (kcell (c, k)) 0 ∅ 0 : sProp 𝕄)))) $$ Hpos
  icases Hpos' with ⟨HaB, HaS, HaV, HaO⟩
  ihave Hsl0 := (Entails.of_eq (rows_split c f1)) $$ Hrb
  ihave Hsl := (Entails.of_eq (bigSep_univ_equiv revE (fun j : Fin 15 => (slotPts c j f1 : sProp 𝕄)))) $$ Hsl0
  rw [← geS_zero]
  ihave Hx := (Entails.of_eq (show ((((c : Thread nD τ).loc cc0_stg0_0) ↦{fullShare} xblk m ρ c : sProp 𝕄))
      = ((Memref.whole cc0_stg0_0 : Memref sig .tc .vmem S1536x768 .f32).view.loc (c : Thread nD τ) ↦[Finset.univ]{fullShare} xblk m ρ c) from rfl)) $$ Hx
  ihave Hmine := (Entails.of_eq (show ((((c : Thread nD τ).loc cc0_scratch0) ↦{fullShare} f0 : sProp 𝕄))
      = ((Memref.whole cc0_scratch0 : Memref sig .tc .vmem S1x768 .f32).view.loc (c : Thread nD τ) ↦[Finset.univ]{fullShare} f0) from rfl)) $$ Hmine
  sl_unfold [cc0_body]
  -- the fifteen signals
  sig_at 0, sig0
  sig_at 1, sig1
  sig_at 2, sig2
  sig_at 3, sig3
  sig_at 4, sig4
  sig_at 5, sig5
  sig_at 6, sig6
  sig_at 7, sig7
  sig_at 8, sig8
  sig_at 9, sig9
  sig_at 10, sig10
  sig_at 11, sig11
  sig_at 12, sig12
  sig_at 13, sig13
  sig_at 14, sig14
  -- the device's own column sums, then the wait for the fifteen others
  sl_exec
  rw [mine_written m ρ c f0]
  iapply (bar_wait m ρ K c W) $$ [HcB HO HaB]
  · isplitr; · iexact HR
    isplitr; · iexact Hlev
    isplitl [HcB]; · iexact HcB
    isplitl [HO]; · iexact HO
    iexact HaB
  iintro ⟨HO, HaB, Hpay⟩
  -- the fifteen copies
  ihave Hm2 := (copies_start m ρ c) $$ Hmine
  icases Hm2 with ⟨Hm, HcS⟩
  copy_at 0, snd0
  copy_at 1, snd1
  copy_at 2, snd2
  copy_at 3, snd3
  copy_at 4, snd4
  copy_at 5, snd5
  copy_at 6, snd6
  copy_at 7, snd7
  copy_at 8, snd8
  copy_at 9, snd9
  copy_at 10, snd10
  copy_at 11, snd11
  copy_at 12, snd12
  copy_at 13, snd13
  copy_at 14, snd14
  ihave HO0 := (copies_done c (insert (SemLoc.reg barS, ()) W)) $$ HO
  ihave HOw := (owes_some c (insert (SemLoc.reg barS, ()) W)) $$ HO0
  -- the fifteen receive waits
  ihave Hrv := (rcvs_start m ρ c) $$ [HaV HcV]
  · isplitl [HaV] <;> iassumption
  icases Hrv with ⟨Hrg, Hrl⟩
  rcvw_at 0
  rcvw_at 1
  rcvw_at 2
  rcvw_at 3
  rcvw_at 4
  rcvw_at 5
  rcvw_at 6
  rcvw_at 7
  rcvw_at 8
  rcvw_at 9
  rcvw_at 10
  rcvw_at 11
  rcvw_at 12
  rcvw_at 13
  rcvw_at 14
  ihave Hrd := (rcvs_done m ρ c) $$ Hrl
  icases Hrd with ⟨HaV1, Hrb⟩
  -- the total
  ihave Hmine := (Entails.of_eq (minePts_eq m ρ c (remSh ((14 : Fin 15).val + 1)))) $$ Hm
  ihave Hmine := (Entails.of_eq (show ((((c : Thread nD τ).loc cc0_scratch0) ↦{remSh ((14 : Fin 15).val + 1)} mine m ρ c : sProp 𝕄))
      = ((Memref.whole cc0_scratch0 : Memref sig .tc .vmem S1x768 .f32).view.loc (c : Thread nD τ) ↦[Finset.univ]{remSh ((14 : Fin 15).val + 1)} mine m ρ c) from rfl)) $$ Hmine
  ihave Hrb := (Entails.of_eq (show ((((c : Thread nD τ).loc cc0_scratch1) ↦{fullShare} rows m ρ c : sProp 𝕄))
      = ((Memref.whole cc0_scratch1 : Memref sig .tc .vmem S15x768 .f32).view.loc (c : Thread nD τ) ↦[Finset.univ]{fullShare} rows m ρ c) from rfl)) $$ Hrb
  ihave Hfin := (Entails.of_eq (show ((((c : Thread nD τ).loc cc0_scratch2) ↦{fullShare} f2 : sProp 𝕄))
      = ((Memref.whole cc0_scratch2 : Memref sig .tc .vmem S1x768 .f32).view.loc (c : Thread nD τ) ↦[Finset.univ]{fullShare} f2) from rfl)) $$ Hfin
  sl_exec
  rw [total_written m ρ c f2]
  -- the result copy
  ihave Hfin' := (Entails.of_eq (totalPts_eq m ρ c).symm) $$ Hfin
  iapply (out_copy m ρ K c fo) $$ [Hfin' Hout HtO]
  · isplitr; · iexact HR
    isplitl [Hfin']; · iexact Hfin'
    isplitl [Hout]; · iexact Hout
    iexact HtO
  iintro HcO
  -- the fifteen send waits
  ihave Hsn := (snds_start m ρ c) $$ [HaS HcS]
  · isplitl [HaS] <;> iassumption
  icases Hsn with ⟨Hsg, Hsd⟩
  sndw_at 0
  sndw_at 1
  sndw_at 2
  sndw_at 3
  sndw_at 4
  sndw_at 5
  sndw_at 6
  sndw_at 7
  sndw_at 8
  sndw_at 9
  sndw_at 10
  sndw_at 11
  sndw_at 12
  sndw_at 13
  sndw_at 14
  -- the wait for the result copy
  icases HOw with ⟨%W2, HO⟩
  iapply (out_wait m ρ K c W2) $$ [HO HaO HcO]
  · isplitr; · iexact HR
    isplitl [HO]; · iexact HO
    isplitl [HaO]; · iexact HaO
    iexact HcO
  iintro ⟨HO, HaO, Hop⟩
  -- every own cell closes; the buffers come back whole
  unfold outPay
  icases Hop with ⟨Hout, Hfin⟩
  ihave Hsdone := (snds_done m ρ c) $$ [Hmine Hsd]
  · isplitl [Hmine] <;> iassumption
  icases Hsdone with ⟨HaS1, Hmine⟩
  imod (close_all m ρ K c) $$ [HaS1 HaV1 HaO] with Hz
  · isplitr; · iexact HR
    isplitl [HaS1]; · iexact HaS1
    isplitl [HaV1]; · iexact HaV1
    iexact HaO
  simp only [Prog.pure_eq_ret, Prog.bind, wp_ret]
  imodintro
  unfold bodyPost Φ₁ scratch Dat.owesAt Pipeline.owesWithin
  isplitl [Hout Hz Hmine Hrb Hfin]
  · isplitl [Hout]; · iexact Hout
    isplitl [Hz]; · iexact Hz
    isplitl [Hmine]; · iexists _; iexact Hmine
    isplitl [Hrb]; · iexists _; iexact Hrb
    iexists _; iapply (Entails.of_eq (totalPts_eq m ρ c)); iexact Hfin
  isplitl [HO]
  · iexists (insert (SemLoc.dma outS, ()) W2)
    isplitr; · ipureintro; exact fun _ _ => Or.inl trivial
    iexact HO
  iexists _
  isplitr; · (ipureintro; rfl)
  iexact Hx

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
      (cc0_body (F := F) (Memref.whole cc0_stg0_0) (Memref.isWhole_whole _) (Memref.whole main_v1) (Memref.isWhole_whole _) (Memref.whole cc0_scratch0) (Memref.isWhole_whole _)
        (Memref.whole cc0_scratch1) (Memref.isWhole_whole _) (Memref.whole cc0_scratch2) (Memref.isWhole_whole _) cc0_scratch3 cc0_scratch4 cc0_scratch5) (fun _ => bodyPost m ρ c)
  exact sound_body m ρ c

/-- info: 'Cert.KernelProof.body_obligation' depends on axioms: [propext, Classical.choice, Quot.sound] -/
#guard_msgs in #print axioms body_obligation

end Cert.KernelProof

end
-- ==== Proof.KernelLaunch.lean ====
/-
  The launch of the all-to-all sum on the ring of sixteen devices: the cells and duty tokens the launch element holds,
  the one update that allocates every cell's invariant and deals each device the ghost state its body starts from (the
  tokens re-indexed along the ring: a device ends holding the tokens of the duties it pays, not of its own cells), the
  credit each device is dealt for what the others owe its cells, the level evidence for the staging waits, and the run of
  the whole program given the body obligation.
-/
import proofs.«901076_g7700000000001077_dist_sum_ax0_shard0_i_m1536_n768_v7x_i16_f32_1_alg».proof.Proof.KernelSched

noncomputable section

namespace Cert.KernelProof

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

theorem ownSemFacts : Pipeline.OwnSemFacts cfg0.spec osem := by decide

theorem share_eq (c : Dev nD) (w : Fin cfg0.W) : (dats m ρ 0 c).share w = fullShare := by unfold Dat.share; split <;> rfl

/-- An own semaphore is a DMA semaphore, the barrier semaphore a regular one. -/
theorem reg_ne_osem (k : OK) : (SemLoc.reg barS : SemLoc sig) ≠ osem k := by
  rcases k with j | j | ⟨⟩ <;> exact fun h => by cases h

theorem csem_injective : Function.Injective (csem : CK → SemLoc sig) := by
  rintro (⟨⟩ | k) (⟨⟩ | k') h
  · rfl
  · exact absurd h (reg_ne_osem k')
  · exact absurd h.symm (reg_ne_osem k)
  · exact congrArg Sum.inr (ownSemFacts.inj h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens as minted, per device: its barrier cell's fifteen, and duty 0 of each of its own cells. -/
abbrev TK : Type := Fin 15 ⊕ OK
abbrev tokOf (cj : Dev nD × TK) : GSem nD τ sig × ℕ × Fin 15 := match cj.2 with
  | .inl j => (barCell cj.1, 0, j)
  | .inr k => (((cj.1 : Thread nD τ), osem k), 0, 0)
theorem tokOf_injective : Function.Injective (tokOf : Dev nD × TK → GSem nD τ sig × ℕ × Fin 15) := by
  rintro ⟨c, j⟩ ⟨c', j'⟩ h
  have h1 : c = c' := by
    have := congrArg (fun x : GSem nD τ sig × ℕ × Fin 15 => x.1.1.1) h
    rcases j with j | k <;> rcases j' with j' | k' <;> exact this
  subst h1
  have : j = j' := by
    rcases j with j | k <;> rcases j' with j' | k'
    · exact congrArg Sum.inl (congrArg (fun x : GSem nD τ sig × ℕ × Fin 15 => x.2.2) h)
    · exact absurd (congrArg (fun x : GSem nD τ sig × ℕ × Fin 15 => x.1.2) h) (reg_ne_osem k')
    · exact absurd (congrArg (fun x : GSem nD τ sig × ℕ × Fin 15 => x.1.2) h).symm (reg_ne_osem k)
    · exact congrArg Sum.inr (ownSemFacts.inj (congrArg (fun x : GSem nD τ sig × ℕ × Fin 15 => x.1.2) h))
  subst this; rfl
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ bigSep Finset.univ fun k : OK => dutyTok ER ((c : Thread nD τ), osem k) 0 0)

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The one update: every cell's invariant allocated, the tokens dealt round the ring -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  have h : (bigSep Finset.univ fun k : CK => semVal (kcell (c, k)) 0 : sProp 𝕄)
      = iprop(semVal (barCell c) 0 ∗ bigSep Finset.univ fun k : OK => semVal ((c : Thread nD τ), osem k) 0) := by
    rw [bigSep_univ_sum, bigSep_univ_of_subsingleton ()]; rfl
  rw [unscopedSems0_eq, h]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Step `j` forward and its undoing step: an involution of the (device, step) pairs. -/
def ringRev : Dev nD × Fin 15 ≃ Dev nD × Fin 15 where
  toFun cj := (pr cj.1 cj.2, rev cj.2)
  invFun cj := (pr cj.1 cj.2, rev cj.2)
  left_inv cj := by rcases cj with ⟨c, j⟩; exact Prod.ext (pr_pr_rev c j) (rev_rev j)
  right_inv cj := by rcases cj with ⟨c, j⟩; exact Prod.ext (pr_pr_rev c j) (rev_rev j)
/-- Step `j` forward, the step kept. -/
def ringFwd : Dev nD × Fin 15 ≃ Dev nD × Fin 15 where
  toFun cj := (pr cj.1 cj.2, cj.2)
  invFun cj := (bk cj.1 cj.2, cj.2)
  left_inv cj := by rcases cj with ⟨c, j⟩; exact Prod.ext (bk_pr c j) rfl
  right_inv cj := by rcases cj with ⟨c, j⟩; exact Prod.ext (pr_bk c j) rfl

/-- The tokens dealt round the ring: duty `j` of a barrier cell goes to the device `j + 1` places after its owner (for
    which it is duty `rev j` of the cell of the device `rev j + 1` places on), a receive cell's to the device that sends
    into it; the send cells' and the result copy's stay. -/
theorem toks_around : (bigSep Finset.univ fun c : Dev nD => (toks c : sProp 𝕄)) ⊢ bigSep Finset.univ fun c : Dev nD => payToks c := by
  have hbar : (bigSep Finset.univ fun c : Dev nD => bigSep Finset.univ fun j : Fin 15 => (dutyTok ER (barCell c) 0 j : sProp 𝕄))
      = bigSep Finset.univ fun c : Dev nD => bigSep Finset.univ fun j : Fin 15 => (dutyTok ER (barCell (pr c j)) 0 (rev j) : sProp 𝕄) := by
    rw [← bigSep_univ_prod (fun cj : Dev nD × Fin 15 => (dutyTok ER (barCell cj.1) 0 cj.2 : sProp 𝕄)),
      bigSep_univ_equiv ringRev (fun cj : Dev nD × Fin 15 => (dutyTok ER (barCell cj.1) 0 cj.2 : sProp 𝕄)), bigSep_univ_prod]
    rfl
  have hrcv : (bigSep Finset.univ fun c : Dev nD => bigSep Finset.univ fun j : Fin 15 => (dutyTok ER (rcvCell c j) 0 0 : sProp 𝕄))
      = bigSep Finset.univ fun c : Dev nD => bigSep Finset.univ fun j : Fin 15 => (dutyTok ER (rcvCell (pr c j) j) 0 0 : sProp 𝕄) := by
    rw [← bigSep_univ_prod (fun cj : Dev nD × Fin 15 => (dutyTok ER (rcvCell cj.1 cj.2) 0 0 : sProp 𝕄)),
      bigSep_univ_equiv ringFwd (fun cj : Dev nD × Fin 15 => (dutyTok ER (rcvCell cj.1 cj.2) 0 0 : sProp 𝕄)), bigSep_univ_prod]
    rfl
  unfold toks payToks
  simp only [bigSep_OK]
  rw [bigSep_sep', bigSep_sep', bigSep_sep', bigSep_sep', bigSep_sep', bigSep_sep', hbar, hrcv]
  iintro ⟨H1, H2, H3, H4⟩
  isplitl [H1]; · iexact H1
  isplitl [H3]; · iexact H3
  isplitl [H2]; · iexact H2
  iexact H4

theorem ghost_intro (K : Dev nD × CK → ℕ) (c : Dev nD) : iprop(records m ρ K ∗ (positions c ∗ payToks c)) ⊢ G' m ρ c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tallyAt_nsmul (g : GSem nD τ sig) (n k : ℕ) : n • (tallyAt g () k : CellTallies nD τ sig Unit) = tallyAt g () (n * k) := by
  induction n with
  | zero => rw [zero_smul, Nat.zero_mul, tallyAt_zero]
  | succ n ih => rw [succ_nsmul, ih, tallyAt_add, Nat.succ_mul]

/-- What the others owe device `c`'s receive cells: cell `j` a row's credit, from the device `j + 1` places before it; -/
theorem cred_snd (c : Dev nD) :
    (Pipeline.launchCred (owedSnd Finset.univ) c : sProp 𝕄) ⊢ bigSep Finset.univ fun j : Fin 15 => cred (tallyAt (rcvCell c j) () Nr) := by
  show (Pipeline.launchCred (fun d => ∑ j ∈ (Finset.univ : Finset (Fin 15)), tallyAt (rcvCell (pr d j) j) () Nr) c : sProp 𝕄) ⊢ _
  rw [Pipeline.launchCred_sum]
  exact bigSep_mono fun j _ => Pipeline.launchCred_tallyAt (.dma (recvS j)) (fun d => pr d j) (fun c => bk c j) (fun c => pr_bk c j) (fun d => bk_pr d j) () Nr c

/-- and its barrier cell: one unit from each of the fifteen. -/
theorem cred_sig (c : Dev nD) :
    (Pipeline.launchCred (owedSig Finset.univ) c : sProp 𝕄) ⊢ cred (tallyAt (barCell c) () 15) := by
  show (Pipeline.launchCred (fun d => ∑ j ∈ (Finset.univ : Finset (Fin 15)), tallyAt (barCell (pr d j)) () 1) c : sProp 𝕄) ⊢ _
  rw [Pipeline.launchCred_sum]
  refine (bigSep_mono fun j _ => Pipeline.launchCred_tallyAt (.reg barS) (fun d => pr d j) (fun c => bk c j) (fun c => pr_bk c j) (fun d => bk_pr d j) () 1 c).trans ?_
  rw [← Pipeline.cred_finsetSum, Finset.sum_const, Finset.card_univ, Fintype.card_fin, tallyAt_nsmul]
  exact BI.Entails.refl _

theorem creds (c : Dev nD) :
    (Pipeline.launchCred O₀ c : sProp 𝕄)
      ⊢ iprop(cred (tallyAt (barCell c) () 15) ∗ bigSep Finset.univ fun j : Fin 15 => cred (tallyAt (rcvCell c j) () Nr)) := by
  rw [show (O₀ : Dev nD → CellTallies nD τ sig Unit) = fun d => owedSnd Finset.univ d + owedSig Finset.univ d from rfl, Pipeline.launchCred_add]
  iintro ⟨HS, HB⟩
  isplitl [HB]
  · iapply (cred_sig (F := F) c); iexact HB
  · iapply (cred_snd (F := F) c); iexact HS

/-! ## The side conditions -/

/-- The result array is a whole buffer. -/
theorem launch_outPts_eq (c : Dev nD) (f : Buf (Elt F) ((c : Thread nD τ).loc main_v1)) :
    outPts c f = (((c : Thread nD τ).loc main_v1) ↦{fullShare} f : sProp 𝕄) := by unfold outPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hout, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    iexists (m ((c : Thread nD τ).loc main_v1)); rw [launch_outPts_eq]; iexact Hout
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(outPts c (total m ρ c) ∗ Pipeline.ownSems0 osem c ∗ Pipeline.scopedRest cfg0.spec c) := by
  rw [show (dats m ρ 0 c).Φ (Fin.last cfg0.N) = Φ₁ m ρ c from rfl, scopedRest0_eq]
  unfold Φ₁ scratch Pipeline.ownSems0
  exact .rfl

/-! ### The levels: a staging wait sits below everything owed at launch -/

theorem lv_stage (c : Dev nD) (q : DmaSem sig) (hq : q.val = 0) : lv ((c : Thread nD τ), SemLoc.dma q) () = 0 := by
  show (if 16 ≤ q.val ∧ q.val ≤ 30 then 2 else 0) = 0
  rw [if_neg (by omega)]
theorem launch_lv_rcv (c : Dev nD) (j : Fin 15) (u : Unit) : lv (rcvCell c j) u = 2 := by
  show (if 16 ≤ (recvS j).val ∧ (recvS j).val ≤ 30 then 2 else 0) = 2
  have := j.isLt
  rw [if_pos (by rw [recvS_val]; omega)]
theorem launch_lv_bar (c : Dev nD) (u : Unit) : lv (barCell c) u = 1 := rfl

/-- What a device owes at launch it owes to a receive cell or to a barrier cell. -/
theorem O₀_pos {c : Dev nD} {g : GSem nD τ sig} {u : Unit} (h : 0 < O₀ c g u) :
    (∃ j, g = rcvCell (pr c j) j) ∨ ∃ j, g = barCell (pr c j) := by
  unfold O₀ owedSnd owedSig at h
  rcases Pipeline.add_pos_cases h with h | h
  · obtain ⟨j, -, hj⟩ := Pipeline.sum_pos_exists h
    exact Or.inl ⟨j, (Pipeline.tallyAt_pos hj).1⟩
  · obtain ⟨j, -, hj⟩ := Pipeline.sum_pos_exists h
    exact Or.inr ⟨j, (Pipeline.tallyAt_pos hj).1⟩

theorem mayWait_stage (c : Dev nD) (q : DmaSem sig) (hq : q.val = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases O₀_pos hg with ⟨j, rfl⟩ | ⟨j, rfl⟩
    · exact ⟨by rw [L_tc]; exact Finset.mem_singleton_self _, by rw [launch_lv_rcv]; decide⟩
    · exact ⟨by rw [L_tc]; exact Finset.mem_singleton_self _, by rw [launch_lv_bar]; decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the mesh of sixteen devices, for any float values, from any memory with zero counters, given the body obligation on
    every device: every weakly fair execution of the program terminates, and every final state has each device's result
    array at the total of the sixteen column sums and its argument array unchanged. -/
theorem run_main_of (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c : Thread nD τ).loc main_v1) = total m ρ c
      ∧ r.2.mem ((c : Thread nD τ).loc main_arg0) = m ((c : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => outPts c (total m ρ c)) (Z := fun _ => iprop(emp))
    (hX := start_intro m ρ) (hin := phi0_intro m ρ) (hout := phi1_exit m ρ)
    (QY := fun c s => s.mem ((c : Thread nD τ).loc main_v1) = total m ρ c)
    (hY := fun c s' => by
      show iprop(outPts c (total m ρ c) ∗ _ ∗ _) ⊢ _
      rw [launch_outPts_eq]
      iintro ⟨Hx, -, HSI⟩
      icombine HSI Hx gives %hx
      imodintro
      isplitr; · ipureintro; exact Buf.eq_of_forall_mem_univ hx
      iexact HSI)
    (hQ := fun s h c => ⟨(h c).2.2, ((h c).1 0).trans ((dats (F := F) m ρ 0 c).arrAt_in (0 : Fin 1) rfl _)⟩)

end Cert.KernelProof

end
-- ==== Proof.KernelIdealRing.lean ====
/-
  The mesh as a ring of sixteen positions. Device `c` addresses, at step `j` of fifteen, the device `j + 1`
  places after it; `pr c j` is that device and `bk c j` the device `j + 1` places before `c`, so that
  `pr (bk c j) j = c`. The printed device chains are these positions.
-/
import proofs.«901076_g7700000000001077_dist_sum_ax0_shard0_i_m1536_n768_v7x_i16_f32_1_alg».proof.KernelIdeal
import proofs.«901076_g7700000000001077_dist_sum_ax0_shard0_i_m1536_n768_v7x_i16_f32_1_alg».proof.Proof.Gen.KernelIdeal

namespace Cert.KernelIdeal.Ring

open Cert.KernelIdeal Cert.KernelIdeal.Gen Idealize.ShloMosaic

/-- The device `j + 1` places after `c`. -/
def pr (c : Dev nD) (j : Fin 15) : Dev nD := ⟨(c.val + j.val + 1) % 16, Nat.mod_lt _ (by decide)⟩
/-- The device `j + 1` places before `c`. -/
def bk (c : Dev nD) (j : Fin 15) : Dev nD := ⟨(c.val + 15 - j.val) % 16, Nat.mod_lt _ (by decide)⟩
/-- The step that undoes step `j`: `j + 1` and `rev j + 1` add up to sixteen. -/
def rev (j : Fin 15) : Fin 15 := ⟨14 - j.val, by omega⟩

theorem pr_bk (c : Dev nD) (j : Fin 15) : pr (bk c j) j = c := by revert c j; decide
theorem bk_pr (c : Dev nD) (j : Fin 15) : bk (pr c j) j = c := by revert c j; decide
theorem pr_pr_rev (c : Dev nD) (j : Fin 15) : pr (pr c j) (rev j) = c := by revert c j; decide
theorem bk_eq_pr_rev (c : Dev nD) (j : Fin 15) : bk c j = pr c (rev j) := by revert c j; decide
theorem rev_rev (j : Fin 15) : rev (rev j) = j := by revert j; decide
theorem pr_ne (c : Dev nD) (j : Fin 15) : pr c j ≠ c := by revert c j; decide
theorem pr_inj_step (c : Dev nD) (j j' : Fin 15) (h : pr c j = pr c j') : j = j' := by revert c j j'; decide
theorem pr_inj_dev (c c' : Dev nD) (j : Fin 15) (h : pr c j = pr c' j) : c = c' := by revert c c' j; decide

end Cert.KernelIdeal.Ring
-- ==== Proof.KernelIdealSched.lean ====
/-
  An all-to-all sum on a ring of sixteen devices: the cells of the protocol, what each landing hands its owner, and what
  every buffer holds along the way.

  Device `c` first tells each of the fifteen others, on that device's barrier semaphore, that it is inside the kernel;
  sums its own block of rows into `mine`; waits until all fifteen others have told it the same; copies `mine` into slot
  `j` of the receive buffer of the device `j + 1` places after it (`j = 0 … 14`); waits for the fifteen rows sent to it;
  adds them to `mine`; copies the total to its result; waits for its own fifteen copies to have been read and for the result copy.

  So slot `j` of device `c`'s receive buffer ends holding the row sum of the device `j + 1` places BEFORE `c`, and the
  total is the sum over all sixteen devices whatever `c` is.

  The cells, per device: the barrier cell, with fifteen duties of one unit — duty `j` is paid by the device `j + 1` places
  after the owner, which hands over slot `j` of its own receive buffer (the slot the owner will write) —; fifteen send cells and
  fifteen receive cells of one duty each, a send cell handing back the share of `mine` its copy read, a receive cell handing over the
  slot written; and the cell of the result copy, handing back the total and the result.
-/
import proofs.«901076_g7700000000001077_dist_sum_ax0_shard0_i_m1536_n768_v7x_i16_f32_1_alg».proof.Proof.KernelIdealRing
import proofs.«901076_g7700000000001077_dist_sum_ax0_shard0_i_m1536_n768_v7x_i16_f32_1_alg».proof.Proof.Gen.KernelIdeal.Skeleton
import proofs.«901076_g7700000000001077_dist_sum_ax0_shard0_i_m1536_n768_v7x_i16_f32_1_alg».proof.Proof.Gen.KernelIdeal.Launch
import proofs.«901076_g7700000000001077_dist_sum_ax0_shard0_i_m1536_n768_v7x_i16_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the ring's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs -/

abbrev xM : Memref sig .tc .vmem S1536x768 .f32 := Memref.whole cc0_stg0_0
abbrev oM : Memref sig .tc .hbm S1x768 .f32 := Memref.whole main_v1
abbrev mM : Memref sig .tc .vmem S1x768 .f32 := Memref.whole cc0_scratch0
abbrev rM : Memref sig .tc .vmem S15x768 .f32 := Memref.whole cc0_scratch1
abbrev fM : Memref sig .tc .vmem S1x768 .f32 := Memref.whole cc0_scratch2

theorem slot_inb (j : Fin 15) : ∀ a, (![j.val, 0] : Fin 2 → Nat) a + S1x768.size a ≤ S15x768.size a := by revert j; decide
theorem sem_inb (j : Fin 15) : ∀ a, (![j.val] : Fin 1 → Nat) a + S1.size a ≤ S15.size a := by revert j; decide

/-- Row `j` of the receive buffer. -/
abbrev slotR (j : Fin 15) : Rect S15x768 := Rect.unit (s := S15x768) ![j.val, 0] S1x768.size (slot_inb j)
abbrev slotM (j : Fin 15) : Memref sig .tc .vmem S1x768 .f32 := (rM).slice (slotR j) (fun _ => rfl)
abbrev semR (j : Fin 15) : Rect S15 := Rect.unit (s := S15) ![j.val] S1.size (sem_inb j)

/-! ## The semaphores and cells -/

abbrev barS : Sem sig := (SemArray.scalar (sig.barrier 0 rfl) : Sems sig S_).sem
abbrev sendS (j : Fin 15) : DmaSem sig := ((cc0_scratch3.slice (semR j)).squeeze S_ squeezes_S1_S_).sem
abbrev recvS (j : Fin 15) : DmaSem sig := ((cc0_scratch4.slice (semR j)).squeeze S_ squeezes_S1_S_).sem
abbrev outS : DmaSem sig := cc0_scratch5.sem

theorem sendS_val (j : Fin 15) : (sendS j).val = 1 + j.val := by revert j; decide
theorem recvS_val (j : Fin 15) : (recvS j).val = 16 + j.val := by revert j; decide
theorem outS_val : (outS).val = 31 := by decide

abbrev barCell (c : Dev nD) : GSem nD τ sig := ((c : Thread nD τ), .reg barS)
abbrev sndCell (c : Dev nD) (j : Fin 15) : GSem nD τ sig := ((c : Thread nD τ), .dma (sendS j))
abbrev rcvCell (c : Dev nD) (j : Fin 15) : GSem nD τ sig := ((c : Thread nD τ), .dma (recvS j))
abbrev outCell (c : Dev nD) : GSem nD τ sig := ((c : Thread nD τ), .dma outS)

/-- The step a send or receive semaphore belongs to. -/
def jOf (q : DmaSem sig) : Fin 15 := ⟨(q.val + 14) % 15, Nat.mod_lt _ (by decide)⟩
theorem jOf_send (j : Fin 15) : jOf (sendS j) = j := by revert j; decide
theorem jOf_recv (j : Fin 15) : jOf (recvS j) = j := by revert j; decide

/-- What one completed copy of a row credits. -/
abbrev Nr : ℕ := (slotM 0).view.dmaCredit
/-- What the completed result copy credits. -/
abbrev No : ℕ := (oM : Memref sig .tc .hbm S1x768 .f32).view.dmaCredit
theorem Nr_pos : 0 < Nr := View.dmaCredit_pos _ (by decide)
theorem No_pos : 0 < No := View.dmaCredit_pos _ (by decide)

/-! ## Contents -/

/-- Device `c`'s block of rows, as staged. -/
def xblk (c : Dev nD) : (cc0_stg0_0 : Ref sig .tc).ty.Contents (Elt F) :=
  (win0_0.blk (0 : Fin 1)).view.read (Elt F) ((s₀ m ρ).mem ((c : Thread nD τ).loc main_arg0))

/-- The column sums of device `c`'s block. -/
def mine (c : Dev nD) : (cc0_scratch0 : Ref sig .tc).ty.Contents (Elt F) := k0_pay1 (xblk m ρ c)

/-- The receive buffer once every row has landed: row `j` is the column sums of the device `j + 1` places before `c`. -/
def rows (c : Dev nD) : (cc0_scratch1 : Ref sig .tc).ty.Contents (Elt F) :=
  fun i => mine m ρ (bk c ⟨(i 0).val, (i 0).isLt⟩) (ValueIdx.ix2 (0 : Fin 1) (⟨(i 1).val, (i 1).isLt⟩ : Fin 768))

/-- The total on device `c`: its own column sums plus the fifteen rows received. -/
def total (c : Dev nD) : (cc0_scratch2 : Ref sig .tc).ty.Contents (Elt F) := k0_pay2 (mine m ρ c) (rows m ρ c)

/-! ## Shares of `mine`: the fifteen copies in flight read it at once -/

/-- What is left of the whole share after `n` halvings, each copy taking the right half of what was left. -/
def remSh : ℕ → PosShare TreeShare
  | 0 => fullShare
  | n + 1 => (remSh n).left
def pieceSh (n : ℕ) : PosShare TreeShare := (remSh n).right

/-! ## Points-to assertions -/

def slotPts (c : Dev nD) (j : Fin 15) (f : Buf (Elt F) ((slotM j).view.loc (c : Thread nD τ))) : sProp 𝕄 :=
  (slotM j).view.loc (c : Thread nD τ) ↦[(slotM j).view.set]{fullShare} f
def minePts (c : Dev nD) (q : PosShare TreeShare) : sProp 𝕄 :=
  (mM : Memref sig .tc .vmem S1x768 .f32).view.loc (c : Thread nD τ) ↦[(mM : Memref sig .tc .vmem S1x768 .f32).view.set]{q} mine m ρ c
def totalPts (c : Dev nD) : sProp 𝕄 :=
  (fM : Memref sig .tc .vmem S1x768 .f32).view.loc (c : Thread nD τ) ↦[(fM : Memref sig .tc .vmem S1x768 .f32).view.set]{fullShare} total m ρ c
def outPts (c : Dev nD) (f : Buf (Elt F) ((oM : Memref sig .tc .hbm S1x768 .f32).view.loc (c : Thread nD τ))) : sProp 𝕄 :=
  (oM : Memref sig .tc .hbm S1x768 .f32).view.loc (c : Thread nD τ) ↦[(oM : Memref sig .tc .hbm S1x768 .f32).view.set]{fullShare} f

/-! ## The schedule -/

/-- Duty `j` of `c`'s barrier cell: the device `j + 1` places after `c` hands over slot `j` of its receive buffer. -/
def barPay (c : Dev nD) (j : Fin 15) : sProp 𝕄 := iprop(∃ f, slotPts (pr c j) j f)
def rcvPay (c : Dev nD) (j : Fin 15) : sProp 𝕄 := slotPts c j (rows m ρ c)
def sndPay (c : Dev nD) (j : Fin 15) : sProp 𝕄 := minePts m ρ c (pieceSh j.val)
def outPay (c : Dev nD) : sProp 𝕄 := iprop(outPts c (total m ρ c) ∗ totalPts m ρ c)

/-- One round. A barrier cell has fifteen duties of one unit; every other cell of a TensorCore thread one duty. -/
def ringRd : Rounds.Schedule (GSem nD τ sig) (Fin 15) 𝕄 where
  duties g r := if r = 0 ∧ g.1.2 = .tc then (match g.2 with | .reg _ => Finset.univ | .dma q => if q.val = 0 then ∅ else {0}) else ∅
  unitless _ := False
  amount g _ _ := match g.2 with | .reg _ => 1 | .dma q => if q.val = 31 then No else Nr
  payload g _ d := match g.2 with
    | .reg _ => barPay g.1.1 d
    | .dma q => if q.val = 31 then outPay m ρ g.1.1 else if 16 ≤ q.val then rcvPay m ρ g.1.1 (jOf q) else if 1 ≤ q.val then sndPay m ρ g.1.1 (jOf q) else iprop(emp)
  amount_pos g _ _ _ := by
    rcases g with ⟨t, sm⟩; cases sm with
    | reg s => exact Nat.one_pos
    | dma q => dsimp only; split; exact No_pos; exact Nr_pos

instance ringRd_payload_storable (g : GSem nD τ sig) (r : ℕ) (d : Fin 15) :
    BI.Storable (upEmb : UEmb _ 𝕄) ((ringRd (F := F) m ρ).payload g r d) := by
  rcases g with ⟨t, sm⟩
  cases sm with
  | reg s => show BI.Storable upEmb (barPay t.1 d); unfold barPay slotPts; infer_instance
  | dma q =>
    show BI.Storable upEmb (if q.val = 31 then outPay m ρ t.1 else if 16 ≤ q.val then rcvPay m ρ t.1 (jOf q) else if 1 ≤ q.val then sndPay m ρ t.1 (jOf q) else iprop(emp))
    unfold outPay rcvPay sndPay outPts totalPts slotPts minePts
    (repeat' split) <;> infer_instance

section Tables
variable (c : Dev nD) (j : Fin 15)

theorem duties_bar : (ringRd (F := F) m ρ).duties (barCell c) 0 = Finset.univ := by dsimp only [ringRd]; exact if_pos ⟨rfl, rfl⟩
theorem duties_snd : (ringRd (F := F) m ρ).duties (sndCell c j) 0 = {0} := by
  dsimp only [ringRd]; rw [if_pos ⟨rfl, rfl⟩]; exact if_neg (by rw [sendS_val]; omega)
theorem duties_rcv : (ringRd (F := F) m ρ).duties (rcvCell c j) 0 = {0} := by
  dsimp only [ringRd]; rw [if_pos ⟨rfl, rfl⟩]; exact if_neg (by rw [recvS_val]; omega)
theorem duties_out : (ringRd (F := F) m ρ).duties (outCell c) 0 = {0} := by
  dsimp only [ringRd]; rw [if_pos ⟨rfl, rfl⟩]; exact if_neg (by rw [outS_val]; omega)
theorem duties_later (g : GSem nD τ sig) : ∀ r, 1 ≤ r → (ringRd (F := F) m ρ).duties g r = ∅ :=
  fun r hr => by dsimp only [ringRd]; rw [if_neg fun h => by omega]

theorem amount_bar (d : Fin 15) : (ringRd (F := F) m ρ).amount (barCell c) 0 d = 1 := rfl
theorem amount_snd (d : Fin 15) : (ringRd (F := F) m ρ).amount (sndCell c j) 0 d = Nr := by
  dsimp only [ringRd]; exact if_neg (by rw [sendS_val]; omega)
theorem amount_rcv (d : Fin 15) : (ringRd (F := F) m ρ).amount (rcvCell c j) 0 d = Nr := by
  dsimp only [ringRd]; exact if_neg (by rw [recvS_val]; omega)
theorem amount_out (d : Fin 15) : (ringRd (F := F) m ρ).amount (outCell c) 0 d = No := by
  dsimp only [ringRd]; exact if_pos outS_val

theorem expect_bar : (ringRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_snd : (ringRd (F := F) m ρ).expect (sndCell c j) 0 = Nr := by
  unfold Schedule.expect Schedule.amountOf; rw [duties_snd, Finset.sum_singleton, amount_snd]
theorem expect_rcv : (ringRd (F := F) m ρ).expect (rcvCell c j) 0 = Nr := by
  unfold Schedule.expect Schedule.amountOf; rw [duties_rcv, Finset.sum_singleton, amount_rcv]
theorem expect_out : (ringRd (F := F) m ρ).expect (outCell c) 0 = No := by
  unfold Schedule.expect Schedule.amountOf; rw [duties_out, Finset.sum_singleton, amount_out]

theorem payload_bar (d : Fin 15) : (ringRd (F := F) m ρ).payload (barCell c) 0 d = barPay c d := rfl
theorem payload_snd (d : Fin 15) : (ringRd (F := F) m ρ).payload (sndCell c j) 0 d = sndPay m ρ c j := by
  dsimp only [ringRd]
  rw [if_neg (by rw [sendS_val]; omega), if_neg (by rw [sendS_val]; omega), if_pos (by rw [sendS_val]; omega), jOf_send]
theorem payload_rcv (d : Fin 15) : (ringRd (F := F) m ρ).payload (rcvCell c j) 0 d = rcvPay m ρ c j := by
  dsimp only [ringRd]
  rw [if_neg (by rw [recvS_val]; omega), if_pos (by rw [recvS_val]; omega), jOf_recv]
theorem payload_out (d : Fin 15) : (ringRd (F := F) m ρ).payload (outCell c) 0 d = outPay m ρ c := by
  dsimp only [ringRd]; exact if_pos outS_val

/-- The whole of the barrier cell's round: one slot from each of the fifteen others. -/
theorem rest_bar : bigSep ((ringRd (F := F) m ρ).duties (barCell c) 0 \ ∅) (fun d => (ringRd (F := F) m ρ).payload (barCell c) 0 d)
    = bigSep Finset.univ (fun d : Fin 15 => barPay (F := F) c d) := by
  rw [Finset.sdiff_empty, duties_bar]; rfl
theorem rest_snd : bigSep ((ringRd (F := F) m ρ).duties (sndCell c j) 0 \ ∅) (fun d => (ringRd (F := F) m ρ).payload (sndCell c j) 0 d) = sndPay m ρ c j := by
  rw [Finset.sdiff_empty, duties_snd, bigSep_singleton, payload_snd]
theorem rest_rcv : bigSep ((ringRd (F := F) m ρ).duties (rcvCell c j) 0 \ ∅) (fun d => (ringRd (F := F) m ρ).payload (rcvCell c j) 0 d) = rcvPay m ρ c j := by
  rw [Finset.sdiff_empty, duties_rcv, bigSep_singleton, payload_rcv]
theorem rest_out : bigSep ((ringRd (F := F) m ρ).duties (outCell c) 0 \ ∅) (fun d => (ringRd (F := F) m ρ).payload (outCell c) 0 d) = outPay m ρ c := by
  rw [Finset.sdiff_empty, duties_out, bigSep_singleton, payload_out]

end Tables

/-! ## What each device owes at launch; the levels -/

/-- The steps from `n` on. -/
def geS (n : ℕ) : Finset (Fin 15) := Finset.univ.filter fun j => n ≤ j.val

/-- One unit to the barrier cell of each device still to be signalled; -/
def owedSig (S : Finset (Fin 15)) (c : Dev nD) : CellTallies nD τ sig Unit := ∑ j ∈ S, tallyAt (barCell (pr c j)) () 1
/-- a row's credit to the receive cell of each device still to be sent to. -/
def owedSnd (S : Finset (Fin 15)) (c : Dev nD) : CellTallies nD τ sig Unit := ∑ j ∈ S, tallyAt (rcvCell (pr c j) j) () Nr
def O₀ (c : Dev nD) : CellTallies nD τ sig Unit := owedSnd Finset.univ c + owedSig Finset.univ c

def L (g : GSem nD τ sig) : Finset Unit := if g.1.2 = .tc then {()} else ∅
/-- Barrier cells at 1, receive cells at 2, everything else at 0. -/
def lv (g : GSem nD τ sig) (_ : Unit) : ℕ :=
  match g.2 with | .reg _ => 1 | .dma q => if 16 ≤ q.val ∧ q.val ≤ 30 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells by kind -/

/-- A device's own (scoped) semaphores: fifteen send, fifteen receive, the result copy's; -/
abbrev OK : Type := Fin 15 ⊕ (Fin 15 ⊕ Unit)
/-- with the barrier semaphore (the runtime's, not scoped) first: every cell of the protocol. -/
abbrev CK : Type := Unit ⊕ OK

abbrev osem : OK → SemLoc sig
  | .inl j => .dma (sendS j)
  | .inr (.inl j) => .dma (recvS j)
  | .inr (.inr ()) => .dma outS
abbrev csem : CK → SemLoc sig
  | .inl () => .reg barS
  | .inr k => osem k
abbrev kcell (ck : Dev nD × CK) : GSem nD τ sig := ((ck.1 : Thread nD τ), csem ck.2)

theorem bigSep_OK (Φ : OK → sProp 𝕄) :
    bigSep Finset.univ Φ = iprop((bigSep Finset.univ fun j : Fin 15 => Φ (.inl j)) ∗ (bigSep Finset.univ fun j : Fin 15 => Φ (.inr (.inl j))) ∗ Φ (.inr (.inr ()))) := by
  rw [bigSep_univ_sum, bigSep_univ_sum, bigSep_univ_of_subsingleton ()]; rfl
theorem bigSep_CK (Φ : CK → sProp 𝕄) :
    bigSep Finset.univ Φ = iprop(Φ (.inl ()) ∗ (bigSep Finset.univ fun j : Fin 15 => Φ (.inr (.inl j)))
      ∗ (bigSep Finset.univ fun j : Fin 15 => Φ (.inr (.inr (.inl j)))) ∗ Φ (.inr (.inr (.inr ())))) := by
  rw [bigSep_univ_sum, bigSep_univ_of_subsingleton (), bigSep_OK]; rfl

/-! ## The ghost state a device's body starts from -/

/-- Every cell's invariant, under the names the launch allocated them at, and that every cell has reached round 0: persistent,
    so every device holds them all. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold records; iintro ⟨H, -⟩; iapply h; iexact H
theorem reached_at (K : Dev nD × CK → ℕ) (ck : Dev nD × CK) : records m ρ K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-- The tokens of the duties device `c` pays: at signal `j` duty `rev j` of the barrier cell of the device `j + 1` places on (it is
    that device's `rev j + 1`-th successor); at copy `j` that device's receive duty and its own send duty; its result copy's. -/
def payToks (c : Dev nD) : sProp 𝕄 :=
  iprop((bigSep Finset.univ fun j : Fin 15 => dutyTok ER (barCell (pr c j)) 0 (rev j))
    ∗ (bigSep Finset.univ fun j : Fin 15 => dutyTok ER (rcvCell (pr c j) j) 0 0)
    ∗ (bigSep Finset.univ fun j : Fin 15 => dutyTok ER (sndCell c j) 0 0)
    ∗ dutyTok ER (outCell c) 0 0)
/-- Its positions at round 0 of its own cells. -/
def positions (c : Dev nD) : sProp 𝕄 := bigSep Finset.univ fun k : CK => atPos ER (kcell (c, k)) 0 ∅ 0

def ghost (K : Dev nD × CK → ℕ) (c : Dev nD) : sProp 𝕄 := iprop(records m ρ K ∗ positions (F := F) c ∗ payToks (F := F) c)

/-- What device `c` holds when the region is entered, beside the scratch buffers: the ghost state at some names, the credit of its
    barrier's fifteen units and of its fifteen receive cells, the level facts, and its result array. -/
def start (c : Dev nD) : sProp 𝕄 :=
  iprop((∃ K, ghost m ρ K c) ∗ cred (tallyAt (barCell c) () 15) ∗ (bigSep Finset.univ fun j : Fin 15 => cred (tallyAt (rcvCell c j) () Nr))
    ∗ levAts L lv ∗ ∃ f, outPts c f)

/-- The three scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch (F := F) c)
/-- After the point: the result array holding the total, every own cell at zero and closed, the scratch buffers back whole. -/
def Φ₁ (c : Dev nD) : sProp 𝕄 :=
  iprop(outPts c (total m ρ c) ∗ (bigSep Finset.univ fun k : OK => semVal ((c : Thread nD τ), osem k) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with at the one grid point, and what it must leave. -/
def bodyPre (c : Dev nD) : sProp 𝕄 :=
  iprop(Φ₀ m ρ c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m ρ c ∗ (dats m ρ 0 c).owesAt () t₀.succ ∗ stg c cc0_stg0_0 (xblk m ρ c))

end Cert.KernelIdealProof

end
-- ==== Proof.KernelIdealDevTable.lean ====
import proofs.«901076_g7700000000001077_dist_sum_ax0_shard0_i_m1536_n768_v7x_i16_f32_1_alg».proof.Proof.KernelIdealRing

namespace Cert.KernelIdeal.Ring

open Cert.KernelIdeal Cert.KernelIdeal.Gen Idealize.ShloMosaic

theorem sig0 (c : Dev nD) : (⟨k0_dev1 c, k0_dev1_lt c⟩ : Dev nD) = pr c 0 := by revert c; decide +kernel
theorem sig1 (c : Dev nD) : (⟨k0_dev2 c, k0_dev2_lt c⟩ : Dev nD) = pr c 1 := by revert c; decide +kernel
theorem sig2 (c : Dev nD) : (⟨k0_dev3 c, k0_dev3_lt c⟩ : Dev nD) = pr c 2 := by revert c; decide +kernel
theorem sig3 (c : Dev nD) : (⟨k0_dev4 c, k0_dev4_lt c⟩ : Dev nD) = pr c 3 := by revert c; decide +kernel
theorem sig4 (c : Dev nD) : (⟨k0_dev5 c, k0_dev5_lt c⟩ : Dev nD) = pr c 4 := by revert c; decide +kernel
theorem sig5 (c : Dev nD) : (⟨k0_dev6 c, k0_dev6_lt c⟩ : Dev nD) = pr c 5 := by revert c; decide +kernel
theorem sig6 (c : Dev nD) : (⟨k0_dev7 c, k0_dev7_lt c⟩ : Dev nD) = pr c 6 := by revert c; decide +kernel
theorem sig7 (c : Dev nD) : (⟨k0_dev8 c, k0_dev8_lt c⟩ : Dev nD) = pr c 7 := by revert c; decide +kernel
theorem sig8 (c : Dev nD) : (⟨k0_dev9 c, k0_dev9_lt c⟩ : Dev nD) = pr c 8 := by revert c; decide +kernel
theorem sig9 (c : Dev nD) : (⟨k0_dev10 c, k0_dev10_lt c⟩ : Dev nD) = pr c 9 := by revert c; decide +kernel
theorem sig10 (c : Dev nD) : (⟨k0_dev11 c, k0_dev11_lt c⟩ : Dev nD) = pr c 10 := by revert c; decide +kernel
theorem sig11 (c : Dev nD) : (⟨k0_dev12 c, k0_dev12_lt c⟩ : Dev nD) = pr c 11 := by revert c; decide +kernel
theorem sig12 (c : Dev nD) : (⟨k0_dev13 c, k0_dev13_lt c⟩ : Dev nD) = pr c 12 := by revert c; decide +kernel
theorem sig13 (c : Dev nD) : (⟨k0_dev14 c, k0_dev14_lt c⟩ : Dev nD) = pr c 13 := by revert c; decide +kernel
theorem sig14 (c : Dev nD) : (⟨k0_dev15 c, k0_dev15_lt c⟩ : Dev nD) = pr c 14 := by revert c; decide +kernel
theorem snd0 (c : Dev nD) : (⟨k0_dev16 c, k0_dev16_lt c⟩ : Dev nD) = pr c 0 := by revert c; decide +kernel
theorem snd1 (c : Dev nD) : (⟨k0_dev17 c, k0_dev17_lt c⟩ : Dev nD) = pr c 1 := by revert c; decide +kernel
theorem snd2 (c : Dev nD) : (⟨k0_dev18 c, k0_dev18_lt c⟩ : Dev nD) = pr c 2 := by revert c; decide +kernel
theorem snd3 (c : Dev nD) : (⟨k0_dev19 c, k0_dev19_lt c⟩ : Dev nD) = pr c 3 := by revert c; decide +kernel
theorem snd4 (c : Dev nD) : (⟨k0_dev20 c, k0_dev20_lt c⟩ : Dev nD) = pr c 4 := by revert c; decide +kernel
theorem snd5 (c : Dev nD) : (⟨k0_dev21 c, k0_dev21_lt c⟩ : Dev nD) = pr c 5 := by revert c; decide +kernel
theorem snd6 (c : Dev nD) : (⟨k0_dev22 c, k0_dev22_lt c⟩ : Dev nD) = pr c 6 := by revert c; decide +kernel
theorem snd7 (c : Dev nD) : (⟨k0_dev23 c, k0_dev23_lt c⟩ : Dev nD) = pr c 7 := by revert c; decide +kernel
theorem snd8 (c : Dev nD) : (⟨k0_dev24 c, k0_dev24_lt c⟩ : Dev nD) = pr c 8 := by revert c; decide +kernel
theorem snd9 (c : Dev nD) : (⟨k0_dev25 c, k0_dev25_lt c⟩ : Dev nD) = pr c 9 := by revert c; decide +kernel
theorem snd10 (c : Dev nD) : (⟨k0_dev26 c, k0_dev26_lt c⟩ : Dev nD) = pr c 10 := by revert c; decide +kernel
theorem snd11 (c : Dev nD) : (⟨k0_dev27 c, k0_dev27_lt c⟩ : Dev nD) = pr c 11 := by revert c; decide +kernel
theorem snd12 (c : Dev nD) : (⟨k0_dev28 c, k0_dev28_lt c⟩ : Dev nD) = pr c 12 := by revert c; decide +kernel
theorem snd13 (c : Dev nD) : (⟨k0_dev29 c, k0_dev29_lt c⟩ : Dev nD) = pr c 13 := by revert c; decide +kernel
theorem snd14 (c : Dev nD) : (⟨k0_dev30 c, k0_dev30_lt c⟩ : Dev nD) = pr c 14 := by revert c; decide +kernel

end Cert.KernelIdeal.Ring
-- ==== Proof.KernelIdealAux.lean ====
/-
  The receive buffer row by row, and the shares of the column sums.

  The receive buffer of fifteen rows is the disjoint union of its rows, so holding it whole is holding every row; what a copy
  of a device's column sums leaves in a row is determined on that row's elements alone; the buffer of column sums, read by
  fifteen copies at once, is shared by halving: what is left after the n-th halving and the n-th piece make up what was left
  before it.
-/
import proofs.«901076_g7700000000001077_dist_sum_ax0_shard0_i_m1536_n768_v7x_i16_f32_1_alg».proof.Proof.KernelIdealSched
import Idealize.ShloMosaic.Rules.PointsTo
import Idealize.ShloMosaic.Lib.Ring
import Idealize.ShloMosaic.Lib.Pipeline.Value
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the receive buffer -/

omit [FloatOps F] in
/-- An element of the receive buffer lies in row `j` exactly when its first coordinate is `j`. -/
theorem mem_slot (j : Fin 15) (i : S15x768.Idx) : i ∈ (slotM j).view.set ↔ (i 0).val = j.val := by
  rw [show (slotM j).view.set = (slotR j).set from View.set_slice_whole cc0_scratch1 (slotR j), Rect.mem_set_unit]
  have h1 : (i 1).val < 768 := (i 1).isLt
  constructor
  · intro h
    have h0 := h 0
    simp only [Matrix.cons_val_zero] at h0
    have e : S1x768.size 0 = 1 := rfl
    omega
  · intro h a
    match a with
    | ⟨0, _⟩ =>
      show j.val ≤ (i 0).val ∧ (i 0).val < j.val + 1
      omega
    | ⟨1, _⟩ =>
      show 0 ≤ (i 1).val ∧ (i 1).val < 0 + 768
      omega

omit [FloatOps F] in
theorem slot_disjoint (j j' : Fin 15) (h : j ≠ j') : Disjoint (slotM j).view.set (slotM j').view.set :=
  Finset.disjoint_left.mpr fun i hi hi' =>
    h (Fin.ext (((mem_slot j i).mp hi).symm.trans ((mem_slot j' i).mp hi')))

omit [FloatOps F] in
theorem slot_cover : (Finset.univ : Finset S15x768.Idx) = Finset.univ.biUnion fun j : Fin 15 => (slotM j).view.set := by
  ext i
  simp only [Finset.mem_univ, Finset.mem_biUnion, true_and, true_iff]
  exact ⟨⟨(i 0).val, (i 0).isLt⟩, (mem_slot _ i).mpr rfl⟩

/-- The fifteen rows tile the receive buffer: it is held whole iff it is held row by row (at one contents f). -/
theorem rows_split (c : Dev nD) (f : Buf (Elt F) ((c : Thread nD τ).loc cc0_scratch1)) :
    ((((c : Thread nD τ).loc cc0_scratch1) ↦{fullShare} f : sProp 𝕄)) = bigSep Finset.univ fun j : Fin 15 => slotPts c j f := by
  show ((((c : Thread nD τ).loc cc0_scratch1) ↦[Finset.univ]{fullShare} f : sProp 𝕄)) = _
  rw [show (Finset.univ : Finset (Idx ((c : Thread nD τ).loc cc0_scratch1))) = Finset.univ.biUnion fun j : Fin 15 => (slotM j).view.set from slot_cover,
    pointsTo_biUnion Finset.univ _ fun j _ j' _ h => slot_disjoint j j' h]
  rfl

/-! ## What a copy leaves in a row -/

omit [FloatOps F] in
/-- What a copy of `src` (the whole of a [1,768] buffer at contents g) leaves in row j of a receive buffer, seen through row
    j's elements only, is any contents h whose row j is g. -/
theorem slot_landed (c' : Dev nD) (j : Fin 15) (fd : Buf (Elt F) ((slotM j).view.loc (c' : Thread nD τ)))
    (g : (cc0_scratch0 : Ref sig .tc).ty.Contents (Elt F)) (h : (cc0_scratch1 : Ref sig .tc).ty.Contents (Elt F))
    (hrow : ∀ i : S15x768.Idx, (i 0).val = j.val → h i = g (ValueIdx.ix2 (0 : Fin 1) (⟨(i 1).val, (i 1).isLt⟩ : Fin 768))) :
    (slotPts c' j ((slotM j).view.write (Elt F) fd ((mM : Memref sig .tc .vmem S1x768 .f32).view.read (Elt F) g) Finset.univ) : sProp 𝕄) = slotPts c' j h := by
  unfold slotPts
  refine pointsTo_congr fun i hi => ?_
  obtain ⟨y, rfl⟩ := View.exists_emb_of_mem_set (slotM j).view hi
  rw [View.write_emb_of_mem _ _ (Finset.mem_univ y)]
  have hy0 : ((slotM j).view.emb y 0).val = j.val := (mem_slot j _).mp hi
  rw [hrow _ hy0]
  show g y = g _
  congr 1
  funext a
  match a with
  | ⟨0, _⟩ => exact Fin.ext (by have hlt : (y 0).val < 1 := (y 0).isLt; show (y 0).val = 0; omega)
  | ⟨1, _⟩ => exact Fin.ext (by show (y 1).val = 0 + 1 * (y 1).val; omega)

/-- Row j of the device j + 1 places after c receives device c's column sums. -/
theorem slot_landed_rows (c : Dev nD) (j : Fin 15) (fd : Buf (Elt F) ((slotM j).view.loc ((pr c j : Dev nD) : Thread nD τ))) :
    (slotPts (pr c j) j ((slotM j).view.write (Elt F) fd ((mM : Memref sig .tc .vmem S1x768 .f32).view.read (Elt F) (mine m ρ c)) Finset.univ) : sProp 𝕄)
      = rcvPay m ρ (pr c j) j := by
  unfold rcvPay
  refine slot_landed (pr c j) j fd (mine m ρ c) (rows m ρ (pr c j)) fun i hi => ?_
  unfold rows
  have e : (⟨(i 0).val, (i 0).isLt⟩ : Fin 15) = j := Fin.ext hi
  rw [e, bk_pr]

/-! ## The shares of the column sums -/

omit [FloatOps F] in
/-- The share chain of the [1,768] buffer: what is left after n halvings splits into what is left after n + 1 and the n-th piece. -/
theorem mine_split (c : Dev nD) (n : ℕ) (g : Buf (Elt F) ((c : Thread nD τ).loc cc0_scratch0)) :
    ((((c : Thread nD τ).loc cc0_scratch0) ↦{remSh n} g : sProp 𝕄)) ⊣⊢ iprop((((c : Thread nD τ).loc cc0_scratch0) ↦{remSh (n + 1)} g) ∗ (((c : Thread nD τ).loc cc0_scratch0) ↦{pieceSh n} g)) :=
  pointsTo_share (PosShare.mem_left_op_right (remSh n))

omit [FloatOps F] in
/-- The whole buffer is what is left after n halvings and the first n pieces. -/
theorem mine_chain (c : Dev nD) (g : Buf (Elt F) ((c : Thread nD τ).loc cc0_scratch0)) (n : ℕ) :
    ((((c : Thread nD τ).loc cc0_scratch0) ↦{fullShare} g : sProp 𝕄))
      = iprop((((c : Thread nD τ).loc cc0_scratch0) ↦{remSh n} g) ∗ bigSep (Finset.range n) fun k => (((c : Thread nD τ).loc cc0_scratch0) ↦{pieceSh k} g)) := by
  induction n with
  | zero =>
    rw [Finset.range_zero, bigSep_empty]
    exact (BI.equiv_iff.mp BI.sep_emp).symm
  | succ n ih =>
    have hs := mine_split (F := F) c n g
    rw [ih, Idealize.ShloMosaic.Ring.bigSep_range_succ, BI.equiv_iff.mp ⟨hs.1, hs.2⟩]
    exact BI.equiv_iff.mp ⟨BI.sep_assoc, BI.sep_assoc'⟩

omit [FloatOps F] in
theorem mine_fifteen (c : Dev nD) (g : Buf (Elt F) ((c : Thread nD τ).loc cc0_scratch0)) :
    ((((c : Thread nD τ).loc cc0_scratch0) ↦{fullShare} g : sProp 𝕄))
      = iprop((((c : Thread nD τ).loc cc0_scratch0) ↦{remSh 15} g) ∗ bigSep Finset.univ fun j : Fin 15 => (((c : Thread nD τ).loc cc0_scratch0) ↦{pieceSh j.val} g)) := by
  rw [Idealize.ShloMosaic.Ring.bigSep_fin_eq_range 15 _ (fun k => (((c : Thread nD τ).loc cc0_scratch0) ↦{pieceSh k} g : sProp 𝕄)) fun t h => rfl]
  exact mine_chain c g 15

omit [FloatOps F] in
/-- The whole buffer from what is left after fifteen halvings and the fifteen pieces. -/
theorem mine_join (c : Dev nD) (g : Buf (Elt F) ((c : Thread nD τ).loc cc0_scratch0)) :
    iprop((((c : Thread nD τ).loc cc0_scratch0) ↦{remSh 15} g) ∗ bigSep Finset.univ fun j : Fin 15 => (((c : Thread nD τ).loc cc0_scratch0) ↦{pieceSh j.val} g))
      ⊢ ((((c : Thread nD τ).loc cc0_scratch0) ↦{fullShare} g : sProp 𝕄)) :=
  Entails.of_eq (mine_fifteen c g).symm

omit [FloatOps F] in
/-- and the other way: the whole buffer is what is left after fifteen halvings and the fifteen pieces. -/
theorem mine_shares (c : Dev nD) (g : Buf (Elt F) ((c : Thread nD τ).loc cc0_scratch0)) :
    ((((c : Thread nD τ).loc cc0_scratch0) ↦{fullShare} g : sProp 𝕄))
      ⊢ iprop((((c : Thread nD τ).loc cc0_scratch0) ↦{remSh 15} g) ∗ bigSep Finset.univ fun j : Fin 15 => (((c : Thread nD τ).loc cc0_scratch0) ↦{pieceSh j.val} g)) :=
  Entails.of_eq (mine_fifteen c g)

/-! ## The views through which the buffers are named are the whole buffers -/

theorem minePts_eq (c : Dev nD) (q : PosShare TreeShare) : minePts m ρ c q = ((((c : Thread nD τ).loc cc0_scratch0) ↦{q} mine m ρ c : sProp 𝕄)) := by
  unfold minePts
  rw [show (mM : Memref sig .tc .vmem S1x768 .f32).view.set = Finset.univ from View.set_whole cc0_scratch0]
theorem totalPts_eq (c : Dev nD) : totalPts m ρ c = ((((c : Thread nD τ).loc cc0_scratch2) ↦{fullShare} total m ρ c : sProp 𝕄)) := by
  unfold totalPts
  rw [show (fM : Memref sig .tc .vmem S1x768 .f32).view.set = Finset.univ from View.set_whole cc0_scratch2]
omit [FloatOps F] in
theorem outPts_eq (c : Dev nD) (f : Buf (Elt F) ((oM : Memref sig .tc .hbm S1x768 .f32).view.loc (c : Thread nD τ))) : outPts c f = ((((c : Thread nD τ).loc main_v1) ↦{fullShare} f : sProp 𝕄)) := by
  unfold outPts
  rw [show (oM : Memref sig .tc .hbm S1x768 .f32).view.set = Finset.univ from View.set_whole main_v1]

omit [FloatOps F] in
/-- What the result copy leaves in the result array: the total. -/
theorem out_landed (c : Dev nD) (fd : Buf (Elt F) ((oM : Memref sig .tc .hbm S1x768 .f32).view.loc (c : Thread nD τ))) (g : (cc0_scratch2 : Ref sig .tc).ty.Contents (Elt F)) :
    (oM : Memref sig .tc .hbm S1x768 .f32).view.write (Elt F) fd ((fM : Memref sig .tc .vmem S1x768 .f32).view.read (Elt F) g) Finset.univ = g :=
  View.write_whole_univ main_v1 fd g

end Cert.KernelIdealProof

end
-- ==== Proof.KernelIdealSteps.lean ====
import proofs.«901076_g7700000000001077_dist_sum_ax0_shard0_i_m1536_n768_v7x_i16_f32_1_alg».proof.Proof.KernelIdealSched
import proofs.«901076_g7700000000001077_dist_sum_ax0_shard0_i_m1536_n768_v7x_i16_f32_1_alg».proof.Proof.KernelIdealAux
import Idealize.ShloMosaic.Lib.Tactic

noncomputable section

namespace Cert.KernelIdealProof

open Cert.KernelIdeal Cert.KernelIdeal.Gen Cert.KernelIdeal.Ring

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The steps from `n` on, and before `n` -/

def ltS (n : ℕ) : Finset (Fin 15) := Finset.univ.filter fun j => j.val < n

theorem geS_succ (j : Fin 15) : geS j.val = insert j (geS (j.val + 1)) := by
  ext i; simp only [geS, Finset.mem_filter, Finset.mem_univ, true_and, Finset.mem_insert, Fin.ext_iff]; omega
theorem not_mem_geS_succ (j : Fin 15) : j ∉ geS (j.val + 1) := by
  simp only [geS, Finset.mem_filter, Finset.mem_univ, true_and]; omega
theorem geS_zero : geS 0 = Finset.univ := by ext i; simp [geS]
theorem geS_last : geS 15 = ∅ := by
  ext i; simp only [geS, Finset.mem_filter, Finset.mem_univ, true_and, Finset.notMem_empty, iff_false]; omega
theorem ltS_succ (j : Fin 15) : ltS (j.val + 1) = insert j (ltS j.val) := by
  ext i; simp only [ltS, Finset.mem_filter, Finset.mem_univ, true_and, Finset.mem_insert, Fin.ext_iff]; omega
theorem not_mem_ltS (j : Fin 15) : j ∉ ltS j.val := by
  simp only [ltS, Finset.mem_filter, Finset.mem_univ, true_and]; omega
theorem ltS_zero : ltS 0 = ∅ := by ext i; simp [ltS]
theorem ltS_last : ltS 15 = Finset.univ := by
  ext i; simp only [ltS, Finset.mem_filter, Finset.mem_univ, true_and, iff_true]; omega

theorem bigSep_geS_peel (j : Fin 15) (Φ : Fin 15 → sProp 𝕄) : bigSep (geS j.val) Φ = iprop(Φ j ∗ bigSep (geS (j.val + 1)) Φ) := by
  rw [geS_succ j, bigSep_insert (not_mem_geS_succ j)]; rfl
theorem bigSep_ltS_push (j : Fin 15) (Φ : Fin 15 → sProp 𝕄) : bigSep (ltS (j.val + 1)) Φ = iprop(Φ j ∗ bigSep (ltS j.val) Φ) := by
  rw [ltS_succ j, bigSep_insert (not_mem_ltS j)]; rfl

theorem owedSig_peel (c : Dev nD) (j : Fin 15) : owedSig (geS j.val) c = owedSig (geS (j.val + 1)) c + tallyAt (barCell (pr c j)) () 1 := by
  unfold owedSig; rw [geS_succ j, Finset.sum_insert (not_mem_geS_succ j), add_comm]
theorem owedSnd_peel (c : Dev nD) (j : Fin 15) : owedSnd (geS j.val) c = owedSnd (geS (j.val + 1)) c + tallyAt (rcvCell (pr c j) j) () Nr := by
  unfold owedSnd; rw [geS_succ j, Finset.sum_insert (not_mem_geS_succ j), add_comm]
theorem owedSig_done (c : Dev nD) : owedSig (geS 15) c = 0 := by unfold owedSig; rw [geS_last, Finset.sum_empty]
theorem owedSnd_done (c : Dev nD) : owedSnd (geS 15) c = 0 := by unfold owedSnd; rw [geS_last, Finset.sum_empty]

/-! ## The records, cell by cell -/

theorem inv_bar (c : Dev nD) : records m ρ K ⊢ cellInv ER (ringRd m ρ) (K (c, .inl ())) (barCell c) := inv_at m ρ K (c, .inl ())
theorem inv_snd (c : Dev nD) (j : Fin 15) : records m ρ K ⊢ cellInv ER (ringRd m ρ) (K (c, .inr (.inl j))) (sndCell c j) := inv_at m ρ K (c, .inr (.inl j))
theorem inv_rcv (c : Dev nD) (j : Fin 15) : records m ρ K ⊢ cellInv ER (ringRd m ρ) (K (c, .inr (.inr (.inl j)))) (rcvCell c j) := inv_at m ρ K (c, .inr (.inr (.inl j)))
theorem inv_out (c : Dev nD) : records m ρ K ⊢ cellInv ER (ringRd m ρ) (K (c, .inr (.inr (.inr ())))) (outCell c) := inv_at m ρ K (c, .inr (.inr (.inr ())))
theorem rch_bar (c : Dev nD) : records m ρ K ⊢ reached ER (barCell c) 0 := reached_at m ρ K (c, .inl ())
theorem rch_snd (c : Dev nD) (j : Fin 15) : records m ρ K ⊢ reached ER (sndCell c j) 0 := reached_at m ρ K (c, .inr (.inl j))
theorem rch_rcv (c : Dev nD) (j : Fin 15) : records m ρ K ⊢ reached ER (rcvCell c j) 0 := reached_at m ρ K (c, .inr (.inr (.inl j)))
theorem rch_out (c : Dev nD) : records m ρ K ⊢ reached ER (outCell c) 0 := reached_at m ρ K (c, .inr (.inr (.inr ())))

/-! ## A signal: device `c` tells the device `j + 1` places on that it is in, handing over the slot that device will write -/

theorem barPay_back (c : Dev nD) (j : Fin 15) (f : Buf (Elt F) ((c : Thread nD τ).loc cc0_scratch1)) :
    slotPts c (rev j) f ⊢ (barPay (pr c j) (rev j) : sProp 𝕄) := by
  unfold barPay
  rw [pr_pr_rev]
  iintro H; iexists f; iexact H

theorem sig_step (c : Dev nD) (j : Fin 15) (dv : Dev nD) (hdv : dv = pr c j) (f : Buf (Elt F) ((c : Thread nD τ).loc cc0_scratch1)) (W : Waits sig Unit)
    {α : Type} {k : PUnit → Prog (TpuEff nD τ sig (Elt F) Λ₀ .tc) α} {Q : α → sProp 𝕄} :
    iprop(records m ρ K ∗ owes (c : Thread nD τ) (owedSnd (geS 0) c + owedSig (geS j.val) c) W
        ∗ (bigSep (geS j.val) fun i => dutyTok ER (barCell (pr c i)) 0 (rev i))
        ∗ (bigSep (geS j.val) fun i => slotPts c (rev i) f))
      ⊢ iprop(((owes (c : Thread nD τ) (owedSnd (geS 0) c + owedSig (geS (j.val + 1)) c) W
            ∗ (bigSep (geS (j.val + 1)) fun i => dutyTok ER (barCell (pr c i)) 0 (rev i))
            ∗ (bigSep (geS (j.val + 1)) fun i => slotPts c (rev i) f)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (dv : Thread nD τ) barS (1#32).toNat) k) Q) := by
  subst hdv
  rw [bigSep_geS_peel j, bigSep_geS_peel j]
  iintro ⟨#HR, HO, ⟨Ht, HtR⟩, ⟨Hs, HsR⟩⟩ Hk
  iapply (Rounds.wp_signal 𝒱₀ ER (ringRd m ρ) (c : Thread nD τ) none (dst := (pr c j : Thread nD τ)) (κ := K (pr c j, .inl ()))
      (d := rev j) (by rw [duties_bar]; exact Finset.mem_univ _) ((amount_bar m ρ (pr c j) (rev j)).trans (by decide)) ()
      (O₀ := owedSnd (geS 0) c + owedSig (geS j.val) c) (owedSnd (geS 0) c + owedSig (geS (j.val + 1)) c)
      (by rw [owedSig_peel c j, add_assoc]; rfl)) $$ [HO Ht Hs]
  · isplitr; · iapply (inv_bar m ρ K (pr c j)); iexact HR
    isplitl [HO]; · iexact HO
    isplitl [Ht]; · iexact Ht
    isplitl [Hs]
    · rw [payload_bar]; iapply (barPay_back c j f); iexact Hs
    · iapply (rch_bar m ρ K (pr c j)); iexact HR
  iintro HO
  iapply Hk
  isplitl [HO]; · iexact HO
  isplitl [HtR] <;> iassumption

/-! ## The levels: a barrier wait while the fifteen rows are still owed -/

theorem lv_rcv (c : Dev nD) (j : Fin 15) : lv (rcvCell c j) () = 2 := by
  dsimp only [lv]; exact if_pos (by rw [recvS_val]; omega)

theorem mayWait_bar (c : Dev nD) :
    (levAts L lv : sProp 𝕄) ⊢ MayWait (c : Thread nD τ) (.reg barS) () (owedSnd (geS 0) c + owedSig (geS 15) c) := by
  rw [owedSig_done, add_zero]
  refine Pipeline.mayWait_of_levAts (by rw [L_tc]; exact Finset.mem_singleton_self _) fun g i hg => ?_
  unfold owedSnd at hg
  obtain ⟨j, -, hj⟩ := Pipeline.sum_pos_exists hg
  rw [tallyAt_apply] at hj
  by_cases h : g = rcvCell (pr c j) j ∧ i = ()
  · rw [h.1]
    exact ⟨by rw [L_tc]; exact Finset.mem_singleton_self _, by rw [lv_rcv]; exact (by decide : (1 : ℕ) < 2)⟩
  · rw [if_neg h] at hj; exact absurd hj (Nat.lt_irrefl 0)

/-! ## The barrier wait: all fifteen others are in; each has handed over the slot this device writes -/

theorem bar_wait (c : Dev nD) (W : Waits sig Unit) {α : Type} {k : PUnit → Prog (TpuEff nD τ sig (Elt F) Λ₀ .tc) α} {Q : α → sProp 𝕄} :
    iprop(records m ρ K ∗ levAts L lv ∗ cred (tallyAt (barCell c) () 15)
        ∗ owes (c : Thread nD τ) (owedSnd (geS 0) c + owedSig (geS 15) c) W ∗ atPos ER (barCell c) 0 ∅ 0)
      ⊢ iprop(((owes (c : Thread nD τ) (owedSnd (geS 0) c) (insert (SemLoc.reg barS, ()) W) ∗ atPos ER (barCell c) (0 + 1) ∅ 0
            ∗ (bigSep (geS 0) fun i => barPay (F := F) c i)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (15#32).toNat) k) Q) := by
  iintro ⟨#HR, #Hlev, HcB, HO, HatB⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owedSnd (geS 0) c + owedSig (geS 15) c) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  iapply Hk
  rw [owedSig_done, add_zero, geS_zero]
  isplitl [HO]; · iexact HO
  isplitl [HatB]; · iexact HatB
  iapply (Entails.of_eq (rest_bar m ρ c)); iexact Hpay

/-! ## A copy: `mine`, read at the next half of what is left of its share, into slot `j` of the device `j + 1` places on -/

theorem send_step (c : Dev nD) (j : Fin 15) (dv : Dev nD) (hdv : dv = pr c j) (W : Waits sig Unit)
    {hsc : (slotM j : Memref sig (Dev.tc dv : Thread nD τ).2.kind .vmem S1x768 .f32).view.ref.isScScratch = false}
    {hsrc : (mM : Memref sig .tc .vmem S1x768 .f32).view.WordExact} {hdst : (slotM j).view.WordExact}
    {hsem : DmaTarget.Typed .vmem (.dma (recvS j)) (.remote (Dev.tc dv : Thread nD τ) (slotM j) (.dma (sendS j)) hsc)}
    {α : Type} {k : PUnit → Prog (TpuEff nD τ sig (Elt F) Λ₀ .tc) α} {Q : α → sProp 𝕄} :
    iprop(records m ρ K ∗ owes (c : Thread nD τ) (owedSnd (geS j.val) c) W
        ∗ (bigSep (geS j.val) fun i => dutyTok ER (rcvCell (pr c i) i) 0 0)
        ∗ (bigSep (geS j.val) fun i => dutyTok ER (sndCell c i) 0 0)
        ∗ (bigSep (geS j.val) fun i => barPay (F := F) c i)
        ∗ minePts m ρ c (remSh j.val)
        ∗ (bigSep (ltS j.val) fun i => cred (tallyAt (sndCell c i) () Nr)))
      ⊢ iprop(((owes (c : Thread nD τ) (owedSnd (geS (j.val + 1)) c) W
            ∗ (bigSep (geS (j.val + 1)) fun i => dutyTok ER (rcvCell (pr c i) i) 0 0)
            ∗ (bigSep (geS (j.val + 1)) fun i => dutyTok ER (sndCell c i) 0 0)
            ∗ (bigSep (geS (j.val + 1)) fun i => barPay (F := F) c i)
            ∗ minePts m ρ c (remSh (j.val + 1))
            ∗ (bigSep (ltS (j.val + 1)) fun i => cred (tallyAt (sndCell c i) () Nr))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc dv : Thread nD τ) (slotM j) (.dma (sendS j)) hsc) (.dma (recvS j)) hsrc hdst hsem) k) Q) := by
  subst hdv
  rw [bigSep_geS_peel j, bigSep_geS_peel j, bigSep_geS_peel j, bigSep_ltS_push j]
  iintro ⟨#HR, HO, ⟨HtV, HtVR⟩, ⟨HtS, HtSR⟩, ⟨Hd, HdR⟩, Hm, HcR⟩ Hk
  unfold barPay
  icases Hd with ⟨%fn, Hd⟩
  ihave Hm2 := (Entails.of_eq (minePts_eq m ρ c (remSh j.val))) $$ Hm
  ihave Hm3 := (mine_split c j.val (mine m ρ c)).1 $$ Hm2
  icases Hm3 with ⟨HmL, HmP⟩
  ihave HmP' := (Entails.of_eq (show ((((c : Thread nD τ).loc cc0_scratch0) ↦{pieceSh j.val} mine m ρ c : sProp 𝕄))
      = ((mM : Memref sig .tc .vmem S1x768 .f32).view.loc (c : Thread nD τ) ↦[(mM : Memref sig .tc .vmem S1x768 .f32).view.set]{pieceSh j.val} mine m ρ c)
      from (minePts_eq m ρ c (pieceSh j.val)).symm)) $$ HmP
  ihave Hd' := (Entails.of_eq (show slotPts (pr c j) j fn
      = (((slotM j).view.loc ((pr c j : Dev nD) : Thread nD τ) ↦[(slotM j).view.set]{fullShare} fn : sProp 𝕄)) from rfl)) $$ Hd
  iapply (Rounds.wp_send_pointsTo 𝒱₀ ER (ringRd m ρ) (c : Thread nD τ) none (κ₁ := K (c, .inr (.inl j))) (κ₂ := K (pr c j, .inr (.inr (.inl j))))
      (r₁ := 0) (r₂ := 0) (d₁ := 0) (d₂ := 0) (fd := fn)
      (by rw [duties_snd]; exact Finset.mem_singleton_self _) (by rw [duties_rcv]; exact Finset.mem_singleton_self _)
      () () Nr rfl (amount_snd m ρ c j 0) (amount_rcv m ρ (pr c j) j 0) (O₀ := owedSnd (geS j.val) c) (owedSnd (geS (j.val + 1)) c) (owedSnd_peel c j) (W := W)
      (by rw [payload_snd]; unfold sndPay minePts; exact BI.Entails.refl _)
      (by rw [payload_rcv]; exact Entails.of_eq (slot_landed_rows m ρ c j fn))) $$ [HO HtV HtS Hd' HmP']
  · isplitr; · iapply (inv_snd m ρ K c j); iexact HR
    isplitr; · iapply (inv_rcv m ρ K (pr c j) j); iexact HR
    isplitl [HmP']; · iexact HmP'
    isplitl [Hd']; · iexact Hd'
    isplitl [HO]; · iexact HO
    isplitl [HtS]; · iexact HtS
    isplitr; · iapply (rch_snd m ρ K c j); iexact HR
    isplitl [HtV]; · iexact HtV
    iapply (rch_rcv m ρ K (pr c j) j); iexact HR
  iintro ⟨HcS, HO⟩
  iapply Hk
  isplitl [HO]; · iexact HO
  isplitl [HtVR]; · iexact HtVR
  isplitl [HtSR]; · iexact HtSR
  isplitl [HdR]; · iexact HdR
  isplitl [HmL]; · iapply (Entails.of_eq (minePts_eq m ρ c (remSh (j.val + 1))).symm); iexact HmL
  isplitl [HcS]; · iexact HcS
  iexact HcR

/-! ## The waits on the device's own cells: a receive wait hands over the slot written, a send wait the share read -/

theorem rcv_wait (c : Dev nD) (j : Fin 15)
    {sp' : Space} {s' : Shape} {e' : EltTy} {src : Memref sig (c : Thread nD τ).2.kind sp' s' e'} {hsrc : src.view.WordExact} {hdst : (slotM j).view.WordExact}
    {α : Type} {k : PUnit → Prog (TpuEff nD τ sig (Elt F) Λ₀ .tc) α} {Q : α → sProp 𝕄} :
    iprop(records m ρ K ∗ (∃ W, owes (c : Thread nD τ) 0 W)
        ∗ (bigSep (geS j.val) fun i => iprop(atPos ER (rcvCell c i) 0 ∅ 0 ∗ cred (tallyAt (rcvCell c i) () Nr)))
        ∗ (bigSep (ltS j.val) fun i => iprop(atPos ER (rcvCell c i) (0 + 1) ∅ 0 ∗ rcvPay m ρ c i)))
      ⊢ iprop((((∃ W, owes (c : Thread nD τ) 0 W)
            ∗ (bigSep (geS (j.val + 1)) fun i => iprop(atPos ER (rcvCell c i) 0 ∅ 0 ∗ cred (tallyAt (rcvCell c i) () Nr)))
            ∗ (bigSep (ltS (j.val + 1)) fun i => iprop(atPos ER (rcvCell c i) (0 + 1) ∅ 0 ∗ rcvPay m ρ c i))) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) src (slotM j) hsrc hdst) k) Q) := by
  rw [bigSep_geS_peel j, bigSep_ltS_push j]
  iintro ⟨#HR, ⟨%W, HO⟩, ⟨⟨Hat, Hc⟩, HgR⟩, HlR⟩ Hk
  iapply (Rounds.wp_wait_rest_token 𝒱₀ ER (ringRd m ρ) (c : Thread nD τ) none (κ := K (c, .inr (.inr (.inl j))))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iapply (inv_rcv m ρ K c j); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [HgR]; · iexact HgR
  isplitl [Hat Hpay]
  · isplitl [Hat]; · iexact Hat
    iapply (Entails.of_eq (rest_rcv m ρ c j)); iexact Hpay
  iexact HlR

theorem mM_credit : (mM : Memref sig .tc .vmem S1x768 .f32).view.dmaCredit = Nr := by decide

theorem snd_wait (c : Dev nD) (j : Fin 15)
    {sp' : Space} {s' : Shape} {e' : EltTy} {src : Memref sig (c : Thread nD τ).2.kind sp' s' e'} {hsrc : src.view.WordExact}
    {hdst : (mM : Memref sig .tc .vmem S1x768 .f32).view.WordExact}
    {α : Type} {k : PUnit → Prog (TpuEff nD τ sig (Elt F) Λ₀ .tc) α} {Q : α → sProp 𝕄} :
    iprop(records m ρ K ∗ (∃ W, owes (c : Thread nD τ) 0 W)
        ∗ (bigSep (geS j.val) fun i => iprop(atPos ER (sndCell c i) 0 ∅ 0 ∗ cred (tallyAt (sndCell c i) () Nr)))
        ∗ (bigSep (ltS j.val) fun i => iprop(atPos ER (sndCell c i) (0 + 1) ∅ 0 ∗ sndPay m ρ c i)))
      ⊢ iprop((((∃ W, owes (c : Thread nD τ) 0 W)
            ∗ (bigSep (geS (j.val + 1)) fun i => iprop(atPos ER (sndCell c i) 0 ∅ 0 ∗ cred (tallyAt (sndCell c i) () Nr)))
            ∗ (bigSep (ltS (j.val + 1)) fun i => iprop(atPos ER (sndCell c i) (0 + 1) ∅ 0 ∗ sndPay m ρ c i))) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) src mM hsrc hdst) k) Q) := by
  rw [bigSep_geS_peel j, bigSep_ltS_push j]
  iintro ⟨#HR, ⟨%W, HO⟩, ⟨⟨Hat, Hc⟩, HgR⟩, HlR⟩ Hk
  iapply (Rounds.wp_wait_rest_token 𝒱₀ ER (ringRd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_snd m ρ K c j); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [HgR]; · iexact HgR
  isplitl [Hat Hpay]
  · isplitl [Hat]; · iexact Hat
    iapply (Entails.of_eq (rest_snd m ρ c j)); iexact Hpay
  iexact HlR

/-! ## The result copy and its wait -/

theorem out_copy (c : Dev nD) (fo : Buf (Elt F) ((oM : Memref sig .tc .hbm S1x768 .f32).view.loc (c : Thread nD τ)))
    {hsrc : (fM : Memref sig .tc .vmem S1x768 .f32).view.WordExact} {hdst : (oM : Memref sig .tc .hbm S1x768 .f32).view.WordExact}
    {hsem : DmaTarget.Typed (nD := nD) (τ := τ) (p := (c : Thread nD τ).2) .vmem (.dma outS) (.here oM)}
    {α : Type} {k : PUnit → Prog (TpuEff nD τ sig (Elt F) Λ₀ .tc) α} {Q : α → sProp 𝕄} :
    iprop(records m ρ K ∗ totalPts m ρ c ∗ outPts c fo ∗ dutyTok ER (outCell c) 0 0)
      ⊢ iprop((cred (tallyAt (outCell c) () No) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fM (.here oM) (.dma outS) hsrc hdst hsem) k) Q) := by
  iintro ⟨#HR, Hf, Ho, Ht⟩ Hk
  unfold totalPts outPts
  iapply (Rounds.wp_copy_pointsTo 𝒱₀ ER (ringRd m ρ) (c : Thread nD τ) none (κ := K (c, .inr (.inr (.inr ())))) (r := 0) (d := 0) (fd := fo)
      (by rw [duties_out]; exact Finset.mem_singleton_self _) () No rfl (amount_out m ρ c 0)
      (by rw [payload_out]; unfold outPay outPts totalPts; rw [out_landed])) $$ [Hf Ho Ht]
  · isplitr; · iapply (inv_out m ρ K c); iexact HR
    isplitl [Hf]; · iexact Hf
    isplitl [Ho]; · iexact Ho
    isplitl [Ht]; · iexact Ht
    iapply (rch_out m ρ K c); iexact HR
  iintro Hc
  iapply Hk; iexact Hc

theorem out_wait (c : Dev nD) (W : Waits sig Unit)
    {hsrc : (fM : Memref sig .tc .vmem S1x768 .f32).view.WordExact} {hdst : (oM : Memref sig .tc .hbm S1x768 .f32).view.WordExact}
    {α : Type} {k : PUnit → Prog (TpuEff nD τ sig (Elt F) Λ₀ .tc) α} {Q : α → sProp 𝕄} :
    iprop(records m ρ K ∗ owes (c : Thread nD τ) 0 W ∗ atPos ER (outCell c) 0 ∅ 0 ∗ cred (tallyAt (outCell c) () No))
      ⊢ iprop(((owes (c : Thread nD τ) 0 (insert (SemLoc.dma outS, ()) W) ∗ atPos ER (outCell c) (0 + 1) ∅ 0 ∗ outPay m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 outS fM oM hsrc hdst) k) Q) := by
  iintro ⟨#HR, HO, Hat, Hc⟩ Hk
  iapply (Rounds.wp_wait_rest_token 𝒱₀ ER (ringRd m ρ) (c : Thread nD τ) none (κ := K (c, .inr (.inr (.inr ()))))
      (wpE_waitDma2_eq 𝒱₀ (c : Thread nD τ) none Set.univ) (Set.mem_univ _) () (O := 0) (W := W) (R := 0) (m := 0) (T := ∅)
      (by rw [Nat.zero_add, expect_out])) $$ [Hc HO Hat]
  · isplitr; · iapply (inv_out m ρ K c); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_out m ρ c)); iexact Hpay

/-! ## Closing a device's own cells: past their one round their counters are zero, and the device's again -/

theorem close_cell (c : Dev nD) (k : OK) :
    iprop(records m ρ K ∗ atPos ER (((c : Thread nD τ), osem k) : GSem nD τ sig) (0 + 1) ∅ 0) ⊢ |={Set.univ}=> (semVal (((c : Thread nD τ), osem k) : GSem nD τ sig) 0 : sProp 𝕄) := by
  iintro ⟨#HR, Hat⟩
  iapply (Rounds.cell_close ER (ringRd m ρ) (Set.mem_univ (K (c, .inr k))) (fun h => h) (R := 0 + 1) (duties_later m ρ _))
  isplitr; · iapply (inv_at m ρ K (c, .inr k)); iexact HR
  iexact Hat

end Cert.KernelIdealProof

end
-- ==== Proof.KernelIdealCont.lean ====
/-
  What the two vector stores leave in the scratch buffers.

  The first store writes, through the whole [1,768] buffer of column sums, the column sums of the device's staged block: the
  buffer then holds them, whatever it held. The second writes, through the whole result scratch buffer, the sum of the column
  sums and the fifteen received rows: the buffer then holds the total. A load through the whole of a buffer reads its
  contents, and one unmasked store through the whole of a buffer leaves its payload.
-/
import proofs.«901076_g7700000000001077_dist_sum_ax0_shard0_i_m1536_n768_v7x_i16_f32_1_alg».proof.Proof.KernelIdealAux
import Idealize.ShloMosaic.Lib.Writes

noncomputable section

namespace Cert.KernelIdealProof

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The offsets of an access to the whole of a rank-two buffer are all zero. -/
theorem zeros2 : (![0, 0] : Fin 2 → Nat) = fun _ => 0 := funext fun a => by fin_cases a <;> rfl

omit [FloatOps F] in
/-- A load through the whole of the staged block reads the block's contents. -/
theorem read_stg_whole (X : (cc0_stg0_0 : Ref sig .tc).ty.Contents (Elt F)) :
    View.readAt (Elt F) (Memref.whole cc0_stg0_0 : Memref sig .tc .vmem S1536x768 .f32).view
      (Rect.unit (s := S1536x768) ![0, 0] S1536x768.size inb_S1536x768_S1536x768_0_0).toLoadRect X = X :=
  Memref.readAt_unit_zero (Elt F) cc0_stg0_0 zeros2 _ X

omit [FloatOps F] in
/-- A load through the whole buffer of column sums reads that buffer's contents. -/
theorem read_mine_whole (X : (cc0_scratch0 : Ref sig .tc).ty.Contents (Elt F)) :
    View.readAt (Elt F) (Memref.whole cc0_scratch0 : Memref sig .tc .vmem S1x768 .f32).view
      (Rect.unit (s := S1x768) ![0, 0] S1x768.size inb_S1x768_S1x768_0_0).toLoadRect X = X :=
  Memref.readAt_unit_zero (Elt F) cc0_scratch0 zeros2 _ X

omit [FloatOps F] in
/-- A load through the whole receive buffer reads that buffer's contents. -/
theorem read_rows_whole (X : (cc0_scratch1 : Ref sig .tc).ty.Contents (Elt F)) :
    View.readAt (Elt F) (Memref.whole cc0_scratch1 : Memref sig .tc .vmem S15x768 .f32).view
      (Rect.unit (s := S15x768) ![0, 0] S15x768.size inb_S15x768_S15x768_0_0).toLoadRect X = X :=
  Memref.readAt_unit_zero (Elt F) cc0_scratch1 zeros2 _ X

omit [FloatOps F] in
/-- One unmasked store through the whole buffer of column sums leaves its payload there, whatever the buffer held. -/
theorem write_mine_whole (f w : (cc0_scratch0 : Ref sig .tc).ty.Contents (Elt F)) :
    (Memref.whole cc0_scratch0 : Memref sig .tc .vmem S1x768 .f32).view.writes (Elt F) f
      [⟨Rect.unit (s := S1x768) ![0, 0] S1x768.size inb_S1x768_S1x768_0_0, w⟩] = w := by
  rw [View.writes_singleton]
  exact Memref.write_access_unit_zero_univ (Elt F) cc0_scratch0 zeros2 _ f w

omit [FloatOps F] in
/-- One unmasked store through the whole result scratch buffer leaves its payload there, whatever the buffer held. -/
theorem write_total_whole (f w : (cc0_scratch2 : Ref sig .tc).ty.Contents (Elt F)) :
    (Memref.whole cc0_scratch2 : Memref sig .tc .vmem S1x768 .f32).view.writes (Elt F) f
      [⟨Rect.unit (s := S1x768) ![0, 0] S1x768.size inb_S1x768_S1x768_0_0, w⟩] = w := by
  rw [View.writes_singleton]
  exact Memref.write_access_unit_zero_univ (Elt F) cc0_scratch2 zeros2 _ f w

/-- The first store leaves the device's column sums in their buffer. -/
theorem mine_written (c : Dev nD) (f0 : Buf (Elt F) ((c : Thread nD τ).loc cc0_scratch0)) :
    (Memref.whole cc0_scratch0 : Memref sig .tc .vmem S1x768 .f32).view.writes (Elt F) f0
      [⟨Rect.unit (s := S1x768) ![0, 0] S1x768.size inb_S1x768_S1x768_0_0,
          k0_pay1 (View.readAt (Elt F) (Memref.whole cc0_stg0_0 : Memref sig .tc .vmem S1536x768 .f32).view
            (Rect.unit (s := S1536x768) ![0, 0] S1536x768.size inb_S1536x768_S1536x768_0_0).toLoadRect (xblk m ρ c))⟩]
      = mine m ρ c :=
  (write_mine_whole f0 _).trans (congrArg k0_pay1 (read_stg_whole (xblk m ρ c)))

/-- The second store leaves the total in the result scratch buffer. -/
theorem total_written (c : Dev nD) (f2 : Buf (Elt F) ((c : Thread nD τ).loc cc0_scratch2)) :
    (Memref.whole cc0_scratch2 : Memref sig .tc .vmem S1x768 .f32).view.writes (Elt F) f2
      [⟨Rect.unit (s := S1x768) ![0, 0] S1x768.size inb_S1x768_S1x768_0_0,
          k0_pay2 (View.readAt (Elt F) (Memref.whole cc0_scratch0 : Memref sig .tc .vmem S1x768 .f32).view
              (Rect.unit (s := S1x768) ![0, 0] S1x768.size inb_S1x768_S1x768_0_0).toLoadRect (mine m ρ c))
            (View.readAt (Elt F) (Memref.whole cc0_scratch1 : Memref sig .tc .vmem S15x768 .f32).view
              (Rect.unit (s := S15x768) ![0, 0] S15x768.size inb_S15x768_S15x768_0_0).toLoadRect (rows m ρ c))⟩]
      = total m ρ c :=
  (write_total_whole f2 _).trans (congrArg₂ k0_pay2 (read_mine_whole (mine m ρ c)) (read_rows_whole (rows m ρ c)))

end Cert.KernelIdealProof

end
-- ==== Proof.KernelIdealBody.lean ====
/-
  The body of the all-to-all sum at a symbolic device, from what the region hands it to what it must leave: the fifteen signals
  (each handing over the slot its target will write), the device's own column sums, the barrier wait (the fifteen slots this device
  writes arrive), the fifteen copies (each reading `mine` at the next half of what is left of its share), the fifteen receive waits
  (the receive buffer is whole again, row `j` the column sums of the device `j + 1` places before), the total, the result copy,
  the fifteen send waits (the shares of `mine` come back), the wait for the result copy; then every own cell is closed.
-/
import proofs.«901076_g7700000000001077_dist_sum_ax0_shard0_i_m1536_n768_v7x_i16_f32_1_alg».proof.Proof.KernelIdealSched
import proofs.«901076_g7700000000001077_dist_sum_ax0_shard0_i_m1536_n768_v7x_i16_f32_1_alg».proof.Proof.KernelIdealDevTable
import proofs.«901076_g7700000000001077_dist_sum_ax0_shard0_i_m1536_n768_v7x_i16_f32_1_alg».proof.Proof.KernelIdealSteps
import proofs.«901076_g7700000000001077_dist_sum_ax0_shard0_i_m1536_n768_v7x_i16_f32_1_alg».proof.Proof.KernelIdealCont
import Idealize.ShloMosaic.Lib.Tactic

noncomputable section

namespace Cert.KernelIdealProof

open Cert.KernelIdeal Cert.KernelIdeal.Gen Cert.KernelIdeal.Ring

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The steps in reverse, as a permutation. -/
def revE : Fin 15 ≃ Fin 15 := ⟨rev, rev, rev_rev, rev_rev⟩

theorem O₀_start (c : Dev nD) : (dats m ρ 0 c).owed t₀.castSucc = owedSnd (geS 0) c + owedSig (geS (0 : Fin 15).val) c := by
  show O₀ c = _
  unfold O₀; rw [show ((0 : Fin 15).val) = 0 from rfl, geS_zero]

/-! ## Entering and leaving the phases of the body -/

/-- Before the first copy: `mine` whole, nothing sent yet. -/
theorem copies_start (c : Dev nD) :
    ((((c : Thread nD τ).loc cc0_scratch0) ↦{fullShare} mine m ρ c : sProp 𝕄))
      ⊢ iprop(minePts m ρ c (remSh (0 : Fin 15).val) ∗ bigSep (ltS (0 : Fin 15).val) fun i => cred (tallyAt (sndCell c i) () Nr)) := by
  rw [show ((0 : Fin 15).val) = 0 from rfl, ltS_zero, bigSep_empty]
  iintro H
  isplitl [H]
  · iapply (Entails.of_eq (minePts_eq m ρ c (remSh 0)).symm); iexact H
  · iempintro

/-- After the last copy nothing is owed. -/
theorem copies_done (c : Dev nD) (W : Waits sig Unit) :
    owes (c : Thread nD τ) (owedSnd (geS ((14 : Fin 15).val + 1)) c) W ⊢ (owes (c : Thread nD τ) 0 W : sProp 𝕄) := by
  rw [show ((14 : Fin 15).val + 1) = 15 from rfl, owedSnd_done]

/-- Before the first receive wait: every receive cell at round 0 with its credit. -/
theorem rcvs_start (c : Dev nD) :
    iprop((bigSep (geS 0) fun i : Fin 15 => atPos ER (kcell (c, .inr (.inr (.inl i)))) 0 ∅ 0) ∗ (bigSep (geS 0) fun i : Fin 15 => cred (tallyAt (rcvCell c i) () Nr)))
      ⊢ iprop((bigSep (geS (0 : Fin 15).val) fun i => iprop(atPos ER (rcvCell c i) 0 ∅ 0 ∗ cred (tallyAt (rcvCell c i) () Nr)))
          ∗ (bigSep (ltS (0 : Fin 15).val) fun i => iprop(atPos ER (rcvCell c i) (0 + 1) ∅ 0 ∗ rcvPay m ρ c i))) := by
  rw [show ((0 : Fin 15).val) = 0 from rfl, ltS_zero, bigSep_empty, bigSep_sep']
  iintro ⟨H1, H2⟩
  isplitl [H1 H2]
  · isplitl [H1] <;> iassumption
  · iempintro

/-- After the last receive wait: every receive cell past its round, and the receive buffer whole again, every row landed. -/
theorem rcvs_done (c : Dev nD) :
    (bigSep (ltS ((14 : Fin 15).val + 1)) fun i => iprop(atPos ER (rcvCell c i) (0 + 1) ∅ 0 ∗ rcvPay m ρ c i))
      ⊢ iprop((bigSep Finset.univ fun i : Fin 15 => atPos ER (rcvCell c i) (0 + 1) ∅ 0) ∗ (((c : Thread nD τ).loc cc0_scratch1) ↦{fullShare} rows m ρ c)) := by
  rw [show ((14 : Fin 15).val + 1) = 15 from rfl, ltS_last, bigSep_sep', rows_split c (rows m ρ c)]
  exact BI.Entails.refl _

/-- Before the first send wait: every send cell at round 0 with the credit its copy left. -/
theorem snds_start (c : Dev nD) :
    iprop((bigSep (geS 0) fun i : Fin 15 => atPos ER (kcell (c, .inr (.inl i))) 0 ∅ 0) ∗ (bigSep (ltS ((14 : Fin 15).val + 1)) fun i : Fin 15 => cred (tallyAt (sndCell c i) () Nr)))
      ⊢ iprop((bigSep (geS (0 : Fin 15).val) fun i => iprop(atPos ER (sndCell c i) 0 ∅ 0 ∗ cred (tallyAt (sndCell c i) () Nr)))
          ∗ (bigSep (ltS (0 : Fin 15).val) fun i => iprop(atPos ER (sndCell c i) (0 + 1) ∅ 0 ∗ sndPay m ρ c i))) := by
  rw [show ((14 : Fin 15).val + 1) = 15 from rfl, ltS_last, ← geS_zero, show ((0 : Fin 15).val) = 0 from rfl, ltS_zero, bigSep_empty, bigSep_sep']
  iintro ⟨H1, H2⟩
  isplitl [H1 H2]
  · isplitl [H1] <;> iassumption
  · iempintro

/-- After the last send wait: every send cell past its round, and `mine` whole again. -/
theorem snds_done (c : Dev nD) :
    iprop(((((c : Thread nD τ).loc cc0_scratch0) ↦{remSh ((14 : Fin 15).val + 1)} mine m ρ c))
        ∗ (bigSep (ltS ((14 : Fin 15).val + 1)) fun i => iprop(atPos ER (sndCell c i) (0 + 1) ∅ 0 ∗ sndPay m ρ c i)))
      ⊢ iprop((bigSep Finset.univ fun i : Fin 15 => atPos ER (sndCell c i) (0 + 1) ∅ 0) ∗ (((c : Thread nD τ).loc cc0_scratch0) ↦{fullShare} mine m ρ c)) := by
  rw [show ((14 : Fin 15).val + 1) = 15 from rfl, ltS_last, bigSep_sep']
  iintro ⟨Hm, Ha, Hp⟩
  isplitl [Ha]; · iexact Ha
  iapply (mine_join c (mine m ρ c))
  isplitl [Hm]; · iexact Hm
  have hp : (bigSep Finset.univ fun i : Fin 15 => sndPay m ρ c i)
      ⊢ (bigSep Finset.univ fun i : Fin 15 => ((((c : Thread nD τ).loc cc0_scratch0) ↦{pieceSh i.val} mine m ρ c : sProp 𝕄))) :=
    bigSep_mono fun i _ => Entails.of_eq (minePts_eq m ρ c (pieceSh i.val))
  iapply hp
  iexact Hp

/-- Every own cell past its one round closes: its counter is zero and the device's again. -/
theorem close_all (K : Dev nD × CK → ℕ) (c : Dev nD) :
    iprop(records m ρ K ∗ (bigSep Finset.univ fun i : Fin 15 => atPos ER (sndCell c i) (0 + 1) ∅ 0) ∗ (bigSep Finset.univ fun i : Fin 15 => atPos ER (rcvCell c i) (0 + 1) ∅ 0)
        ∗ atPos ER (outCell c) (0 + 1) ∅ 0)
      ⊢ |={Set.univ}=> (bigSep Finset.univ fun k : OK => semVal (((c : Thread nD τ), osem k) : GSem nD τ sig) 0 : sProp 𝕄) := by
  have h : iprop(records m ρ K ∗ bigSep Finset.univ fun k : OK => atPos ER (((c : Thread nD τ), osem k) : GSem nD τ sig) (0 + 1) ∅ 0)
      ⊢ (bigSep Finset.univ fun k : OK => iprop(|={Set.univ}=> semVal (((c : Thread nD τ), osem k) : GSem nD τ sig) 0) : sProp 𝕄) :=
    bigSep_with_persistent fun k _ => close_cell m ρ K c k
  refine BI.Entails.trans ?_ (h.trans (bigSep_fupd _ _))
  rw [bigSep_OK (fun k : OK => (atPos ER (((c : Thread nD τ), osem k) : GSem nD τ sig) (0 + 1) ∅ 0 : sProp 𝕄))]
  exact BI.Entails.refl _

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_some (c : Dev nD) (W : Waits sig Unit) : (owes (c : Thread nD τ) 0 W : sProp 𝕄) ⊢ iprop(∃ W, owes (c : Thread nD τ) 0 W) := by
  iintro H; iexists W; iexact H

set_option hygiene false in
local macro "sig_at " j:term ", " e:term : tactic => `(tactic| (
  sl_exec
  iapply (sig_step m ρ K c $j _ ($e c) f1 W) $$ [HO HtB Hsl]
  · isplitr; · iexact HR
    isplitl [HO]; · iexact HO
    isplitl [HtB]; · iexact HtB
    iexact Hsl
  iintro ⟨HO, HtB, Hsl⟩))

set_option hygiene false in
local macro "copy_at " j:term ", " e:term : tactic => `(tactic| (
  sl_exec
  iapply (send_step m ρ K c $j _ ($e c) (insert (SemLoc.reg barS, ()) W)) $$ [HO HtV HtS Hpay Hm HcS]
  · isplitr; · iexact HR
    isplitl [HO]; · iexact HO
    isplitl [HtV]; · iexact HtV
    isplitl [HtS]; · iexact HtS
    isplitl [Hpay]; · iexact Hpay
    isplitl [Hm]; · iexact Hm
    iexact HcS
  iintro ⟨HO, HtV, HtS, Hpay, Hm, HcS⟩))

set_option hygiene false in
local macro "rcvw_at " j:term : tactic => `(tactic| (
  sl_exec
  iapply (rcv_wait m ρ K c $j) $$ [HOw Hrg Hrl]
  · isplitr; · iexact HR
    isplitl [HOw]; · iexact HOw
    isplitl [Hrg]; · iexact Hrg
    iexact Hrl
  iintro ⟨HOw, Hrg, Hrl⟩))

set_option hygiene false in
local macro "sndw_at " j:term : tactic => `(tactic| (
  sl_exec
  iapply (snd_wait m ρ K c $j) $$ [HOw Hsg Hsd]
  · isplitr; · iexact HR
    isplitl [HOw]; · iexact HOw
    isplitl [Hsg]; · iexact Hsg
    iexact Hsd
  iintro ⟨HOw, Hsg, Hsd⟩))

set_option maxHeartbeats 6400000 in
/-- The body at a symbolic device: the protocol's steps in program order, the loads, sums and stores between them executed symbolically. -/
theorem sound_body (c : Dev nD) :
    bodyPre m ρ c ⊢ wp frame (wpE (defs₀ (F := F)) 𝒱₀ c none) Set.univ
      (cc0_body (F := F) (Memref.whole cc0_stg0_0) (Memref.isWhole_whole _) (Memref.whole main_v1) (Memref.isWhole_whole _) (Memref.whole cc0_scratch0) (Memref.isWhole_whole _)
        (Memref.whole cc0_scratch1) (Memref.isWhole_whole _) (Memref.whole cc0_scratch2) (Memref.isWhole_whole _) cc0_scratch3 cc0_scratch4 cc0_scratch5) (fun _ => bodyPost m ρ c) := by
  unfold bodyPre Φ₀ start scratch ghost
  iintro ⟨⟨⟨⟨%K, #HR, Hpos, Htok⟩, HcB, HcV, #Hlev, ⟨%fo, Hout⟩⟩, ⟨%f0, Hmine⟩, ⟨%f1, Hrb⟩, ⟨%f2, Hfin⟩⟩, Ho, ⟨%d0, %g0, %hg0, Hx⟩⟩
  have hx : g0 = xblk m ρ c := by rw [hg0]; unfold Dat.before; rw [if_pos (fetch0_0 t₀)]; rfl
  subst hx
  unfold Dat.owesAt Pipeline.owesWithin
  icases Ho with ⟨%W, %hW, HO⟩
  rw [O₀_start m ρ c]
  unfold payToks positions
  icases Htok with ⟨HtB, HtV, HtS, HtO⟩
  ihave Hpos' := (Entails.of_eq (bigSep_CK (fun k : CK => (atPos ER (kcell (c, k)) 0 ∅ 0 : sProp 𝕄)))) $$ Hpos
  icases Hpos' with ⟨HaB, HaS, HaV, HaO⟩
  ihave Hsl0 := (Entails.of_eq (rows_split c f1)) $$ Hrb
  ihave Hsl := (Entails.of_eq (bigSep_univ_equiv revE (fun j : Fin 15 => (slotPts c j f1 : sProp 𝕄)))) $$ Hsl0
  rw [← geS_zero]
  ihave Hx := (Entails.of_eq (show ((((c : Thread nD τ).loc cc0_stg0_0) ↦{fullShare} xblk m ρ c : sProp 𝕄))
      = ((Memref.whole cc0_stg0_0 : Memref sig .tc .vmem S1536x768 .f32).view.loc (c : Thread nD τ) ↦[Finset.univ]{fullShare} xblk m ρ c) from rfl)) $$ Hx
  ihave Hmine := (Entails.of_eq (show ((((c : Thread nD τ).loc cc0_scratch0) ↦{fullShare} f0 : sProp 𝕄))
      = ((Memref.whole cc0_scratch0 : Memref sig .tc .vmem S1x768 .f32).view.loc (c : Thread nD τ) ↦[Finset.univ]{fullShare} f0) from rfl)) $$ Hmine
  sl_unfold [cc0_body]
  -- the fifteen signals
  sig_at 0, sig0
  sig_at 1, sig1
  sig_at 2, sig2
  sig_at 3, sig3
  sig_at 4, sig4
  sig_at 5, sig5
  sig_at 6, sig6
  sig_at 7, sig7
  sig_at 8, sig8
  sig_at 9, sig9
  sig_at 10, sig10
  sig_at 11, sig11
  sig_at 12, sig12
  sig_at 13, sig13
  sig_at 14, sig14
  -- the device's own column sums, then the wait for the fifteen others
  sl_exec
  rw [mine_written m ρ c f0]
  iapply (bar_wait m ρ K c W) $$ [HcB HO HaB]
  · isplitr; · iexact HR
    isplitr; · iexact Hlev
    isplitl [HcB]; · iexact HcB
    isplitl [HO]; · iexact HO
    iexact HaB
  iintro ⟨HO, HaB, Hpay⟩
  -- the fifteen copies
  ihave Hm2 := (copies_start m ρ c) $$ Hmine
  icases Hm2 with ⟨Hm, HcS⟩
  copy_at 0, snd0
  copy_at 1, snd1
  copy_at 2, snd2
  copy_at 3, snd3
  copy_at 4, snd4
  copy_at 5, snd5
  copy_at 6, snd6
  copy_at 7, snd7
  copy_at 8, snd8
  copy_at 9, snd9
  copy_at 10, snd10
  copy_at 11, snd11
  copy_at 12, snd12
  copy_at 13, snd13
  copy_at 14, snd14
  ihave HO0 := (copies_done c (insert (SemLoc.reg barS, ()) W)) $$ HO
  ihave HOw := (owes_some c (insert (SemLoc.reg barS, ()) W)) $$ HO0
  -- the fifteen receive waits
  ihave Hrv := (rcvs_start m ρ c) $$ [HaV HcV]
  · isplitl [HaV] <;> iassumption
  icases Hrv with ⟨Hrg, Hrl⟩
  rcvw_at 0
  rcvw_at 1
  rcvw_at 2
  rcvw_at 3
  rcvw_at 4
  rcvw_at 5
  rcvw_at 6
  rcvw_at 7
  rcvw_at 8
  rcvw_at 9
  rcvw_at 10
  rcvw_at 11
  rcvw_at 12
  rcvw_at 13
  rcvw_at 14
  ihave Hrd := (rcvs_done m ρ c) $$ Hrl
  icases Hrd with ⟨HaV1, Hrb⟩
  -- the total
  ihave Hmine := (Entails.of_eq (minePts_eq m ρ c (remSh ((14 : Fin 15).val + 1)))) $$ Hm
  ihave Hmine := (Entails.of_eq (show ((((c : Thread nD τ).loc cc0_scratch0) ↦{remSh ((14 : Fin 15).val + 1)} mine m ρ c : sProp 𝕄))
      = ((Memref.whole cc0_scratch0 : Memref sig .tc .vmem S1x768 .f32).view.loc (c : Thread nD τ) ↦[Finset.univ]{remSh ((14 : Fin 15).val + 1)} mine m ρ c) from rfl)) $$ Hmine
  ihave Hrb := (Entails.of_eq (show ((((c : Thread nD τ).loc cc0_scratch1) ↦{fullShare} rows m ρ c : sProp 𝕄))
      = ((Memref.whole cc0_scratch1 : Memref sig .tc .vmem S15x768 .f32).view.loc (c : Thread nD τ) ↦[Finset.univ]{fullShare} rows m ρ c) from rfl)) $$ Hrb
  ihave Hfin := (Entails.of_eq (show ((((c : Thread nD τ).loc cc0_scratch2) ↦{fullShare} f2 : sProp 𝕄))
      = ((Memref.whole cc0_scratch2 : Memref sig .tc .vmem S1x768 .f32).view.loc (c : Thread nD τ) ↦[Finset.univ]{fullShare} f2) from rfl)) $$ Hfin
  sl_exec
  rw [total_written m ρ c f2]
  -- the result copy
  ihave Hfin' := (Entails.of_eq (totalPts_eq m ρ c).symm) $$ Hfin
  iapply (out_copy m ρ K c fo) $$ [Hfin' Hout HtO]
  · isplitr; · iexact HR
    isplitl [Hfin']; · iexact Hfin'
    isplitl [Hout]; · iexact Hout
    iexact HtO
  iintro HcO
  -- the fifteen send waits
  ihave Hsn := (snds_start m ρ c) $$ [HaS HcS]
  · isplitl [HaS] <;> iassumption
  icases Hsn with ⟨Hsg, Hsd⟩
  sndw_at 0
  sndw_at 1
  sndw_at 2
  sndw_at 3
  sndw_at 4
  sndw_at 5
  sndw_at 6
  sndw_at 7
  sndw_at 8
  sndw_at 9
  sndw_at 10
  sndw_at 11
  sndw_at 12
  sndw_at 13
  sndw_at 14
  -- the wait for the result copy
  icases HOw with ⟨%W2, HO⟩
  iapply (out_wait m ρ K c W2) $$ [HO HaO HcO]
  · isplitr; · iexact HR
    isplitl [HO]; · iexact HO
    isplitl [HaO]; · iexact HaO
    iexact HcO
  iintro ⟨HO, HaO, Hop⟩
  -- every own cell closes; the buffers come back whole
  unfold outPay
  icases Hop with ⟨Hout, Hfin⟩
  ihave Hsdone := (snds_done m ρ c) $$ [Hmine Hsd]
  · isplitl [Hmine] <;> iassumption
  icases Hsdone with ⟨HaS1, Hmine⟩
  imod (close_all m ρ K c) $$ [HaS1 HaV1 HaO] with Hz
  · isplitr; · iexact HR
    isplitl [HaS1]; · iexact HaS1
    isplitl [HaV1]; · iexact HaV1
    iexact HaO
  simp only [Prog.pure_eq_ret, Prog.bind, wp_ret]
  imodintro
  unfold bodyPost Φ₁ scratch Dat.owesAt Pipeline.owesWithin
  isplitl [Hout Hz Hmine Hrb Hfin]
  · isplitl [Hout]; · iexact Hout
    isplitl [Hz]; · iexact Hz
    isplitl [Hmine]; · iexists _; iexact Hmine
    isplitl [Hrb]; · iexists _; iexact Hrb
    iexists _; iapply (Entails.of_eq (totalPts_eq m ρ c)); iexact Hfin
  isplitl [HO]
  · iexists (insert (SemLoc.dma outS, ()) W2)
    isplitr; · ipureintro; exact fun _ _ => Or.inl trivial
    iexact HO
  iexists _
  isplitr; · (ipureintro; rfl)
  iexact Hx

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
      (cc0_body (F := F) (Memref.whole cc0_stg0_0) (Memref.isWhole_whole _) (Memref.whole main_v1) (Memref.isWhole_whole _) (Memref.whole cc0_scratch0) (Memref.isWhole_whole _)
        (Memref.whole cc0_scratch1) (Memref.isWhole_whole _) (Memref.whole cc0_scratch2) (Memref.isWhole_whole _) cc0_scratch3 cc0_scratch4 cc0_scratch5) (fun _ => bodyPost m ρ c)
  exact sound_body m ρ c

/-- info: 'Cert.KernelIdealProof.body_obligation' depends on axioms: [propext, Classical.choice, Quot.sound] -/
#guard_msgs in #print axioms body_obligation

end Cert.KernelIdealProof

end
-- ==== Proof.KernelIdealLaunch.lean ====
/-
  The launch of the all-to-all sum on the ring of sixteen devices: the cells and duty tokens the launch element holds,
  the one update that allocates every cell's invariant and deals each device the ghost state its body starts from (the
  tokens re-indexed along the ring: a device ends holding the tokens of the duties it pays, not of its own cells), the
  credit each device is dealt for what the others owe its cells, the level evidence for the staging waits, and the run of
  the whole program given the body obligation.
-/
import proofs.«901076_g7700000000001077_dist_sum_ax0_shard0_i_m1536_n768_v7x_i16_f32_1_alg».proof.Proof.KernelIdealSched

noncomputable section

namespace Cert.KernelIdealProof

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

theorem ownSemFacts : Pipeline.OwnSemFacts cfg0.spec osem := by decide

theorem share_eq (c : Dev nD) (w : Fin cfg0.W) : (dats m ρ 0 c).share w = fullShare := by unfold Dat.share; split <;> rfl

/-- An own semaphore is a DMA semaphore, the barrier semaphore a regular one. -/
theorem reg_ne_osem (k : OK) : (SemLoc.reg barS : SemLoc sig) ≠ osem k := by
  rcases k with j | j | ⟨⟩ <;> exact fun h => by cases h

theorem csem_injective : Function.Injective (csem : CK → SemLoc sig) := by
  rintro (⟨⟩ | k) (⟨⟩ | k') h
  · rfl
  · exact absurd h (reg_ne_osem k')
  · exact absurd h.symm (reg_ne_osem k)
  · exact congrArg Sum.inr (ownSemFacts.inj h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens as minted, per device: its barrier cell's fifteen, and duty 0 of each of its own cells. -/
abbrev TK : Type := Fin 15 ⊕ OK
abbrev tokOf (cj : Dev nD × TK) : GSem nD τ sig × ℕ × Fin 15 := match cj.2 with
  | .inl j => (barCell cj.1, 0, j)
  | .inr k => (((cj.1 : Thread nD τ), osem k), 0, 0)
theorem tokOf_injective : Function.Injective (tokOf : Dev nD × TK → GSem nD τ sig × ℕ × Fin 15) := by
  rintro ⟨c, j⟩ ⟨c', j'⟩ h
  have h1 : c = c' := by
    have := congrArg (fun x : GSem nD τ sig × ℕ × Fin 15 => x.1.1.1) h
    rcases j with j | k <;> rcases j' with j' | k' <;> exact this
  subst h1
  have : j = j' := by
    rcases j with j | k <;> rcases j' with j' | k'
    · exact congrArg Sum.inl (congrArg (fun x : GSem nD τ sig × ℕ × Fin 15 => x.2.2) h)
    · exact absurd (congrArg (fun x : GSem nD τ sig × ℕ × Fin 15 => x.1.2) h) (reg_ne_osem k')
    · exact absurd (congrArg (fun x : GSem nD τ sig × ℕ × Fin 15 => x.1.2) h).symm (reg_ne_osem k)
    · exact congrArg Sum.inr (ownSemFacts.inj (congrArg (fun x : GSem nD τ sig × ℕ × Fin 15 => x.1.2) h))
  subst this; rfl
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ bigSep Finset.univ fun k : OK => dutyTok ER ((c : Thread nD τ), osem k) 0 0)

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The one update: every cell's invariant allocated, the tokens dealt round the ring -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  have h : (bigSep Finset.univ fun k : CK => semVal (kcell (c, k)) 0 : sProp 𝕄)
      = iprop(semVal (barCell c) 0 ∗ bigSep Finset.univ fun k : OK => semVal ((c : Thread nD τ), osem k) 0) := by
    rw [bigSep_univ_sum, bigSep_univ_of_subsingleton ()]; rfl
  rw [unscopedSems0_eq, h]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Step `j` forward and its undoing step: an involution of the (device, step) pairs. -/
def ringRev : Dev nD × Fin 15 ≃ Dev nD × Fin 15 where
  toFun cj := (pr cj.1 cj.2, rev cj.2)
  invFun cj := (pr cj.1 cj.2, rev cj.2)
  left_inv cj := by rcases cj with ⟨c, j⟩; exact Prod.ext (pr_pr_rev c j) (rev_rev j)
  right_inv cj := by rcases cj with ⟨c, j⟩; exact Prod.ext (pr_pr_rev c j) (rev_rev j)
/-- Step `j` forward, the step kept. -/
def ringFwd : Dev nD × Fin 15 ≃ Dev nD × Fin 15 where
  toFun cj := (pr cj.1 cj.2, cj.2)
  invFun cj := (bk cj.1 cj.2, cj.2)
  left_inv cj := by rcases cj with ⟨c, j⟩; exact Prod.ext (bk_pr c j) rfl
  right_inv cj := by rcases cj with ⟨c, j⟩; exact Prod.ext (pr_bk c j) rfl

/-- The tokens dealt round the ring: duty `j` of a barrier cell goes to the device `j + 1` places after its owner (for
    which it is duty `rev j` of the cell of the device `rev j + 1` places on), a receive cell's to the device that sends
    into it; the send cells' and the result copy's stay. -/
theorem toks_around : (bigSep Finset.univ fun c : Dev nD => (toks c : sProp 𝕄)) ⊢ bigSep Finset.univ fun c : Dev nD => payToks c := by
  have hbar : (bigSep Finset.univ fun c : Dev nD => bigSep Finset.univ fun j : Fin 15 => (dutyTok ER (barCell c) 0 j : sProp 𝕄))
      = bigSep Finset.univ fun c : Dev nD => bigSep Finset.univ fun j : Fin 15 => (dutyTok ER (barCell (pr c j)) 0 (rev j) : sProp 𝕄) := by
    rw [← bigSep_univ_prod (fun cj : Dev nD × Fin 15 => (dutyTok ER (barCell cj.1) 0 cj.2 : sProp 𝕄)),
      bigSep_univ_equiv ringRev (fun cj : Dev nD × Fin 15 => (dutyTok ER (barCell cj.1) 0 cj.2 : sProp 𝕄)), bigSep_univ_prod]
    rfl
  have hrcv : (bigSep Finset.univ fun c : Dev nD => bigSep Finset.univ fun j : Fin 15 => (dutyTok ER (rcvCell c j) 0 0 : sProp 𝕄))
      = bigSep Finset.univ fun c : Dev nD => bigSep Finset.univ fun j : Fin 15 => (dutyTok ER (rcvCell (pr c j) j) 0 0 : sProp 𝕄) := by
    rw [← bigSep_univ_prod (fun cj : Dev nD × Fin 15 => (dutyTok ER (rcvCell cj.1 cj.2) 0 0 : sProp 𝕄)),
      bigSep_univ_equiv ringFwd (fun cj : Dev nD × Fin 15 => (dutyTok ER (rcvCell cj.1 cj.2) 0 0 : sProp 𝕄)), bigSep_univ_prod]
    rfl
  unfold toks payToks
  simp only [bigSep_OK]
  rw [bigSep_sep', bigSep_sep', bigSep_sep', bigSep_sep', bigSep_sep', bigSep_sep', hbar, hrcv]
  iintro ⟨H1, H2, H3, H4⟩
  isplitl [H1]; · iexact H1
  isplitl [H3]; · iexact H3
  isplitl [H2]; · iexact H2
  iexact H4

theorem ghost_intro (K : Dev nD × CK → ℕ) (c : Dev nD) : iprop(records m ρ K ∗ (positions c ∗ payToks c)) ⊢ G' m ρ c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tallyAt_nsmul (g : GSem nD τ sig) (n k : ℕ) : n • (tallyAt g () k : CellTallies nD τ sig Unit) = tallyAt g () (n * k) := by
  induction n with
  | zero => rw [zero_smul, Nat.zero_mul, tallyAt_zero]
  | succ n ih => rw [succ_nsmul, ih, tallyAt_add, Nat.succ_mul]

/-- What the others owe device `c`'s receive cells: cell `j` a row's credit, from the device `j + 1` places before it; -/
theorem cred_snd (c : Dev nD) :
    (Pipeline.launchCred (owedSnd Finset.univ) c : sProp 𝕄) ⊢ bigSep Finset.univ fun j : Fin 15 => cred (tallyAt (rcvCell c j) () Nr) := by
  show (Pipeline.launchCred (fun d => ∑ j ∈ (Finset.univ : Finset (Fin 15)), tallyAt (rcvCell (pr d j) j) () Nr) c : sProp 𝕄) ⊢ _
  rw [Pipeline.launchCred_sum]
  exact bigSep_mono fun j _ => Pipeline.launchCred_tallyAt (.dma (recvS j)) (fun d => pr d j) (fun c => bk c j) (fun c => pr_bk c j) (fun d => bk_pr d j) () Nr c

/-- and its barrier cell: one unit from each of the fifteen. -/
theorem cred_sig (c : Dev nD) :
    (Pipeline.launchCred (owedSig Finset.univ) c : sProp 𝕄) ⊢ cred (tallyAt (barCell c) () 15) := by
  show (Pipeline.launchCred (fun d => ∑ j ∈ (Finset.univ : Finset (Fin 15)), tallyAt (barCell (pr d j)) () 1) c : sProp 𝕄) ⊢ _
  rw [Pipeline.launchCred_sum]
  refine (bigSep_mono fun j _ => Pipeline.launchCred_tallyAt (.reg barS) (fun d => pr d j) (fun c => bk c j) (fun c => pr_bk c j) (fun d => bk_pr d j) () 1 c).trans ?_
  rw [← Pipeline.cred_finsetSum, Finset.sum_const, Finset.card_univ, Fintype.card_fin, tallyAt_nsmul]
  exact BI.Entails.refl _

theorem creds (c : Dev nD) :
    (Pipeline.launchCred O₀ c : sProp 𝕄)
      ⊢ iprop(cred (tallyAt (barCell c) () 15) ∗ bigSep Finset.univ fun j : Fin 15 => cred (tallyAt (rcvCell c j) () Nr)) := by
  rw [show (O₀ : Dev nD → CellTallies nD τ sig Unit) = fun d => owedSnd Finset.univ d + owedSig Finset.univ d from rfl, Pipeline.launchCred_add]
  iintro ⟨HS, HB⟩
  isplitl [HB]
  · iapply (cred_sig (F := F) c); iexact HB
  · iapply (cred_snd (F := F) c); iexact HS

/-! ## The side conditions -/

/-- The result array is a whole buffer. -/
theorem launch_outPts_eq (c : Dev nD) (f : Buf (Elt F) ((c : Thread nD τ).loc main_v1)) :
    outPts c f = (((c : Thread nD τ).loc main_v1) ↦{fullShare} f : sProp 𝕄) := by unfold outPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hout, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    iexists (m ((c : Thread nD τ).loc main_v1)); rw [launch_outPts_eq]; iexact Hout
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(outPts c (total m ρ c) ∗ Pipeline.ownSems0 osem c ∗ Pipeline.scopedRest cfg0.spec c) := by
  rw [show (dats m ρ 0 c).Φ (Fin.last cfg0.N) = Φ₁ m ρ c from rfl, scopedRest0_eq]
  unfold Φ₁ scratch Pipeline.ownSems0
  exact .rfl

/-! ### The levels: a staging wait sits below everything owed at launch -/

theorem lv_stage (c : Dev nD) (q : DmaSem sig) (hq : q.val = 0) : lv ((c : Thread nD τ), SemLoc.dma q) () = 0 := by
  show (if 16 ≤ q.val ∧ q.val ≤ 30 then 2 else 0) = 0
  rw [if_neg (by omega)]
theorem launch_lv_rcv (c : Dev nD) (j : Fin 15) (u : Unit) : lv (rcvCell c j) u = 2 := by
  show (if 16 ≤ (recvS j).val ∧ (recvS j).val ≤ 30 then 2 else 0) = 2
  have := j.isLt
  rw [if_pos (by rw [recvS_val]; omega)]
theorem launch_lv_bar (c : Dev nD) (u : Unit) : lv (barCell c) u = 1 := rfl

/-- What a device owes at launch it owes to a receive cell or to a barrier cell. -/
theorem O₀_pos {c : Dev nD} {g : GSem nD τ sig} {u : Unit} (h : 0 < O₀ c g u) :
    (∃ j, g = rcvCell (pr c j) j) ∨ ∃ j, g = barCell (pr c j) := by
  unfold O₀ owedSnd owedSig at h
  rcases Pipeline.add_pos_cases h with h | h
  · obtain ⟨j, -, hj⟩ := Pipeline.sum_pos_exists h
    exact Or.inl ⟨j, (Pipeline.tallyAt_pos hj).1⟩
  · obtain ⟨j, -, hj⟩ := Pipeline.sum_pos_exists h
    exact Or.inr ⟨j, (Pipeline.tallyAt_pos hj).1⟩

theorem mayWait_stage (c : Dev nD) (q : DmaSem sig) (hq : q.val = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases O₀_pos hg with ⟨j, rfl⟩ | ⟨j, rfl⟩
    · exact ⟨by rw [L_tc]; exact Finset.mem_singleton_self _, by rw [launch_lv_rcv]; decide⟩
    · exact ⟨by rw [L_tc]; exact Finset.mem_singleton_self _, by rw [launch_lv_bar]; decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the mesh of sixteen devices, for any float values, from any memory with zero counters, given the body obligation on
    every device: every weakly fair execution of the program terminates, and every final state has each device's result
    array at the total of the sixteen column sums and its argument array unchanged. -/
theorem run_main_of (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c : Thread nD τ).loc main_v1) = total m ρ c
      ∧ r.2.mem ((c : Thread nD τ).loc main_arg0) = m ((c : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => outPts c (total m ρ c)) (Z := fun _ => iprop(emp))
    (hX := start_intro m ρ) (hin := phi0_intro m ρ) (hout := phi1_exit m ρ)
    (QY := fun c s => s.mem ((c : Thread nD τ).loc main_v1) = total m ρ c)
    (hY := fun c s' => by
      show iprop(outPts c (total m ρ c) ∗ _ ∗ _) ⊢ _
      rw [launch_outPts_eq]
      iintro ⟨Hx, -, HSI⟩
      icombine HSI Hx gives %hx
      imodintro
      isplitr; · ipureintro; exact Buf.eq_of_forall_mem_univ hx
      iexact HSI)
    (hQ := fun s h c => ⟨(h c).2.2, ((h c).1 0).trans ((dats (F := F) m ρ 0 c).arrAt_in (0 : Fin 1) rfl _)⟩)

end Cert.KernelIdealProof

end
-- ==== Proof.Value.lean ====
/-
  The value of the all-to-all sum: on every device the total is the reference's result.

  At a column `q` device `c`'s total is its own block's column sum plus the column sums of the blocks of the fifteen
  devices before it on the ring. The device itself and those fifteen are every device exactly once, so the total is the
  sum over the sixteen devices `d` of the sum over `r : Fin 1536` of the whole array at row `d * 1536 + r`; the rows
  `d * 1536 + r` are the 24576 rows of the whole array, each once, and the reference sums the column over them from zero.
  Sums of extended reals commute and associate, so no finiteness is needed.
-/
import proofs.«901076_g7700000000001077_dist_sum_ax0_shard0_i_m1536_n768_v7x_i16_f32_1_alg».proof.Proof.KernelIdealSched
import proofs.«901076_g7700000000001077_dist_sum_ax0_shard0_i_m1536_n768_v7x_i16_f32_1_alg».proof.Proof.Gen.ReferenceIdeal.Read
import Idealize.ShloMosaic.Lib.Layout
import Idealize.ShloMosaic.PureOps.Ideal.Laws
import Idealize.ShloMosaic.Lib.ValueIdx
import Idealize.ShloMosaic.Lib.Pipeline.Value
import Idealize.ShloMosaic.Lib.ValueLayout

noncomputable section

namespace Cert.ValueProof

open Cert.KernelIdeal Cert.KernelIdeal.Gen Cert.KernelIdeal.Ring Cert.KernelIdealProof
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- A device's staged block is its argument array. -/
theorem xblk_eq (c : Dev nD) : xblk (F := Ideal) m ρ c = m ((c : Thread nD τ).loc main_arg0) :=
  Memref.read_access_unit_zero (Elt Ideal) main_arg0 (funext fun a => Nat.zero_mul _) _ _

/-! ## The two payloads read at a column -/

theorem lift1536 (h : S1536x768.Reduces [0] S768) (q : Fin 768) (r : Fin 1536) :
    h.lift (ix1 q) r = ix2 r q := Shape.idx_ext₂ rfl rfl

theorem lift15 (h : S15x768.Reduces [0] S768) (q : Fin 768) (j : Fin 15) :
    h.lift (ix1 q) j = ix2 j q := Shape.idx_ext₂ rfl rfl

/-- The first payload is the block's column sums. -/
theorem pay1_apply (X : FVec Ideal S1536x768 .f32) (p : Fin 1) (q : Fin 768) :
    k0_pay1 (F := Ideal) X (ix2 p q) = ∑ r : Fin 1536, X (ix2 r q) := by
  unfold k0_pay1
  dsimp only
  rw [shapeCast_self, shapeCast_a_1a_apply, shapeCast_self]
  refine (Ideal.multiReduction_add_single X _ _ _ _ (ix1 q)).trans ?_
  exact Finset.sum_congr rfl fun r _ => congrArg X (lift1536 _ q r)

/-- The second payload adds the column sums of the fifteen received rows to the device's own row. -/
theorem pay2_apply (a : FVec Ideal S1x768 .f32) (R : FVec Ideal S15x768 .f32) (p : Fin 1) (q : Fin 768) :
    k0_pay2 (F := Ideal) a R (ix2 p q) = a (ix2 p q) + ∑ j : Fin 15, R (ix2 j q) := by
  unfold k0_pay2
  dsimp only
  rw [shapeCast_self, addf_apply, shapeCast_a_1a_apply]
  refine congrArg (a (ix2 p q) + ·) ((Ideal.multiReduction_add_single R _ _ _ _ (ix1 q)).trans ?_)
  exact Finset.sum_congr rfl fun j _ => congrArg R (lift15 _ q j)

/-! ## Sums over the ring and over the rows -/

theorem univ_eq_insert_bk (c : Dev nD) : (Finset.univ : Finset (Dev nD)) = insert c (Finset.univ.image (bk c)) := by
  revert c; decide
theorem not_mem_image_bk (c : Dev nD) : c ∉ Finset.univ.image (bk c) := by revert c; decide
theorem bk_inj (c : Dev nD) (j j' : Fin 15) (h : bk c j = bk c j') : j = j' := by revert c j j'; decide

/-- The device itself and the fifteen devices before it are every device, each once. -/
theorem sum_devs {M : Type*} [AddCommMonoid M] (c : Dev nD) (g : Dev nD → M) :
    g c + ∑ j : Fin 15, g (bk c j) = ∑ d : Dev nD, g d := by
  rw [univ_eq_insert_bk c, Finset.sum_insert (not_mem_image_bk c), Finset.sum_image fun j _ j' _ h => bk_inj c j j' h]

/-- The rows of the whole array are the sixteen blocks' rows, block after block. -/
theorem sum_rows {M : Type*} [AddCommMonoid M] (f : Fin 24576 → M) :
    ∑ k : Fin 24576, f k = ∑ d : Fin 16, ∑ r : Fin 1536, f ⟨d.val * 1536 + r.val, by omega⟩ := by
  have e := (Equiv.sum_comp (finProdFinEquiv (m := 16) (n := 1536)) (fun k : Fin (16 * 1536) => f k)).symm
  rw [Fintype.sum_prod_type] at e
  refine e.trans (Finset.sum_congr rfl fun d _ => Finset.sum_congr rfl fun r _ => congrArg f (Fin.ext ?_))
  show r.val + 1536 * d.val = d.val * 1536 + r.val
  omega

/-! ## The kernel's side at a column -/

/-- Device `d`'s block of rows. -/
def blkV (d : Dev nD) : FVec Ideal S1536x768 .f32 := m ((d : Thread nD τ).loc main_arg0)
/-- Device `d`'s column sums. -/
def mineV (d : Dev nD) : FVec Ideal S1x768 .f32 := mine m ρ d
/-- Device `c`'s total. -/
def totalV (c : Dev nD) : FVec Ideal S1x768 .f32 := total m ρ c

theorem mineV_apply (d : Dev nD) (p : Fin 1) (q : Fin 768) :
    mineV m ρ d (ix2 p q) = ∑ r : Fin 1536, blkV m d (ix2 r q) := by
  unfold mineV mine
  rw [xblk_eq]
  exact pay1_apply (blkV m d) p q

theorem totalV_apply (c : Dev nD) (p : Fin 1) (q : Fin 768) :
    totalV m ρ c (ix2 p q) = mineV m ρ c (ix2 p q) + ∑ j : Fin 15, mineV m ρ (bk c j) (ix2 (0 : Fin 1) q) := by
  unfold totalV total
  exact pay2_apply (mineV m ρ c) (rows m ρ c) p q

/-- At a column the total is the sum, over the sixteen devices, of the device's block's column sum. -/
theorem totalV_eq_sum (c : Dev nD) (p : Fin 1) (q : Fin 768) :
    totalV m ρ c (ix2 p q) = ∑ d : Dev nD, ∑ r : Fin 1536, blkV m d (ix2 r q) := by
  rw [totalV_apply, ← sum_devs c]
  simp only [mineV_apply]

/-! ## The blocks inside the whole array, and the reference's side -/

section Whole
variable (X : FVec Ideal Cert.ReferenceIdeal.S24576x768 .f32)

theorem block_idx (h : Layout.Tiles ⟨2, ![1536, 768]⟩ ⟨2, ![24576, 768]⟩ 0 16) (d : Fin 16) (r : Fin 1536) (q : Fin 768) :
    h.idx d (ix2 r q) = ix2 (⟨d.val * 1536 + r.val, by omega⟩ : Fin 24576) q := Shape.idx_ext₂ rfl rfl

/-- Row `r` of block `d` is row `d * 1536 + r` of the whole array. -/
theorem block_apply' (h : Layout.Tiles ⟨2, ![1536, 768]⟩ ⟨2, ![24576, 768]⟩ 0 16) (d : Fin 16) (r : Fin 1536) (q : Fin 768) :
    (Layout.block ⟨2, ![1536, 768]⟩ ⟨2, ![24576, 768]⟩ 0 16 d X h) (ix2 r q)
      = X (ix2 (⟨d.val * 1536 + r.val, by omega⟩ : Fin 24576) q) := by
  rw [Layout.block_apply, block_idx]

theorem ref_idx (p : Fin 1) (q : Fin 768) (k : Fin 24576) :
    Cert.ReferenceIdeal.Read.idx_main_v0 (Cert.ReferenceIdeal.Read.idx_main_v1 (ix2 p q)) k = ix2 k q :=
  Shape.idx_ext₂ rfl rfl

/-- The reference at a column: the sum of the column over all the rows. -/
theorem ref_apply (p : Fin 1) (q : Fin 768) :
    (Cert.ReferenceIdeal.Read.val_main_v1 (F := Ideal) X : FVec Ideal S1x768 .f32) (ix2 p q) = ∑ k : Fin 24576, X (ix2 k q) := by
  rw [Cert.ReferenceIdeal.Read.val_main_v1_apply, Cert.ReferenceIdeal.Read.val_main_v0_apply, Cert.ReferenceIdeal.Read.val_main_cst_apply]
  show Ideal.ofBits .f32 0x00000000#32 + _ = _
  rw [Ideal.ofBits_zero_f32, zero_add]
  exact Finset.sum_congr rfl fun k _ => congrArg X (ref_idx p q k)

end Whole

/-! ## The two sides agree -/

/-- Every device's total is the reference's result: at each column, the sixteen blocks' column sums add up to the whole array's. -/
theorem total_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdealProof.total (F := Ideal) m ρ c
      = Cert.ReferenceIdeal.Read.val_main_v1 (F := Ideal) (m' (((0 : Dev Cert.ReferenceIdeal.nD).tc : Thread Cert.ReferenceIdeal.nD Cert.ReferenceIdeal.τ).loc Cert.ReferenceIdeal.main_arg0)) := by
  funext i
  obtain ⟨p, q, rfl⟩ : ∃ (p : Fin 1) (q : Fin 768), i = ix2 p q := ⟨i 0, i 1, eq_ix2 i⟩
  refine (totalV_eq_sum m ρ c p q).trans ?_
  refine Eq.trans ?_ (ref_apply _ p q).symm
  rw [sum_rows]
  refine Finset.sum_congr rfl fun d _ => Finset.sum_congr rfl fun r _ => ?_
  unfold blkV
  rw [hagree d]
  exact block_apply' _ _ d r q

end Cert.ValueProof

end
-- ==== Proof.lean ====
/-
  An all-to-all sum on sixteen devices against a one-device sum: the certificate's claims assembled.

  Each device holds a block of 1536 of the 24576 rows of the argument. It sums its block's rows into 768 column sums,
  sends them to each of the fifteen other devices, and adds the fifteen it receives to its own: its result is the sum, over
  the sixteen devices, of their blocks' column sums. The reference sums all 24576 rows on one device. The two agree column
  by column, because the rows of the whole array are the rows of the sixteen blocks, each once, and at the ideal instance a
  finite sum may be taken in any grouping.

  The three frame claims: each program terminates from any memory, whatever the schedule, with its argument arrays as they
  were (for the two kernels from the run of the ring protocol given every device's body, for the reference from the run of its
  three host operations). The kernel's idealization rewrote no operation. The value claim: the kernel's run leaves every
  device's result at its total, the total is the reference's value, and the reference's run leaves that value.
-/
import proofs.«901076_g7700000000001077_dist_sum_ax0_shard0_i_m1536_n768_v7x_i16_f32_1_alg».proof.Defs
import proofs.«901076_g7700000000001077_dist_sum_ax0_shard0_i_m1536_n768_v7x_i16_f32_1_alg».proof.Proof.Gen.Kernel
import proofs.«901076_g7700000000001077_dist_sum_ax0_shard0_i_m1536_n768_v7x_i16_f32_1_alg».proof.Proof.Gen.KernelIdeal
import proofs.«901076_g7700000000001077_dist_sum_ax0_shard0_i_m1536_n768_v7x_i16_f32_1_alg».proof.Proof.Gen.ReferenceIdeal
import proofs.«901076_g7700000000001077_dist_sum_ax0_shard0_i_m1536_n768_v7x_i16_f32_1_alg».proof.Proof.Gen.Pre_finite_inputs_Kernel
import proofs.«901076_g7700000000001077_dist_sum_ax0_shard0_i_m1536_n768_v7x_i16_f32_1_alg».proof.Proof.Gen.Pre_finite_inputs_ReferenceIdeal
import proofs.«901076_g7700000000001077_dist_sum_ax0_shard0_i_m1536_n768_v7x_i16_f32_1_alg».proof.Proof.Gen.ReferenceIdeal.Run
import proofs.«901076_g7700000000001077_dist_sum_ax0_shard0_i_m1536_n768_v7x_i16_f32_1_alg».proof.Proof.Gen.ReferenceIdeal.Read
import proofs.«901076_g7700000000001077_dist_sum_ax0_shard0_i_m1536_n768_v7x_i16_f32_1_alg».proof.Proof.KernelBody
import proofs.«901076_g7700000000001077_dist_sum_ax0_shard0_i_m1536_n768_v7x_i16_f32_1_alg».proof.Proof.KernelLaunch
import proofs.«901076_g7700000000001077_dist_sum_ax0_shard0_i_m1536_n768_v7x_i16_f32_1_alg».proof.Proof.KernelIdealBody
import proofs.«901076_g7700000000001077_dist_sum_ax0_shard0_i_m1536_n768_v7x_i16_f32_1_alg».proof.Proof.KernelIdealLaunch
import proofs.«901076_g7700000000001077_dist_sum_ax0_shard0_i_m1536_n768_v7x_i16_f32_1_alg».proof.Proof.Value

noncomputable section

namespace Cert.Proof

open Idealize.ShloMosaic Idealize.ShloMosaic.TcCoe Idealize.SL.Sem

/-- The kernel as printed terminates with each device's block of the argument as it was. -/
theorem frame_k : Cert.frame_Kernel := fun m ρ _ =>
  (θ_run Cert.Kernel.defs _ _).mono (fun _ h c => (h c).2)
    (Cert.KernelProof.run_main_of (F := Bits) m ρ (Cert.KernelProof.body_obligation (F := Bits) m ρ))

/-- So does its idealization. -/
theorem frame_ki : Cert.frame_KernelIdeal := fun m ρ _ =>
  (θ_run Cert.KernelIdeal.defs _ _).mono (fun _ h c => (h c).2)
    (Cert.KernelIdealProof.run_main_of (F := Ideal) m ρ (Cert.KernelIdealProof.body_obligation (F := Ideal) m ρ))

/-- The reference terminates with the whole argument as it was. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories in which device `c` holds block `c` of the reference's argument, every device's result ends at the sum of
    the whole array's rows, which is where the reference's result ends; the arguments of both end as they were. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.ValueProof.total_eq m ρ m' hagree c), (h c).2⟩)
      (Cert.KernelIdealProof.run_main_of (F := Ideal) m ρ (Cert.KernelIdealProof.body_obligation (F := Ideal) m ρ))
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
